-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024 : Shape := ⟨2, ![4, 1024]⟩
abbrev S256x50257 : Shape := ⟨2, ![256, 50257]⟩
abbrev S256 : Shape := ⟨1, ![256]⟩
abbrev S50257x256 : Shape := ⟨2, ![50257, 256]⟩
abbrev S50257 : Shape := ⟨1, ![50257]⟩
abbrev S_ : Shape := ⟨0, ![]⟩

class Facts : Prop where
  bcast_S_S256x50257 : S_.BroadcastsInDim S256x50257 (![] : Fin 0 → Fin S256x50257.rank)
  reducesTo_S256x50257_S_d0_1 : S256x50257.ReducesTo [0, 1] S_
  h_S_ : 0 < S_.numel
  bcast_S_S256 : S_.BroadcastsInDim S256 (![] : Fin 0 → Fin S256.rank)
  reducesTo_S256_S_d0 : S256.ReducesTo [0] S_
  bcast_S_S50257x256 : S_.BroadcastsInDim S50257x256 (![] : Fin 0 → Fin S50257x256.rank)
  reducesTo_S50257x256_S_d0_1 : S50257x256.ReducesTo [0, 1] S_
  bcast_S_S50257 : S_.BroadcastsInDim S50257 (![] : Fin 0 → Fin S50257.rank)
  reducesTo_S50257_S_d0 : S50257.ReducesTo [0] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_v30 : IVec S_ 1) (main_v32 : IVec S4x1024 1) : IVec S_ 1 :=
  let main_c_13 : IVec S_ 1 := constantI S_ 1 1#1
  let main_v33 : IVec S_ 1 := (fun x v => Host.reduce IntOp.andi x v reducesTo_S4x1024_S_d0_1 h_S_) main_v32 main_c_13
  let main_v34 : IVec S_ 1 := andi main_v30 main_v33
  main_v34

def fn_part1 {F : FTy → Type} [FloatOps F] (main_arg0 : IVec S4x1024 32) (main_arg1 : IVec S4x1024 32) (main_v13 : IVec S_ 1) (main_v16 : IVec S50257 1) : IVec S_ 1 :=
  let main_c_5 : IVec S_ 1 := constantI S_ 1 1#1
  let main_v17 : IVec S_ 1 := (fun x v => Host.reduce IntOp.andi x v reducesTo_S50257_S_d0 h_S_) main_v16 main_c_5
  let main_v18 : IVec S_ 1 := andi main_v13 main_v17
  let main_c_6 : IVec S_ 32 := constantI S_ 32 0#32
  let main_v19 : IVec S4x1024 32 := broadcastInDim S4x1024 ![] bcast_S_S4x1024 main_c_6
  let main_v20 : IVec S4x1024 1 := cmpi .sge main_arg0 main_v19
  let main_c_7 : IVec S_ 1 := constantI S_ 1 1#1
  let main_v21 : IVec S_ 1 := (fun x v => Host.reduce IntOp.andi x v reducesTo_S4x1024_S_d0_1 h_S_) main_v20 main_c_7
  let main_v22 : IVec S_ 1 := andi main_v18 main_v21
  let main_c_8 : IVec S_ 32 := constantI S_ 32 50257#32
  let main_v23 : IVec S4x1024 32 := broadcastInDim S4x1024 ![] bcast_S_S4x1024 main_c_8
  let main_v24 : IVec S4x1024 1 := cmpi .slt main_arg0 main_v23
  let main_c_9 : IVec S_ 1 := constantI S_ 1 1#1
  let main_v25 : IVec S_ 1 := (fun x v => Host.reduce IntOp.andi x v reducesTo_S4x1024_S_d0_1 h_S_) main_v24 main_c_9
  let main_v26 : IVec S_ 1 := andi main_v22 main_v25
  let main_c_10 : IVec S_ 32 := constantI S_ 32 0#32
  let main_v27 : IVec S4x1024 32 := broadcastInDim S4x1024 ![] bcast_S_S4x1024 main_c_10
  let main_v28 : IVec S4x1024 1 := cmpi .sge main_arg1 main_v27
  let main_c_11 : IVec S_ 1 := constantI S_ 1 1#1
  let main_v29 : IVec S_ 1 := (fun x v => Host.reduce IntOp.andi x v reducesTo_S4x1024_S_d0_1 h_S_) main_v28 main_c_11
  let main_v30 : IVec S_ 1 := andi main_v26 main_v29
  let main_c_12 : IVec S_ 32 := constantI S_ 32 50257#32
  let main_v31 : IVec S4x1024 32 := broadcastInDim S4x1024 ![] bcast_S_S4x1024 main_c_12
  let main_v32 : IVec S4x1024 1 := cmpi .slt main_arg1 main_v31
  fn_part2 (F := F) main_v30 main_v32

def fn {F : FTy → Type} [FloatOps F] (main_arg0 : IVec S4x1024 32) (main_arg1 : IVec S4x1024 32) (main_arg2 : FVec F S256x50257 .f32) (main_arg3 : FVec F S256 .f32) (main_arg4 : FVec F S50257x256 .f32) (main_arg5 : FVec F S50257 .f32) : IVec S_ 1 :=
  let main_v0 : FVec F S256x50257 .f32 := Host.absf main_arg2
  let main_cst : FVec F S_ .f32 := constant S_ .f32 0x7F800000#32
  let main_v1 : FVec F S256x50257 .f32 := broadcastInDim S256x50257 ![] bcast_S_S256x50257 main_cst
  let main_v2 : IVec S256x50257 1 := cmpf .olt main_v0 main_v1
  let main_c : IVec S_ 1 := constantI S_ 1 1#1
  let main_v3 : IVec S_ 1 := (fun x v => Host.reduce IntOp.andi x v reducesTo_S256x50257_S_d0_1 h_S_) main_v2 main_c
  let main_v4 : FVec F S256 .f32 := Host.absf main_arg3
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S50257x256 .f32 := Host.absf main_arg4
  let main_cst_2 : FVec F S_ .f32 := constant S_ .f32 0x7F800000#32
  let main_v10 : FVec F S50257x256 .f32 := broadcastInDim S50257x256 ![] bcast_S_S50257x256 main_cst_2
  let main_v11 : IVec S50257x256 1 := cmpf .olt main_v9 main_v10
  let main_c_3 : IVec S_ 1 := constantI S_ 1 1#1
  let main_v12 : IVec S_ 1 := (fun x v => Host.reduce IntOp.andi x v reducesTo_S50257x256_S_d0_1 h_S_) main_v11 main_c_3
  let main_v13 : IVec S_ 1 := andi main_v8 main_v12
  let main_v14 : FVec F S50257 .f32 := Host.absf main_arg5
  let main_cst_4 : FVec F S_ .f32 := constant S_ .f32 0x7F800000#32
  let main_v15 : FVec F S50257 .f32 := broadcastInDim S50257 ![] bcast_S_S50257 main_cst_4
  let main_v16 : IVec S50257 1 := cmpf .olt main_v14 main_v15
  fn_part1 (F := F) main_arg0 main_arg1 main_v13 main_v16
-- ==== Kernel.lean ====
abbrev S4x1024 : Shape := ⟨2, ![4, 1024]⟩
abbrev S256x50257 : Shape := ⟨2, ![256, 50257]⟩
abbrev S256 : Shape := ⟨1, ![256]⟩
abbrev S50257x256 : Shape := ⟨2, ![50257, 256]⟩
abbrev S50257 : Shape := ⟨1, ![50257]⟩
abbrev S4096x1 : Shape := ⟨2, ![4096, 1]⟩
abbrev S4096 : Shape := ⟨1, ![4096]⟩
abbrev S_ : Shape := ⟨0, ![]⟩
abbrev S1 : Shape := ⟨1, ![1]⟩
abbrev S1x1 : Shape := ⟨2, ![1, 1]⟩
abbrev S256x4096 : Shape := ⟨2, ![256, 4096]⟩
abbrev S4096x256 : Shape := ⟨2, ![4096, 256]⟩
abbrev S1x256 : Shape := ⟨2, ![1, 256]⟩
abbrev S50688x256 : Shape := ⟨2, ![50688, 256]⟩
abbrev S1x50257 : Shape := ⟨2, ![1, 50257]⟩
abbrev S1x50688 : Shape := ⟨2, ![1, 50688]⟩
abbrev S4096x50257 : Shape := ⟨2, ![4096, 50257]⟩
abbrev S2048x256 : Shape := ⟨2, ![2048, 256]⟩
abbrev S512x256 : Shape := ⟨2, ![512, 256]⟩
abbrev S1x512 : Shape := ⟨2, ![1, 512]⟩
abbrev S2048x1 : Shape := ⟨2, ![2048, 1]⟩
abbrev S2048x512 : Shape := ⟨2, ![2048, 512]⟩
abbrev S2048 : Shape := ⟨1, ![2048]⟩
abbrev S4x1024x50257 : Shape := ⟨3, ![4, 1024, 50257]⟩

abbrev nBuf : Space → Nat
  | .hbm => 55
  | .vmem => 15
  | .smem => 0
  | _ => 0

abbrev bufTy : (tb : Table) → Fin (tcTables nBuf tb) → BufTy
  | .hbm, ⟨0, _⟩ => ⟨S4x1024, .i32⟩
  | .hbm, ⟨1, _⟩ => ⟨S4x1024, .i32⟩
  | .hbm, ⟨2, _⟩ => ⟨S256x50257, .f32⟩
  | .hbm, ⟨3, _⟩ => ⟨S256, .f32⟩
  | .hbm, ⟨4, _⟩ => ⟨S50257x256, .f32⟩
  | .hbm, ⟨5, _⟩ => ⟨S50257, .f32⟩
  | .hbm, ⟨6, _⟩ => ⟨S4096x1, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S1x1, .i32⟩
  | .hbm, ⟨21, _⟩ => ⟨S4096x1, .i32⟩
  | .hbm, ⟨22, _⟩ => ⟨S4096x1, .i1⟩
  | .hbm, ⟨23, _⟩ => ⟨S4096x1, .i1⟩
  | .hbm, ⟨24, _⟩ => ⟨S_, .i1⟩
  | .hbm, ⟨25, _⟩ => ⟨S4096, .i1⟩
  | .hbm, ⟨26, _⟩ => ⟨S256x4096, .f32⟩
  | .hbm, ⟨27, _⟩ => ⟨S256x4096, .i1⟩
  | .hbm, ⟨28, _⟩ => ⟨S_, .f32⟩
  | .hbm, ⟨29, _⟩ => ⟨S256x4096, .f32⟩
  | .hbm, ⟨30, _⟩ => ⟨S256x4096, .f32⟩
  | .hbm, ⟨31, _⟩ => ⟨S4096x256, .f32⟩
  | .hbm, ⟨32, _⟩ => ⟨S1x256, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096x256, .f32⟩
  | .hbm, ⟨37, _⟩ => ⟨S4096x256, .f32⟩
  | .hbm, ⟨38, _⟩ => ⟨S4096x256, .bf16⟩
  | .hbm, ⟨39, _⟩ => ⟨S50257x256, .bf16⟩
  | .hbm, ⟨40, _⟩ => ⟨S_, .i32⟩
  | .hbm, ⟨41, _⟩ => ⟨S_, .bf16⟩
  | .hbm, ⟨42, _⟩ => ⟨S50688x256, .bf16⟩
  | .hbm, ⟨43, _⟩ => ⟨S1x50257, .f32⟩
  | .hbm, ⟨44, _⟩ => ⟨S_, .i32⟩
  | .hbm, ⟨45, _⟩ => ⟨S_, .f32⟩
  | .hbm, ⟨46, _⟩ => ⟨S1x50688, .f32⟩
  | .hbm, ⟨47, _⟩ => ⟨S4096x50257, .f32⟩
  | .hbm, ⟨48, _⟩ => ⟨S4096x1, .f32⟩
  | .hbm, ⟨49, _⟩ => ⟨S4x1024x50257, .f32⟩
  | .hbm, ⟨50, _⟩ => ⟨S4x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S512x256, .bf16⟩
  | .local _ .vmem, ⟨3, _⟩ => ⟨S512x256, .bf16⟩
  | .local _ .vmem, ⟨4, _⟩ => ⟨S1x512, .f32⟩
  | .local _ .vmem, ⟨5, _⟩ => ⟨S1x512, .f32⟩
  | .local _ .vmem, ⟨6, _⟩ => ⟨S2048x1, .i32⟩
  | .local _ .vmem, ⟨7, _⟩ => ⟨S2048x1, .i32⟩
  | .local _ .vmem, ⟨8, _⟩ => ⟨S2048x512, .f32⟩
  | .local _ .vmem, ⟨9, _⟩ => ⟨S2048x512, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | _, _ => ⟨S4x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_call1_cst : Ref sig .tc := ⟨.hbm, 35, rfl⟩
abbrev main_call1_v0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_c : Ref sig .tc := ⟨.hbm, 40, rfl⟩
abbrev main_call2_v0 : Ref sig .tc := ⟨.hbm, 41, rfl⟩
abbrev main_v10 : Ref sig .tc := ⟨.hbm, 42, rfl⟩
abbrev main_v11 : Ref sig .tc := ⟨.hbm, 43, rfl⟩
abbrev main_c_0 : Ref sig .tc := ⟨.hbm, 44, rfl⟩
abbrev main_call3_v0 : Ref sig .tc := ⟨.hbm, 45, rfl⟩
abbrev main_v12 : Ref sig .tc := ⟨.hbm, 46, rfl⟩
abbrev main_v13_0 : Ref sig .tc := ⟨.hbm, 47, rfl⟩
abbrev main_v13_1 : Ref sig .tc := ⟨.hbm, 48, rfl⟩
abbrev main_v14 : Ref sig .tc := ⟨.hbm, 49, rfl⟩
abbrev main_v15 : Ref sig .tc := ⟨.hbm, 50, rfl⟩
abbrev main_cst : Ref sig .tc := ⟨.hbm, 51, rfl⟩
abbrev main_v16 : Ref sig .tc := ⟨.hbm, 52, rfl⟩
abbrev main_cst_1 : Ref sig .tc := ⟨.hbm, 53, rfl⟩
abbrev main_v17 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 99], ![false, false]⟩

def k0_cond2 (i : grid0.Coords) : BitVec 1 :=
  let arg1 : BitVec 32 := BitVec.ofNat 32 (i 1).val
  let c98_i32 : BitVec 32 := 98#32
  let v55 : BitVec 1 := Scalar.cmpi .eq arg1 c98_i32
  let v56 : BitVec 32 := Scalar.extui v55
  let c0_i32_29 : BitVec 32 := 0#32
  let v57 : BitVec 1 := Scalar.cmpi .ne v56 c0_i32_29
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x1024_S4096x1 : S4x1024.ShapeCasts S4096x1
  shapeCasts_S4x1024_S4096 : S4x1024.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S256x4096_1 : S4096.BroadcastsInDim S256x4096 (![1] : Fin 1 → Fin S256x4096.rank)
  bcast_S_S256x4096 : S_.BroadcastsInDim S256x4096 (![] : Fin 0 → Fin S256x4096.rank)
  transposes_S256x4096_S4096x256_1_0 : S256x4096.Transposes [1, 0] S4096x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bitsLt_bf16_f32 : FTy.bits .bf16 < FTy.bits .f32
  pads_S50257x256_S50688x256_04310_000 : S50257x256.Pads (![0, 0] : Fin 2 → Nat) ![431, 0] ![0, 0] S50688x256
  shapeCasts_S50257_S1x50257 : S50257.ShapeCasts S1x50257
  pads_S1x50257_S1x50688_000_04310 : S1x50257.Pads (![0, 0] : Fin 2 → Nat) ![0, 431] ![0, 0] S1x50688
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  iota_S2048x512_d1_w32 : S2048x512.Iotas .tc 32 [1]
  broadcasts_S2048x1_S2048x512 : S2048x1.Broadcasts S2048x512
  reduces_S2048x512_S2048 : S2048x512.Reduces [1] S2048
  shapeCasts_S2048_S2048x1 : S2048.ShapeCasts S2048x1
  shapeCasts_S4096x50257_S4x1024x50257 : S4096x50257.ShapeCasts S4x1024x50257
  shapeCasts_S4096x1_S4x1024 : S4096x1.ShapeCasts S4x1024
  reducesTo_S4x1024_S_d0_1 : S4x1024.ReducesTo [0, 1] S_
  gather_S256x50257_S4096x1_S256x4096_0_1_n_n_1_1_2561_wf : GatherDims.WF S256x50257 S4096x1 S256x4096 [0] [1] [] [1] [] 1 ![256, 1]
  dot_S2048x256_S512x256_S2048x512_1_1_0_0_n_n_wf : DotDims.WF S2048x256 S512x256 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .bf16 = 32 ∨ (Rect.block (s := S4096x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S50688x256.size a
  hwx0_1 : ∀ i : grid0.Coords, EltTy.bits .bf16 = 32 ∨ (Rect.block (s := S50688x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x50688.size a
  hwx0_2 : ∀ i : grid0.Coords, EltTy.bits .f32 = 32 ∨ (Rect.block (s := S1x50688) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .i32 = 32 ∨ (Rect.block (s := S4096x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2048x512.size a < S4096x50257.size a
  hwx0_4 : ∀ i : grid0.Coords, EltTy.bits .f32 = 32 ∨ (Rect.unit (s := S4096x50257) (fun a => cc0_transform_4 i a * S2048x512.size a) (fun a => (Pipeline.Clip.of (cc0_transform_4 i a) (S2048x512.size a) (S4096x50257.size a)).extent (S2048x512.size a)) fun a => Pipeline.Clip.inb (Pipeline.Clip.ok_of (hstart0_4 i a))).WholeWords (EltTy.packing .f32)
  hwxs0_4 : ∀ i : grid0.Coords, EltTy.bits .f32 = 32 ∨ (Rect.unit (s := S2048x512) (fun _ => 0) (fun a => (Pipeline.Clip.of (cc0_transform_4 i a) (S2048x512.size a) (S4096x50257.size a)).extent (S2048x512.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S4096x1.size a
  hwx0_5 : ∀ i : grid0.Coords, EltTy.bits .f32 = 32 ∨ (Rect.block (s := S4096x1) S2048x1.size (cc0_transform_5 i) (hinb0_5 i)).WholeWords (EltTy.packing .f32)

variable [Facts₀]

def gather_S256x50257_S4096x1_S256x4096_0_1_n_n_1_1_2561 : GatherDims S256x50257 S4096x1 S256x4096 where
  offsetDims := [0]
  collapsedSliceDims := [1]
  operandBatchingDims := []
  startIndicesBatchingDims := []
  startIndexMap := [1]
  indexVectorDim := 1
  sliceSizes := ![256, 1]
  wf := gather_S256x50257_S4096x1_S256x4096_0_1_n_n_1_1_2561_wf
def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf

abbrev win0_0 : Pipeline.Window sig grid0 :=
  Pipeline.Window.ofSpec (Memref.whole main_v8) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v13_0) S2048x512.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v13_1) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x1024 : Shape := ⟨2, ![4, 1024]⟩
abbrev S256x50257 : Shape := ⟨2, ![256, 50257]⟩
abbrev S256 : Shape := ⟨1, ![256]⟩
abbrev S50257x256 : Shape := ⟨2, ![50257, 256]⟩
abbrev S50257 : Shape := ⟨1, ![50257]⟩
abbrev S_ : Shape := ⟨0, ![]⟩
abbrev S4x1024x1 : Shape := ⟨3, ![4, 1024, 1]⟩
abbrev S4x1024x256 : Shape := ⟨3, ![4, 1024, 256]⟩
abbrev S1x1x256 : Shape := ⟨3, ![1, 1, 256]⟩
abbrev S4x1024x50257 : Shape := ⟨3, ![4, 1024, 50257]⟩
abbrev S1x1x50257 : Shape := ⟨3, ![1, 1, 50257]⟩
abbrev S4x1024x1x1 : Shape := ⟨4, ![4, 1024, 1, 1]⟩
abbrev S1 : Shape := ⟨1, ![1]⟩
abbrev S1x1x1x1 : Shape := ⟨4, ![1, 1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4x1024, .i32⟩
  | .hbm, ⟨1, _⟩ => ⟨S4x1024, .i32⟩
  | .hbm, ⟨2, _⟩ => ⟨S256x50257, .f32⟩
  | .hbm, ⟨3, _⟩ => ⟨S256, .f32⟩
  | .hbm, ⟨4, _⟩ => ⟨S50257x256, .f32⟩
  | .hbm, ⟨5, _⟩ => ⟨S50257, .f32⟩
  | .hbm, ⟨6, _⟩ => ⟨S50257x256, .f32⟩
  | .hbm, ⟨7, _⟩ => ⟨S_, .i32⟩
  | .hbm, ⟨8, _⟩ => ⟨S4x1024, .i32⟩
  | .hbm, ⟨9, _⟩ => ⟨S4x1024, .i1⟩
  | .hbm, ⟨10, _⟩ => ⟨S_, .i32⟩
  | .hbm, ⟨11, _⟩ => ⟨S4x1024, .i32⟩
  | .hbm, ⟨12, _⟩ => ⟨S4x1024, .i32⟩
  | .hbm, ⟨13, _⟩ => ⟨S4x1024, .i32⟩
  | .hbm, ⟨14, _⟩ => ⟨S4x1024x1, .i32⟩
  | .hbm, ⟨15, _⟩ => ⟨S4x1024x256, .f32⟩
  | .hbm, ⟨16, _⟩ => ⟨S1x1x256, .f32⟩
  | .hbm, ⟨17, _⟩ => ⟨S4x1024x256, .f32⟩
  | .hbm, ⟨18, _⟩ => ⟨S4x1024x256, .f32⟩
  | .hbm, ⟨19, _⟩ => ⟨S_, .f32⟩
  | .hbm, ⟨20, _⟩ => ⟨S4x1024x256, .f32⟩
  | .hbm, ⟨21, _⟩ => ⟨S4x1024x256, .f32⟩
  | .hbm, ⟨22, _⟩ => ⟨S4x1024x50257, .f32⟩
  | .hbm, ⟨23, _⟩ => ⟨S1x1x50257, .f32⟩
  | .hbm, ⟨24, _⟩ => ⟨S4x1024x50257, .f32⟩
  | .hbm, ⟨25, _⟩ => ⟨S4x1024x50257, .f32⟩
  | .hbm, ⟨26, _⟩ => ⟨S_, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024x1, .f32⟩
  | .hbm, ⟨32, _⟩ => ⟨S4x1024x50257, .f32⟩
  | .hbm, ⟨33, _⟩ => ⟨S4x1024x50257, .f32⟩
  | .hbm, ⟨34, _⟩ => ⟨S4x1024x50257, .f32⟩
  | .hbm, ⟨35, _⟩ => ⟨S_, .f32⟩
  | .hbm, ⟨36, _⟩ => ⟨S4x1024, .f32⟩
  | .hbm, ⟨37, _⟩ => ⟨S4x1024x1, .f32⟩
  | .hbm, ⟨38, _⟩ => ⟨S4x1024x1, .f32⟩
  | .hbm, ⟨39, _⟩ => ⟨S4x1024x50257, .f32⟩
  | .hbm, ⟨40, _⟩ => ⟨S4x1024x50257, .f32⟩
  | .hbm, ⟨41, _⟩ => ⟨S4x1024x1, .i32⟩
  | .hbm, ⟨42, _⟩ => ⟨S_, .i32⟩
  | .hbm, ⟨43, _⟩ => ⟨S4x1024x1, .i32⟩
  | .hbm, ⟨44, _⟩ => ⟨S4x1024x1, .i1⟩
  | .hbm, ⟨45, _⟩ => ⟨S_, .i32⟩
  | .hbm, ⟨46, _⟩ => ⟨S4x1024x1, .i32⟩
  | .hbm, ⟨47, _⟩ => ⟨S4x1024x1, .i32⟩
  | .hbm, ⟨48, _⟩ => ⟨S4x1024x1, .i32⟩
  | .hbm, ⟨49, _⟩ => ⟨S4x1024x1x1, .i32⟩
  | .hbm, ⟨50, _⟩ => ⟨S1, .i32⟩
  | .hbm, ⟨51, _⟩ => ⟨S_, .i32⟩
  | .hbm, ⟨52, _⟩ => ⟨S4x1024x1x1, .i32⟩
  | .hbm, ⟨53, _⟩ => ⟨S4x1024x1x1, .i1⟩
  | .hbm, ⟨54, _⟩ => ⟨S1x1x1x1, .i32⟩
  | .hbm, ⟨55, _⟩ => ⟨S4x1024x1x1, .i32⟩
  | .hbm, ⟨56, _⟩ => ⟨S4x1024x1x1, .i1⟩
  | .hbm, ⟨57, _⟩ => ⟨S4x1024x1x1, .i1⟩
  | .hbm, ⟨58, _⟩ => ⟨S_, .i1⟩
  | .hbm, ⟨59, _⟩ => ⟨S4x1024x1, .i1⟩
  | .hbm, ⟨60, _⟩ => ⟨S4x1024x1, .f32⟩
  | .hbm, ⟨61, _⟩ => ⟨S_, .f32⟩
  | .hbm, ⟨62, _⟩ => ⟨S4x1024x1, .f32⟩
  | .hbm, ⟨63, _⟩ => ⟨S4x1024x1, .f32⟩
  | .hbm, ⟨64, _⟩ => ⟨S4x1024, .f32⟩
  | .hbm, ⟨65, _⟩ => ⟨S4x1024, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S4x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v16 : Ref sig .tc := ⟨.hbm, 40, rfl⟩
abbrev main_v17 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst : Ref sig .tc := ⟨.hbm, 66, rfl⟩
abbrev main_v21 : Ref sig .tc := ⟨.hbm, 67, rfl⟩
abbrev main_cst_1 : Ref sig .tc := ⟨.hbm, 68, rfl⟩
abbrev main_v22 : Ref sig .tc := ⟨.hbm, 69, rfl⟩

abbrev nD : Nat := 1
abbrev τ : Topo := Topo.v7x

variable {F : FTy → Type} [FloatOps F]

class Facts₀ : Prop where
  transposes_S256x50257_S50257x256_1_0 : S256x50257.Transposes [1, 0] S50257x256
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S256_S1x1x256_2 : S256.BroadcastsInDim S1x1x256 (![2] : Fin 1 → Fin S1x1x256.rank)
  bcast_S1x1x256_S4x1024x256_0_1_2 : S1x1x256.BroadcastsInDim S4x1024x256 (![0, 1, 2] : Fin 3 → Fin S4x1024x256.rank)
  bcast_S_S4x1024x256 : S_.BroadcastsInDim S4x1024x256 (![] : Fin 0 → Fin S4x1024x256.rank)
  bcast_S50257_S1x1x50257_2 : S50257.BroadcastsInDim S1x1x50257 (![2] : Fin 1 → Fin S1x1x50257.rank)
  bcast_S1x1x50257_S4x1024x50257_0_1_2 : S1x1x50257.BroadcastsInDim S4x1024x50257 (![0, 1, 2] : Fin 3 → Fin S4x1024x50257.rank)
  reducesTo_S4x1024x50257_S4x1024_d2 : S4x1024x50257.ReducesTo [2] S4x1024
  h_S_ : 0 < S_.numel
  bcast_S4x1024x1_S4x1024x50257_0_1_2 : S4x1024x1.BroadcastsInDim S4x1024x50257 (![0, 1, 2] : Fin 3 → Fin S4x1024x50257.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  shapeCasts_S4x1024x1_S4x1024 : S4x1024x1.ShapeCasts S4x1024
  reducesTo_S4x1024_S_d0_1 : S4x1024.ReducesTo [0, 1] S_
  gather_S50257x256_S4x1024x1_S4x1024x256_2_0_n_n_0_2_1256_wf : GatherDims.WF S50257x256 S4x1024x1 S4x1024x256 [2] [0] [] [0] [] 2 ![1, 256]
  dot_S4x1024x256_S50257x256_S4x1024x50257_2_1_01_0_n_n_wf : DotDims.WF S4x1024x256 S50257x256 S4x1024x50257 [2] [1] [0, 1] [0] [] []
  gather_S4x1024x50257_S4x1024x1x1_S4x1024x1_n_2_01_01_2_3_111_wf : GatherDims.WF S4x1024x50257 S4x1024x1x1 S4x1024x1 [] [2] [0, 1] [2] [0, 1] 3 ![1, 1, 1]

variable [Facts₀]

def gather_S50257x256_S4x1024x1_S4x1024x256_2_0_n_n_0_2_1256 : GatherDims S50257x256 S4x1024x1 S4x1024x256 where
  offsetDims := [2]
  collapsedSliceDims := [0]
  operandBatchingDims := []
  startIndicesBatchingDims := []
  startIndexMap := [0]
  indexVectorDim := 2
  sliceSizes := ![1, 256]
  wf := gather_S50257x256_S4x1024x1_S4x1024x256_2_0_n_n_0_2_1256_wf
def dot_S4x1024x256_S50257x256_S4x1024x50257_2_1_01_0_n_n : DotDims S4x1024x256 S50257x256 S4x1024x50257 where
  lhsContracting := [2]
  rhsContracting := [1]
  lhsNonContracting := [0, 1]
  rhsNonContracting := [0]
  lhsBatch := []
  rhsBatch := []
  wf := dot_S4x1024x256_S50257x256_S4x1024x50257_2_1_01_0_n_n_wf
def gather_S4x1024x50257_S4x1024x1x1_S4x1024x1_n_2_01_01_2_3_111 : GatherDims S4x1024x50257 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x50257_S4x1024x1x1_S4x1024x1_n_2_01_01_2_3_111_wf

class Facts : Prop extends Facts₀ where

variable [Facts]
-- ==== Proof.Spec.lean ====
/-
  The function both programs compute, over the extended reals.

  A token `(b, s)` selects column `idx[b, s]` of the 256 × 50257 table `W1`; its hidden vector is that column plus `b1`,
  clipped below at zero. Its 50257 logits are the hidden vector's products with the rows of `W2`, plus `b2`. Its loss
  term is the negative log-softmax of the logits at column `targets[b, s]`, in the two-pass form (subtract the row's
  maximum, exponentiate, sum, take the logarithm). The two results are the array of all logits and the mean of the 4096
  loss terms. When every entry of the four float arrays is a real number, so is every logit; the row of reals behind a
  token's logits is what a block-by-block scan of the row runs over.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An extended real that is a real number. -/
def IsReal (x : EReal) : Prop := ∃ r : ℝ, x = (r : EReal)

/-- The batch coordinate of flat token `t = 1024 b + s`. -/
def tokB (t : Fin 4096) : Fin 4 := ⟨t.val / 1024, by have := t.isLt; omega⟩

/-- The sequence coordinate of flat token `t = 1024 b + s`. -/
def tokS (t : Fin 4096) : Fin 1024 := ⟨t.val % 1024, Nat.mod_lt _ (by norm_num)⟩

section
variable (idx tgt : (⟨2, ![4, 1024]⟩ : Shape).Idx → BitVec 32)
variable (W1 : (⟨2, ![256, 50257]⟩ : Shape).Idx → EReal) (b1 : (⟨1, ![256]⟩ : Shape).Idx → EReal)
variable (W2 : (⟨2, ![50257, 256]⟩ : Shape).Idx → EReal) (b2 : (⟨1, ![50257]⟩ : Shape).Idx → EReal)

/-- The table column token `(b, s)` selects (reduced into range, which changes nothing for an index already in range). -/
def col (b : Fin 4) (s : Fin 1024) : Fin 50257 := ⟨(idx (ix2 b s)).toNat % 50257, Nat.mod_lt _ (by norm_num)⟩

/-- The label column of token `(b, s)`, likewise. -/
def lab (b : Fin 4) (s : Fin 1024) : Fin 50257 := ⟨(tgt (ix2 b s)).toNat % 50257, Nat.mod_lt _ (by norm_num)⟩

/-- The hidden vector: the selected column plus the bias, clipped below at zero. -/
def hidden (b : Fin 4) (s : Fin 1024) (h : Fin 256) : EReal := max (W1 (ix2 h (col idx b s)) + b1 (ix1 h)) 0

/-- The logits: the hidden vector against row `v` of `W2`, plus the bias. -/
def logit (b : Fin 4) (s : Fin 1024) (v : Fin 50257) : EReal :=
  (∑ h : Fin 256, hidden idx W1 b1 b s h * W2 (ix2 v h)) + b2 (ix1 v)

/-- The row of reals behind a token's logits. -/
def xrow (b : Fin 4) (s : Fin 1024) : Fin 50257 → ℝ := fun v => (logit idx W1 b1 W2 b2 b s v).toReal

/-- The sum of two real numbers is a real number. -/
private theorem isReal_add {x y : EReal} (hx : IsReal x) (hy : IsReal y) : IsReal (x + y) := by
  obtain ⟨r, rfl⟩ := hx
  obtain ⟨t, rfl⟩ := hy
  exact ⟨r + t, (EReal.coe_add r t).symm⟩

/-- The product of two real numbers is a real number. -/
private theorem isReal_mul {x y : EReal} (hx : IsReal x) (hy : IsReal y) : IsReal (x * y) := by
  obtain ⟨r, rfl⟩ := hx
  obtain ⟨t, rfl⟩ := hy
  exact ⟨r * t, (EReal.coe_mul r t).symm⟩

/-- A real number clipped below at zero is a real number: it is zero or itself. -/
private theorem isReal_max_zero {x : EReal} (hx : IsReal x) : IsReal (max x 0) := by
  obtain ⟨r, rfl⟩ := hx
  rcases le_total (r : EReal) 0 with h | h
  · exact ⟨0, by rw [max_eq_right h, EReal.coe_zero]⟩
  · exact ⟨r, by rw [max_eq_left h]⟩

/-- A finite sum of real numbers is a real number. -/
private theorem isReal_sum {ι : Type} (S : Finset ι) (f : ι → EReal) (hf : ∀ i ∈ S, IsReal (f i)) :
    IsReal (∑ i ∈ S, f i) :=
  Finset.sum_induction f IsReal (fun _ _ => isReal_add) ⟨0, EReal.coe_zero.symm⟩ hf

/-- When the four float arrays hold reals, every logit is the coercion of its real. -/
theorem logit_eq_coe (hW1 : ∀ i, IsReal (W1 i)) (hb1 : ∀ i, IsReal (b1 i)) (hW2 : ∀ i, IsReal (W2 i)) (hb2 : ∀ i, IsReal (b2 i))
    (b : Fin 4) (s : Fin 1024) (v : Fin 50257) :
    logit idx W1 b1 W2 b2 b s v = ((xrow idx W1 b1 W2 b2 b s v : ℝ) : EReal) := by
  -- every factor of every term is a real number, so the logit is one, and a real number is the coercion of its real part
  have hreal : IsReal (logit idx W1 b1 W2 b2 b s v) := by
    unfold logit hidden
    exact isReal_add (isReal_sum _ _ fun h _ => isReal_mul (isReal_max_zero (isReal_add (hW1 _) (hb1 _))) (hW2 _)) (hb2 _)
  obtain ⟨r, hr⟩ := hreal
  unfold xrow
  rw [hr, EReal.toReal_coe]

/-- A row's maximum taken from the bottom element. -/
def rowMax (x : Fin 50257 → ℝ) : EReal := (Finset.univ : Finset (Fin 50257)).fold max ⊥ (fun v => ((x v : ℝ) : EReal))

/-- The loss term of token `(b, s)`: minus the log-softmax of its row at its label, in the two-pass form. -/
def nll (b : Fin 4) (s : Fin 1024) : EReal :=
  -((((xrow idx W1 b1 W2 b2 b s (lab tgt b s) : ℝ) : EReal) - max ⊥ (rowMax (xrow idx W1 b1 W2 b2 b s)))
      - Ideal.log (0 + ∑ v : Fin 50257, Ideal.exp (((xrow idx W1 b1 W2 b2 b s v : ℝ) : EReal)
          - max ⊥ (rowMax (xrow idx W1 b1 W2 b2 b s)))))

/-- The first result: every token's logits. -/
def logitsOut : (⟨3, ![4, 1024, 50257]⟩ : Shape).Idx → EReal := fun i => logit idx W1 b1 W2 b2 (i 0) (i 1) (i 2)

/-- The loss terms as an array over the tokens. -/
def nllArr : (⟨2, ![4, 1024]⟩ : Shape).Idx → EReal := fun i => nll idx tgt W1 b1 W2 b2 (i 0) (i 1)

/-- The second result: the sum of the loss terms from zero, over 4096. -/
def lossOut : (⟨0, ![]⟩ : Shape).Idx → EReal := fun _ =>
  Ideal.div (Ideal.ofBits .f32 0x00000000#32 + ∑ i : (⟨2, ![4, 1024]⟩ : Shape).Idx, nllArr idx tgt W1 b1 W2 b2 i)
    (Ideal.ofBits .f32 0x45800000#32)

end

end Cert.Spec

end
-- ==== Proof.RefVal.lean ====
/-
  What the reference computes, as the functions of `Spec`.

  The reference gathers row `idx[b, s]` of the transposed table (after wrapping a negative index, which changes nothing
  for an index in range), adds `b1`, clips below at zero, multiplies with `W2` along the hidden axis and adds `b2`: the
  logits. It subtracts each row's maximum, exponentiates, sums, takes the logarithm and subtracts again; picks the
  entry at `targets[b, s]` (in range, so the mask of the pick is all ones); negates; sums the 4096 terms from zero and
  divides by 4096.
-/
import proofs.«406568_j15204184227955_3_alg».proof.Proof.RefRead
import proofs.«406568_j15204184227955_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.ReduceAll
import Idealize.ShloMosaic.PureOps.Reduce
import Idealize.ShloMosaic.Lib.StableHlo.Predicate

noncomputable section

namespace Cert.ReferenceIdeal.RefVal

open Cert.ReferenceIdeal Cert.ReferenceIdeal.Gen Cert.ReferenceIdeal.ReadP
open Idealize.ShloMosaic Idealize.ShloMosaic.TcCoe Idealize.SL.Sem Idealize.ShloMosaic.StableHlo Idealize.ShloMosaic.ValueIdx

variable (x0 x1 : (⟨S4x1024, .i32⟩ : BufTy).Contents (Elt Ideal))
variable (x2 : (⟨S256x50257, .f32⟩ : BufTy).Contents (Elt Ideal)) (x3 : (⟨S256, .f32⟩ : BufTy).Contents (Elt Ideal))
variable (x4 : (⟨S50257x256, .f32⟩ : BufTy).Contents (Elt Ideal)) (x5 : (⟨S50257, .f32⟩ : BufTy).Contents (Elt Ideal))

/-- A word below 50257 is not negative, so the wrap of a negative index leaves it alone. -/
theorem wrap_eq (w : BitVec 32) (hw : w.toNat < 50257) :
    Scalar.select (IntOp.cmpi .slt w 0#32) (IntOp.addi w 50257#32) w = w := by
  have hc : ¬ IntOp.cmpi .slt w 0#32 = 1#1 := by
    rw [Predicate.slt_iff_toNat (by omega) (by decide)]
    simp
  rw [eq_zero_of_ne_one hc, select_zero]

/-- Read signed and clamped into the table, a word below 50257 is its own value. -/
theorem clamp_eq (w : BitVec 32) (hw : w.toNat < 50257) : min w.toInt.toNat (50257 - 1) = w.toNat := by
  rw [Predicate.toInt_eq_toNat_of_lt (by omega), Int.toNat_natCast]
  omega

/-- The wrapped index array is the index array. -/
theorem v5_eq (hidx : ∀ i, (x0 i).toNat < 50257) (i : S4x1024.Idx) : val_main_v5 (F := Ideal) x0 i = x0 i := by
  rw [val_main_v5_apply, val_main_v2_apply, val_main_v4_apply, val_main_v1_apply, val_main_v3_apply, val_main_c_apply,
    val_main_c_0_apply]
  exact wrap_eq (x0 i) (hidx i)

/-- The index array with a trailing axis of size one, read at a token. -/
theorem v6_eq (hidx : ∀ i, (x0 i).toNat < 50257) (b : Fin 4) (s : Fin 1024) (k : Fin 1) :
    val_main_v6 (F := Ideal) x0 (ix3 b s k) = x0 (ix2 b s) := by
  rw [val_main_v6_apply, v5_eq x0 hidx]
  exact congrArg x0 (funext fun a => Fin.ext (by match a with | ⟨0, _⟩ => rfl | ⟨1, _⟩ => rfl))

/-- The gather reads, at token `(b, s)` and hidden coordinate `h`, entry `h` of the table column the token's index names. -/
theorem v7_eq (hidx : ∀ i, (x0 i).toNat < 50257) (b : Fin 4) (s : Fin 1024) (h : Fin 256) :
    val_main_v7 (F := Ideal) x0 x2 (ix3 b s h) = x2 (ix2 h (Cert.Spec.col x0 b s)) := by
  unfold val_main_v7 Host.gather
  rw [val_main_v0_apply]
  refine congrArg x2 (funext fun a => Fin.ext ?_)
  match a with
  | ⟨0, _⟩ =>
    -- the table's second axis is an offset axis: the result's third coordinate
    show GatherDims.start gather_S50257x256_S4x1024x1_S4x1024x256_2_0_n_n_0_2_1256 (ix3 b s h) (val_main_v6 (F := Ideal) x0) 1
        + GatherDims.batchCoord gather_S50257x256_S4x1024x1_S4x1024x256_2_0_n_n_0_2_1256 (ix3 b s h) 1
        + GatherDims.offCoord gather_S50257x256_S4x1024x1_S4x1024x256_2_0_n_n_0_2_1256 (ix3 b s h) 1 = h.val
    rw [GatherDims.batchCoord_eq_zero _ _ _ (by decide)]
    unfold GatherDims.start GatherDims.offCoord
    rw [dif_neg (by decide), dif_pos (by decide)]
    have e : ∀ hp, gather_S50257x256_S4x1024x1_S4x1024x256_2_0_n_n_0_2_1256.offsetDims[List.idxOf (1 : Fin S50257x256.rank)
        gather_S50257x256_S4x1024x1_S4x1024x256_2_0_n_n_0_2_1256.sKept]'hp = (2 : Fin S4x1024x256.rank) := by decide
    simp only [Nat.zero_add]
    exact congrArg (fun c => (ix3 b s h c).val) (e _)
  | ⟨1, _⟩ =>
    -- the table's first axis is collapsed: the start index, read signed and clamped
    show GatherDims.start gather_S50257x256_S4x1024x1_S4x1024x256_2_0_n_n_0_2_1256 (ix3 b s h) (val_main_v6 (F := Ideal) x0) 0
        + GatherDims.batchCoord gather_S50257x256_S4x1024x1_S4x1024x256_2_0_n_n_0_2_1256 (ix3 b s h) 0
        + GatherDims.offCoord gather_S50257x256_S4x1024x1_S4x1024x256_2_0_n_n_0_2_1256 (ix3 b s h) 0 = (x0 (ix2 b s)).toNat % 50257
    rw [GatherDims.batchCoord_eq_zero _ _ _ (by decide), GatherDims.offCoord_eq_zero _ _ _ (by decide)]
    unfold GatherDims.start
    rw [dif_pos (by decide)]
    have hsi : GatherDims.siIdx gather_S50257x256_S4x1024x1_S4x1024x256_2_0_n_n_0_2_1256 (ix3 b s h)
        ⟨List.idxOf (0 : Fin S50257x256.rank) gather_S50257x256_S4x1024x1_S4x1024x256_2_0_n_n_0_2_1256.startIndexMap,
          List.idxOf_lt_length_iff.2 (by decide)⟩ = ix3 b s (0 : Fin 1) := by
      funext c; refine Fin.ext ?_
      match c with
      | ⟨0, _⟩ => rfl
      | ⟨1, _⟩ => rfl
      | ⟨2, _⟩ => rfl
    rw [hsi, v6_eq x0 hidx, Nat.mod_eq_of_lt (hidx _)]
    exact clamp_eq _ (hidx _)

/-- The hidden vector: the gathered column entry plus the bias, clipped below at zero. -/
theorem v11_eq (hidx : ∀ i, (x0 i).toNat < 50257) (b : Fin 4) (s : Fin 1024) (h : Fin 256) :
    val_main_v11 (F := Ideal) x0 x2 x3 (ix3 b s h) = Cert.Spec.hidden x0 x2 x3 b s h := by
  rw [val_main_v11_apply, val_main_v10_apply, v7_eq x0 x2 hidx, val_main_v9_apply, val_main_v8_apply,
    val_main_call0_v0_apply, val_main_call0_cst_apply]
  have e8 : idx_main_v8 (idx_main_v9 (ix3 b s h)) = ix1 h :=
    funext fun a => Fin.ext (by match a with | ⟨0, _⟩ => rfl)
  rw [e8]
  simp only [Ideal.maximumf_def, Ideal.addf_def, Ideal.ofBits_def, Ideal.ofBits_zero_f32]
  rfl

/-- One logit: the hidden vector against a row of the second table, plus its bias. -/
theorem v15_eq (hidx : ∀ i, (x0 i).toNat < 50257) (b : Fin 4) (s : Fin 1024) (v : Fin 50257) :
    val_main_v15 (F := Ideal) x0 x2 x3 x4 x5 (ix3 b s v) = Cert.Spec.logit x0 x2 x3 x4 x5 b s v := by
  rw [val_main_v15_apply, val_main_v12_apply, val_main_v14_apply, val_main_v13_apply]
  have e13 : idx_main_v13 (idx_main_v14 (ix3 b s v)) = ix1 v :=
    funext fun a => Fin.ext (by match a with | ⟨0, _⟩ => rfl)
  have el : ∀ k : Fin 256, lidx_main_v12 (ix3 b s v) k = ix3 b s k := fun k =>
    funext fun a => Fin.ext (by match a with | ⟨0, _⟩ => rfl | ⟨1, _⟩ => rfl | ⟨2, _⟩ => rfl)
  have er : ∀ k : Fin 256, ridx_main_v12 (ix3 b s v) k = ix2 v k := fun k =>
    funext fun a => Fin.ext (by match a with | ⟨0, _⟩ => rfl | ⟨1, _⟩ => rfl)
  simp only [e13, el, er, v11_eq x0 x2 x3 hidx, Ideal.addf_def]
  rfl

/-- The reference's first result is the array of all logits. -/
theorem logits_eq (hidx : ∀ i, (x0 i).toNat < 50257) :
    val_main_v15 (F := Ideal) x0 x2 x3 x4 x5 = Cert.Spec.logitsOut x0 x2 x3 x4 x5 := by
  funext i
  obtain ⟨b, s, v, rfl⟩ : ∃ (b : Fin 4) (s : Fin 1024) (v : Fin 50257), i = ix3 b s v := ⟨i 0, i 1, i 2, eq_ix3 i⟩
  exact v15_eq x0 x2 x3 x4 x5 hidx b s v

/-- The pattern the reference starts a maximum from is the bottom element. -/
theorem ofBits_bot : Ideal.ofBits .f32 0xFF800000#32 = (⊥ : EReal) := by simp [Ideal.ofBits, Ideal.ieee]

section Loss
variable (hW1 : ∀ i, Cert.Spec.IsReal (x2 i)) (hb1 : ∀ i, Cert.Spec.IsReal (x3 i))
  (hW2 : ∀ i, Cert.Spec.IsReal (x4 i)) (hb2 : ∀ i, Cert.Spec.IsReal (x5 i))
  (hidx : ∀ i, (x0 i).toNat < 50257)
include hW1 hb1 hW2 hb2 hidx

/-- One logit is the coercion of the row's real. -/
theorem v15_coe (b : Fin 4) (s : Fin 1024) (v : Fin 50257) :
    val_main_v15 (F := Ideal) x0 x2 x3 x4 x5 (ix3 b s v) = ((Cert.Spec.xrow x0 x2 x3 x4 x5 b s v : ℝ) : EReal) := by
  rw [v15_eq x0 x2 x3 x4 x5 hidx, Cert.Spec.logit_eq_coe x0 x2 x3 x4 x5 hW1 hb1 hW2 hb2]

/-- The maximum over a token's row, folded from the bottom element. -/
theorem rowmax_eq (b : Fin 4) (s : Fin 1024) :
    val_main_call1_v0 (F := Ideal) x0 x2 x3 x4 x5 (ix2 b s) = Cert.Spec.rowMax (Cert.Spec.xrow x0 x2 x3 x4 x5 b s) := by
  have hR : S4x1024x50257.Reduces [2] S4x1024 := by decide
  unfold val_main_call1_v0
  rw [Host.reduce_eq_fold_single FloatOps.maximumf _ _ reducesTo_S4x1024x50257_S4x1024_d2 hR h_S_ (ix2 b s)]
  unfold Cert.Spec.rowMax
  rw [val_main_call1_cst_apply, Ideal.ofBits_def, ofBits_bot]
  refine Finset.fold_congr fun v _ => ?_
  have e : hR.lift (ix2 b s) v = ix3 b s v :=
    funext fun a => Fin.ext (by match a with | ⟨0, _⟩ => rfl | ⟨1, _⟩ => rfl | ⟨2, _⟩ => rfl)
  show val_main_v15 (F := Ideal) x0 x2 x3 x4 x5 (hR.lift (ix2 b s) v) = _
  rw [e]
  exact v15_coe x0 x2 x3 x4 x5 hW1 hb1 hW2 hb2 hidx b s v

/-- A logit less its row's maximum, the maximum taken from the bottom element twice as the reference does. -/
theorem c1v5_eq (b : Fin 4) (s : Fin 1024) (v : Fin 50257) :
    val_main_call1_v5 (F := Ideal) x0 x2 x3 x4 x5 (ix3 b s v)
      = ((Cert.Spec.xrow x0 x2 x3 x4 x5 b s v : ℝ) : EReal) - max ⊥ (Cert.Spec.rowMax (Cert.Spec.xrow x0 x2 x3 x4 x5 b s)) := by
  rw [val_main_call1_v5_apply, v15_coe x0 x2 x3 x4 x5 hW1 hb1 hW2 hb2 hidx, val_main_call1_v4_apply, val_main_call1_v3_apply,
    val_main_call1_v2_apply, val_main_call1_v1_apply, val_main_call1_cst_0_apply]
  have e : idx_main_call1_v3 (idx_main_call1_v4 (ix3 b s v)) = ix2 b s :=
    funext fun a => Fin.ext (by match a with | ⟨0, _⟩ => rfl | ⟨1, _⟩ => rfl)
  rw [e, rowmax_eq x0 x2 x3 x4 x5 hW1 hb1 hW2 hb2 hidx]
  simp only [Ideal.subf_def, Ideal.maximumf_def, Ideal.ofBits_def, ofBits_bot]

/-- The sum of the exponentials of a row's shifted logits, from zero. -/
theorem c1v7_eq (b : Fin 4) (s : Fin 1024) :
    val_main_call1_v7 (F := Ideal) x0 x2 x3 x4 x5 (ix2 b s)
      = 0 + ∑ v : Fin 50257, Ideal.exp (((Cert.Spec.xrow x0 x2 x3 x4 x5 b s v : ℝ) : EReal)
          - max ⊥ (Cert.Spec.rowMax (Cert.Spec.xrow x0 x2 x3 x4 x5 b s))) := by
  rw [val_main_call1_v7_apply, val_main_call1_cst_1_apply, Ideal.ofBits_def, Ideal.ofBits_zero_f32]
  refine congrArg (0 + ·) (Finset.sum_congr rfl fun k _ => ?_)
  have e : idx_main_call1_v7 (ix2 b s) k = ix3 b s k :=
    funext fun a => Fin.ext (by match a with | ⟨0, _⟩ => rfl | ⟨1, _⟩ => rfl | ⟨2, _⟩ => rfl)
  rw [e, val_main_call1_v6_apply, c1v5_eq x0 x2 x3 x4 x5 hW1 hb1 hW2 hb2 hidx, Ideal.hostUnary_exp_def]

/-- The log-softmax of a token's row at column `v`, in the two-pass form. -/
theorem v16_eq (b : Fin 4) (s : Fin 1024) (v : Fin 50257) :
    val_main_v16 (F := Ideal) x0 x2 x3 x4 x5 (ix3 b s v)
      = (((Cert.Spec.xrow x0 x2 x3 x4 x5 b s v : ℝ) : EReal) - max ⊥ (Cert.Spec.rowMax (Cert.Spec.xrow x0 x2 x3 x4 x5 b s)))
        - Ideal.log (0 + ∑ k : Fin 50257, Ideal.exp (((Cert.Spec.xrow x0 x2 x3 x4 x5 b s k : ℝ) : EReal)
            - max ⊥ (Cert.Spec.rowMax (Cert.Spec.xrow x0 x2 x3 x4 x5 b s)))) := by
  rw [val_main_v16_apply, c1v5_eq x0 x2 x3 x4 x5 hW1 hb1 hW2 hb2 hidx, val_main_call1_v10_apply, val_main_call1_v9_apply,
    val_main_call1_v8_apply]
  have e : idx_main_call1_v8 (idx_main_call1_v10 (ix3 b s v)) = ix2 b s :=
    funext fun a => Fin.ext (by match a with | ⟨0, _⟩ => rfl | ⟨1, _⟩ => rfl)
  rw [e, c1v7_eq x0 x2 x3 x4 x5 hW1 hb1 hW2 hb2 hidx, Ideal.hostUnary_log_def, Ideal.subf_def]

end Loss

section Label
variable (htgt : ∀ i, (x1 i).toNat < 50257)
include htgt

/-- The label array with a trailing axis of size one, after the wrap of a negative label: the label. -/
theorem c2v4_eq (b : Fin 4) (s : Fin 1024) (k : Fin 1) :
    val_main_call2_v4 (F := Ideal) x1 (ix3 b s k) = x1 (ix2 b s) := by
  rw [val_main_call2_v4_apply, val_main_call2_v1_apply, val_main_call2_v3_apply, val_main_v17_apply, val_main_call2_v0_apply,
    val_main_call2_c_apply, val_main_call2_v2_apply, val_main_call2_c_0_apply]
  have e : idx_main_v17 (ix3 b s k) = ix2 b s :=
    funext fun a => Fin.ext (by match a with | ⟨0, _⟩ => rfl | ⟨1, _⟩ => rfl)
  rw [e]
  exact wrap_eq _ (htgt _)

/-- The same array with a second trailing axis of size one. -/
theorem c2v5_eq (b : Fin 4) (s : Fin 1024) (k l : Fin 1) :
    val_main_call2_v5 (F := Ideal) x1 (ix4 b s k l) = x1 (ix2 b s) := by
  rw [val_main_call2_v5_apply]
  have e : idx_main_call2_v5 (ix4 b s k l) = ix3 b s (0 : Fin 1) := funext fun a => Fin.ext (by
    have hb := b.isLt; have hs := s.isLt; have hk := k.isLt; have hl := l.isLt
    match a with
    | ⟨0, _⟩ => show (((b.val * 1024 + s.val) * 1 + k.val) * 1 + l.val) / 1024 = b.val; omega
    | ⟨1, _⟩ => show (((b.val * 1024 + s.val) * 1 + k.val) * 1 + l.val) / 1 % 1024 = s.val; omega
    | ⟨2, _⟩ => rfl)
  rw [e, c2v4_eq x1 htgt]

/-- A label in range passes both bounds of the pick's mask. -/
theorem c2v11_eq (b : Fin 4) (s : Fin 1024) (k l : Fin 1) :
    val_main_call2_v11 (F := Ideal) x1 (ix4 b s k l) = 1#1 := by
  rw [val_main_call2_v11_apply, val_main_call2_v7_apply, val_main_call2_v10_apply, c2v5_eq x1 htgt, val_main_call2_v6_apply,
    val_main_call2_c_2_apply, val_main_call2_v9_apply, val_main_call2_v8_apply, val_main_call2_c_1_apply]
  have hw := htgt (ix2 b s)
  have h1 : IntOp.cmpi .sge (x1 (ix2 b s)) 0#32 = 1#1 :=
    (Predicate.sge_iff_toNat (by omega) (by decide)).2 (Nat.zero_le _)
  have h50 : (50256#32 : BitVec 32).toNat = 50256 := by decide
  have h2 : IntOp.cmpi .sle (x1 (ix2 b s)) 50256#32 = 1#1 :=
    (Predicate.sle_iff_toNat (by omega) (by decide)).2 (by rw [h50]; omega)
  rw [h1, h2]
  rfl

/-- The mask reduced by `and` over its last axis, of size one, from `1`: all ones. -/
theorem c2v12_eq (b : Fin 4) (s : Fin 1024) (k : Fin 1) :
    val_main_call2_v12 (F := Ideal) x1 (ix3 b s k) = 1#1 := by
  have hR : S4x1024x1x1.Reduces [3] S4x1024x1 := by decide
  unfold val_main_call2_v12
  rw [Host.reduce_eq_fold_single IntOp.andi _ _ reducesTo_S4x1024x1x1_S4x1024x1_d3 hR h_S_ (ix3 b s k), val_main_call2_c_3_apply]
  show Finset.fold IntOp.andi 1#1 (fun l : Fin 1 => val_main_call2_v11 (F := Ideal) x1 (hR.lift (ix3 b s k) l))
    (Finset.univ : Finset (Fin 1)) = 1#1
  rw [Finset.univ_unique, Finset.fold_singleton]
  have e : hR.lift (ix3 b s k) (default : Fin 1) = ix4 b s k (0 : Fin 1) :=
    funext fun a => Fin.ext (by match a with | ⟨0, _⟩ => rfl | ⟨1, _⟩ => rfl | ⟨2, _⟩ => rfl | ⟨3, _⟩ => rfl)
  rw [e, c2v11_eq x1 htgt]
  rfl

/-- The pick along the last axis reads, at token `(b, s)`, the log-softmax entry at the token's label. -/
theorem c2v13_eq (b : Fin 4) (s : Fin 1024) (k : Fin 1) :
    val_main_call2_v13 (F := Ideal) x0 x1 x2 x3 x4 x5 (ix3 b s k)
      = val_main_v16 (F := Ideal) x0 x2 x3 x4 x5 (ix3 b s (Cert.Spec.lab x1 b s)) := by
  unfold val_main_call2_v13 Host.gather
  refine congrArg (val_main_v16 (F := Ideal) x0 x2 x3 x4 x5) (funext fun a => Fin.ext ?_)
  match a with
  | ⟨0, _⟩ =>
    -- a batching axis: the result's own first coordinate
    show GatherDims.start gather_S4x1024x50257_S4x1024x1x1_S4x1024x1_n_2_01_01_2_3_111 (ix3 b s k) (val_main_call2_v5 (F := Ideal) x1) 0
        + GatherDims.batchCoord gather_S4x1024x50257_S4x1024x1x1_S4x1024x1_n_2_01_01_2_3_111 (ix3 b s k) 0
        + GatherDims.offCoord gather_S4x1024x50257_S4x1024x1x1_S4x1024x1_n_2_01_01_2_3_111 (ix3 b s k) 0 = b.val
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    -- a batching axis: the result's own second coordinate
    show GatherDims.start gather_S4x1024x50257_S4x1024x1x1_S4x1024x1_n_2_01_01_2_3_111 (ix3 b s k) (val_main_call2_v5 (F := Ideal) x1) 1
        + GatherDims.batchCoord gather_S4x1024x50257_S4x1024x1x1_S4x1024x1_n_2_01_01_2_3_111 (ix3 b s k) 1
        + GatherDims.offCoord gather_S4x1024x50257_S4x1024x1x1_S4x1024x1_n_2_01_01_2_3_111 (ix3 b s k) 1 = s.val
    rw [GatherDims.start_batching _ _ _ _ (by decide), GatherDims.offCoord_eq_zero _ _ _ (by decide), Nat.zero_add, Nat.add_zero]
    unfold GatherDims.batchCoord
    rw [dif_pos (by decide)]
    rfl
  | ⟨2, _⟩ =>
    -- the collapsed axis: the start index, read signed and clamped
    show GatherDims.start gather_S4x1024x50257_S4x1024x1x1_S4x1024x1_n_2_01_01_2_3_111 (ix3 b s k) (val_main_call2_v5 (F := Ideal) x1) 2
        + GatherDims.batchCoord gather_S4x1024x50257_S4x1024x1x1_S4x1024x1_n_2_01_01_2_3_111 (ix3 b s k) 2
        + GatherDims.offCoord gather_S4x1024x50257_S4x1024x1x1_S4x1024x1_n_2_01_01_2_3_111 (ix3 b s k) 2 = (x1 (ix2 b s)).toNat % 50257
    rw [GatherDims.batchCoord_eq_zero _ _ _ (by decide), GatherDims.offCoord_eq_zero _ _ _ (by decide)]
    unfold GatherDims.start
    rw [dif_pos (by decide)]
    have hsi : GatherDims.siIdx gather_S4x1024x50257_S4x1024x1x1_S4x1024x1_n_2_01_01_2_3_111 (ix3 b s k)
        ⟨List.idxOf (2 : Fin S4x1024x50257.rank) gather_S4x1024x50257_S4x1024x1x1_S4x1024x1_n_2_01_01_2_3_111.startIndexMap,
          List.idxOf_lt_length_iff.2 (by decide)⟩ = ix4 b s k (0 : Fin 1) := by
      funext c; refine Fin.ext ?_
      match c with
      | ⟨0, _⟩ => rfl
      | ⟨1, _⟩ => rfl
      | ⟨2, _⟩ => rfl
      | ⟨3, _⟩ => rfl
    rw [hsi, c2v5_eq x1 htgt, Nat.mod_eq_of_lt (htgt _)]
    exact clamp_eq _ (htgt _)

/-- The mask being all ones, the pick's result is the gathered entry, not the filler. -/
theorem v18_eq (b : Fin 4) (s : Fin 1024) (k : Fin 1) :
    val_main_v18 (F := Ideal) x0 x1 x2 x3 x4 x5 (ix3 b s k)
      = val_main_v16 (F := Ideal) x0 x2 x3 x4 x5 (ix3 b s (Cert.Spec.lab x1 b s)) := by
  rw [val_main_v18_apply, c2v12_eq x1 htgt, select_one, c2v13_eq x0 x1 x2 x3 x4 x5 htgt]

/-- The picked entries as an array over the tokens. -/
theorem v19_eq (b : Fin 4) (s : Fin 1024) :
    val_main_v19 (F := Ideal) x0 x1 x2 x3 x4 x5 (ix2 b s)
      = val_main_v16 (F := Ideal) x0 x2 x3 x4 x5 (ix3 b s (Cert.Spec.lab x1 b s)) := by
  rw [val_main_v19_apply]
  have e : idx_main_v19 (ix2 b s) = ix3 b s (0 : Fin 1) := funext fun a => Fin.ext (by
    have hb := b.isLt; have hs := s.isLt
    match a with
    | ⟨0, _⟩ => show (b.val * 1024 + s.val) / 1024 = b.val; omega
    | ⟨1, _⟩ => show (b.val * 1024 + s.val) / 1 % 1024 = s.val; omega
    | ⟨2, _⟩ => rfl)
  rw [e, v18_eq x0 x1 x2 x3 x4 x5 htgt]

end Label

/-- A token's loss term: the negated log-softmax entry at its label. -/
theorem v20_eq (hW1 : ∀ i, Cert.Spec.IsReal (x2 i)) (hb1 : ∀ i, Cert.Spec.IsReal (x3 i))
    (hW2 : ∀ i, Cert.Spec.IsReal (x4 i)) (hb2 : ∀ i, Cert.Spec.IsReal (x5 i))
    (hidx : ∀ i, (x0 i).toNat < 50257) (htgt : ∀ i, (x1 i).toNat < 50257) (b : Fin 4) (s : Fin 1024) :
    val_main_v20 (F := Ideal) x0 x1 x2 x3 x4 x5 (ix2 b s) = Cert.Spec.nll x0 x1 x2 x3 x4 x5 b s := by
  rw [val_main_v20_apply, v19_eq x0 x1 x2 x3 x4 x5 htgt, v16_eq x0 x2 x3 x4 x5 hW1 hb1 hW2 hb2 hidx]
  rfl

/-- The reference's second result is the mean of the loss terms. -/
theorem loss_eq (hW1 : ∀ i, Cert.Spec.IsReal (x2 i)) (hb1 : ∀ i, Cert.Spec.IsReal (x3 i))
    (hW2 : ∀ i, Cert.Spec.IsReal (x4 i)) (hb2 : ∀ i, Cert.Spec.IsReal (x5 i))
    (hidx : ∀ i, (x0 i).toNat < 50257) (htgt : ∀ i, (x1 i).toNat < 50257) :
    val_main_v22 (F := Ideal) x0 x1 x2 x3 x4 x5 = Cert.Spec.lossOut x0 x1 x2 x3 x4 x5 := by
  funext i
  rw [val_main_v22_apply, val_main_v21_apply, val_main_cst_apply, val_main_cst_1_apply]
  unfold Cert.Spec.lossOut
  simp only [Ideal.hostDivf_def, Ideal.ofBits_def]
  refine congrArg (fun t => Ideal.div (Ideal.ofBits .f32 0x00000000#32 + t) (Ideal.ofBits .f32 0x45800000#32))
    (Finset.sum_congr rfl fun j _ => ?_)
  obtain ⟨b, s, rfl⟩ : ∃ (b : Fin 4) (s : Fin 1024), j = ix2 b s := ⟨j 0, j 1, eq_ix2 j⟩
  exact v20_eq x0 x1 x2 x3 x4 x5 hW1 hb1 hW2 hb2 hidx htgt b s

end Cert.ReferenceIdeal.RefVal

end
-- ==== Proof.Domain.lean ====
/-
  What the precondition says of the inputs.

  The printed precondition is a conjunction of eight reductions: for each of the four float arrays, that every entry's
  absolute value is below plus infinity; for each of the two integer arrays, that every entry is at least zero and
  below 50257 as a signed word. When it is all ones, every float entry is a real number and every integer entry, read
  as a natural number, is below 50257.
-/
import proofs.«406568_j15204184227955_3_alg».proof.Pre_finite_inputs
import proofs.«406568_j15204184227955_3_alg».proof.Proof.Spec
import Idealize.ShloMosaic.Lib.ReduceAll
import Idealize.ShloMosaic.Lib.StableHlo.Predicate

noncomputable section

namespace Cert.Domain

open Idealize.ShloMosaic Cert.Pre_finite_inputs

/-- The pattern of plus infinity denotes the top element of the extended reals. -/
private theorem inf_eq_top : Ideal.ofBits .f32 0x7F800000#32 = (⊤ : EReal) := by
  simp [Ideal.ofBits, Ideal.ieee]

/-- An extended real whose absolute value, the larger of it and its negation, is below plus infinity is neither
    infinity: it is a real number. -/
private theorem isReal_of_abs_lt (x : EReal)
    (h : Ideal.cmp .olt (max x (-x)) (Ideal.ofBits .f32 0x7F800000#32) = 1#1) : Cert.Spec.IsReal x := by
  rw [inf_eq_top] at h
  unfold Ideal.cmp at h
  have hlt : max x (-x) < ⊤ := by
    by_contra hn
    simp [hn] at h
  induction x using EReal.rec with
  | bot => simp at hlt
  | top => simp at hlt
  | coe r => exact ⟨r, rfl⟩

/-- A 32-bit word that is at least zero and below 50257 as a signed word has its sign bit clear, so its signed and
    unsigned readings agree and it is below 50257 as a natural number. -/
private theorem toNat_lt_of_cmp (x : BitVec 32) (h0 : IntOp.cmpi .sge x 0#32 = 1#1)
    (h1 : IntOp.cmpi .slt x 50257#32 = 1#1) : x.toNat < 50257 := by
  rw [IntOp.cmpi_sge] at h0
  rw [IntOp.cmpi_slt] at h1
  have e0 : (0#32 : BitVec 32).toInt = 0 := by decide
  have e1 : (50257#32 : BitVec 32).toInt = 50257 := by decide
  rw [e0] at h0
  rw [e1] at h1
  rw [BitVec.toInt_eq_toNat_cond] at h0 h1
  have := x.isLt
  split at h0 <;> omega

/-- Under the precondition the float arrays hold reals and the index arrays hold column numbers. -/
theorem of_pre [Cert.Pre_finite_inputs.Facts]
    (a0 a1 : IVec S4x1024 32) (a2 : FVec Ideal S256x50257 .f32) (a3 : FVec Ideal S256 .f32)
    (a4 : FVec Ideal S50257x256 .f32) (a5 : FVec Ideal S50257 .f32)
    (h : Cert.Pre_finite_inputs.fn (F := Ideal) a0 a1 a2 a3 a4 a5 = fun _ => 1#1) :
    (∀ i, Cert.Spec.IsReal (a2 i)) ∧ (∀ i, Cert.Spec.IsReal (a3 i)) ∧ (∀ i, Cert.Spec.IsReal (a4 i))
      ∧ (∀ i, Cert.Spec.IsReal (a5 i)) ∧ (∀ i, (a0 i).toNat < 50257) ∧ (∀ i, (a1 i).toNat < 50257) := by
  -- the scalar shape has one index, so a reduction into it over all axes reads every entry
  haveI : Subsingleton S_.Idx := ⟨fun a b => funext fun d => d.elim0⟩
  have h0 := congrFun h ValueIdx.ix0
  unfold Cert.Pre_finite_inputs.fn Cert.Pre_finite_inputs.fn_part1 Cert.Pre_finite_inputs.fn_part2 at h0
  -- the conjunction of the eight reductions is one exactly when each of them is
  simp only [andi, IntOp.andi_eq_one] at h0
  obtain ⟨⟨⟨⟨⟨⟨⟨h3, h7⟩, h12⟩, h17⟩, h21⟩, h25⟩, h29⟩, h33⟩ := h0
  -- each reduction by `and` that is one had a one at every entry; read the entry's comparison back
  refine ⟨fun i => isReal_of_abs_lt (a2 i) (Host.reduce_andi_all _ _ _ _ _ h3 i),
    fun i => isReal_of_abs_lt (a3 i) (Host.reduce_andi_all _ _ _ _ _ h7 i),
    fun i => isReal_of_abs_lt (a4 i) (Host.reduce_andi_all _ _ _ _ _ h12 i),
    fun i => isReal_of_abs_lt (a5 i) (Host.reduce_andi_all _ _ _ _ _ h17 i),
    fun i => toNat_lt_of_cmp (a0 i) (Host.reduce_andi_all _ _ _ _ _ h21 i) (Host.reduce_andi_all _ _ _ _ _ h25 i),
    fun i => toNat_lt_of_cmp (a1 i) (Host.reduce_andi_all _ _ _ _ _ h29 i) (Host.reduce_andi_all _ _ _ _ _ h33 i)⟩

end Cert.Domain

end
-- ==== Proof.KBlocks.lean ====
/-
  The input blocks at a grid point, read off the arrays the region finds.

  The grid has 2 × 99 points; point `t` is row block `t / 99` and vocabulary block `t % 99`. At it the hidden-vector
  window reads rows `2048 (t / 99) + r`, the weight window rows `512 (t % 99) + j`, the bias window columns
  `512 (t % 99) + j`, and the label window rows `2048 (t / 99) + r`.
-/
import proofs.«406568_j15204184227955_3_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F] [Named F]
variable (m : (ℓ : Loc nD τ sig) → Buf (Elt F) ℓ) (c : Dev nD)

/-- The four input blocks at point `t`, at their literal types. -/
abbrev xb (t : Fin cfg0.N) : Vec F S2048x256 .bf16 := iblk m c 0 t
abbrev wb (t : Fin cfg0.N) : Vec F S512x256 .bf16 := iblk m c 1 t
abbrev bb (t : Fin cfg0.N) : Vec F S1x512 .f32 := iblk m c 2 t
abbrev tb (t : Fin cfg0.N) : Vec F S2048x1 .i32 := iblk m c 3 t

/-- The four arrays the windows stage, at their literal types. -/
abbrev xarr : S4096x256.Idx → Elt F .bf16 := V m c main_v8
abbrev warr : S50688x256.Idx → Elt F .bf16 := V m c main_v10
abbrev barr : S1x50688.Idx → Elt F .f32 := V m c main_v12
abbrev tarr : S4096x1.Idx → Elt F .i32 := V m c main_v0

/-- The grid point's two coordinates. -/
theorem coords_val : ∀ t : Fin cfg0.N, ((grid0.coords t) 0).val = t.val / 99 ∧ ((grid0.coords t) 1).val = t.val % 99 :=
  (by decide +kernel : ∀ t : Fin grid0.N, ((grid0.coords t) 0).val = t.val / 99 ∧ ((grid0.coords t) 1).val = t.val % 99)

/-- The block indices of the four input windows at a point. -/
theorem index0 : ∀ t : Fin cfg0.N, win0_0.index t 0 = t.val / 99 ∧ win0_0.index t 1 = 0 :=
  (by decide +kernel : ∀ t : Fin grid0.N, win0_0.index t 0 = t.val / 99 ∧ win0_0.index t 1 = 0)
theorem index1 : ∀ t : Fin cfg0.N, win0_1.index t 0 = t.val % 99 ∧ win0_1.index t 1 = 0 :=
  (by decide +kernel : ∀ t : Fin grid0.N, win0_1.index t 0 = t.val % 99 ∧ win0_1.index t 1 = 0)
theorem index2 : ∀ t : Fin cfg0.N, win0_2.index t 0 = 0 ∧ win0_2.index t 1 = t.val % 99 :=
  (by decide +kernel : ∀ t : Fin grid0.N, win0_2.index t 0 = 0 ∧ win0_2.index t 1 = t.val % 99)
theorem index3 : ∀ t : Fin cfg0.N, win0_3.index t 0 = t.val / 99 ∧ win0_3.index t 1 = 0 :=
  (by decide +kernel : ∀ t : Fin grid0.N, win0_3.index t 0 = t.val / 99 ∧ win0_3.index t 1 = 0)

/-- Row `r` of the hidden-vector block at `t` is row `2048 (t / 99) + r` of the array. -/
theorem xb_apply (t : Fin cfg0.N) (r : Fin 2048) (h : Fin 256) (R : Fin 4096) (hR : R.val = t.val / 99 * 2048 + r.val) :
    xb m c t (ix2 r h) = xarr m c (ix2 R h) := by
  have hi := index0 t
  unfold xb xarr iblk
  rw [View.read_apply]
  show V m c main_v8 _ = V m c main_v8 _
  congr 1
  funext a
  apply Fin.ext
  match a with
  | ⟨0, _⟩ => show win0_0.index t 0 * 2048 + 1 * r.val = R.val; rw [hi.1, hR]; omega
  | ⟨1, _⟩ => show win0_0.index t 1 * 256 + 1 * h.val = h.val; rw [hi.2]; omega

/-- Row `j` of the weight block at `t` is row `512 (t % 99) + j` of the padded array. -/
theorem wb_apply (t : Fin cfg0.N) (j : Fin 512) (h : Fin 256) (J : Fin 50688) (hJ : J.val = t.val % 99 * 512 + j.val) :
    wb m c t (ix2 j h) = warr m c (ix2 J h) := by
  have hi := index1 t
  unfold wb warr iblk
  rw [View.read_apply]
  show V m c main_v10 _ = V m c main_v10 _
  congr 1
  funext a
  apply Fin.ext
  match a with
  | ⟨0, _⟩ => show win0_1.index t 0 * 512 + 1 * j.val = J.val; rw [hi.1, hJ]; omega
  | ⟨1, _⟩ => show win0_1.index t 1 * 256 + 1 * h.val = h.val; rw [hi.2]; omega

/-- Column `j` of the bias block at `t` is column `512 (t % 99) + j` of the padded array. -/
theorem bb_apply (t : Fin cfg0.N) (j : Fin 512) (J : Fin 50688) (hJ : J.val = t.val % 99 * 512 + j.val) :
    bb m c t (ix2 (0 : Fin 1) j) = barr m c (ix2 (0 : Fin 1) J) := by
  have hi := index2 t
  unfold bb barr iblk
  rw [View.read_apply]
  show V m c main_v12 _ = V m c main_v12 _
  congr 1
  funext a
  apply Fin.ext
  match a with
  | ⟨0, _⟩ => show win0_2.index t 0 * 1 + 1 * (0 : Fin 1).val = (0 : Fin 1).val; rw [hi.1]; rfl
  | ⟨1, _⟩ => show win0_2.index t 1 * 512 + 1 * j.val = J.val; rw [hi.2, hJ]; omega

/-- Row `r` of the label block at `t` is row `2048 (t / 99) + r` of the label column. -/
theorem tb_apply (t : Fin cfg0.N) (r : Fin 2048) (R : Fin 4096) (hR : R.val = t.val / 99 * 2048 + r.val) :
    tb m c t (ix2 r (0 : Fin 1)) = tarr m c (ix2 R (0 : Fin 1)) := by
  have hi := index3 t
  unfold tb tarr iblk
  rw [View.read_apply]
  show V m c main_v0 _ = V m c main_v0 _
  congr 1
  funext a
  apply Fin.ext
  match a with
  | ⟨0, _⟩ => show win0_3.index t 0 * 2048 + 1 * r.val = R.val; rw [hi.1, hR]; omega
  | ⟨1, _⟩ => show win0_3.index t 1 * 1 + 1 * (0 : Fin 1).val = (0 : Fin 1).val; rw [hi.2]; rfl

end Cert.KernelIdeal.Blocks

end
-- ==== Proof.KPieces.lean ====
/-
  What each control case of the kernel body leaves in its buffers, as the body's own arithmetic.

  The body has three cases: the first block of a row block (it resets the three per-row quantities and then updates
  them), a middle block (it updates them from what the block before left), and the last block (it updates them and
  writes the loss terms). In every case the logits buffer ends holding the block of logits; the three scratch buffers
  end holding the updated running maximum, running sum and collected label logit; in the last case the loss buffer
  ends holding the loss terms computed from the three updated quantities.
-/
import proofs.«406568_j15204184227955_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F] [Named F]

/-- The zero offsets of a whole-buffer access, as the constant function. -/
private theorem hz : (![0, 0] : Fin 2 → Nat) = fun _ => 0 := funext fun a => by fin_cases a <;> rfl

/-- First block: the logits buffer holds the block of logits. -/
theorem out0_A_4_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i)
    (x0 : Vec F S2048x256 .bf16) (x1 : Vec F S512x256 .bf16) (x2 : Vec F S1x512 .f32) (x3 : Vec F S2048x1 .i32) :
    out0_A_4 c i arg2 harg2 arg3 harg3 arg4 harg4 arg5 harg5 arg6 harg6 arg7 harg7 arg8 harg8 arg9 harg9 arg10 harg10 hc0 hc1 x0 x1 x2 x3 = k0_pay9 x0 x1 x2 := by
  unfold out0_A_4
  rw [View.read_writes_eq_canon _ _ _ (cover0_A_4 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- First block: the running maximum, updated from the reset value. -/
theorem sout0_A_0_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i)
    (x0 : Vec F S2048x256 .bf16) (x1 : Vec F S512x256 .bf16) (x2 : Vec F S1x512 .f32) (x3 : Vec F S2048x1 .i32) :
    sout0_A_0 c i arg2 harg2 arg3 harg3 arg4 harg4 arg5 harg5 arg6 harg6 arg7 harg7 arg8 harg8 arg9 harg9 arg10 harg10 hc0 hc1 x0 x1 x2 x3 = k0_pay4 (k0_pay9 x0 x1 x2) (k0_pay12 i) (k0_pay13 (F := F)) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- First block: the running sum, updated from the reset values. -/
theorem sout0_A_1_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i)
    (x0 : Vec F S2048x256 .bf16) (x1 : Vec F S512x256 .bf16) (x2 : Vec F S1x512 .f32) (x3 : Vec F S2048x1 .i32) :
    sout0_A_1 c i arg2 harg2 arg3 harg3 arg4 harg4 arg5 harg5 arg6 harg6 arg7 harg7 arg8 harg8 arg9 harg9 arg10 harg10 hc0 hc1 x0 x1 x2 x3 = k0_pay3 (k0_pay9 x0 x1 x2) (k0_pay12 i) (k0_pay13 (F := F)) (k0_pay6 (F := F)) (k0_pay6 (F := F)) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- First block: the collected label logit, updated from the reset value. -/
theorem sout0_A_2_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i)
    (x0 : Vec F S2048x256 .bf16) (x1 : Vec F S512x256 .bf16) (x2 : Vec F S1x512 .f32) (x3 : Vec F S2048x1 .i32) :
    sout0_A_2 c i arg2 harg2 arg3 harg3 arg4 harg4 arg5 harg5 arg6 harg6 arg7 harg7 arg8 harg8 arg9 harg9 arg10 harg10 hc0 hc1 x0 x1 x2 x3 = k0_pay11 i x0 x1 x2 x3 (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- Middle block: the logits buffer holds the block of logits. -/
theorem out0_B_4_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i)
    (x0 : Vec F S2048x256 .bf16) (x1 : Vec F S512x256 .bf16) (x2 : Vec F S1x512 .f32) (x3 : Vec F S2048x1 .i32) (xs0 : Vec F S2048x1 .f32) (xs1 : Vec F S2048x1 .f32) (xs2 : Vec F S2048x1 .f32) :
    out0_B_4 c i arg2 harg2 arg3 harg3 arg4 harg4 arg5 harg5 arg6 harg6 arg7 harg7 arg8 harg8 arg9 harg9 arg10 harg10 hc0 hc1 x0 x1 x2 x3 xs0 xs1 xs2 = k0_pay9 x0 x1 x2 := by
  unfold out0_B_4
  rw [View.read_writes_eq_canon _ _ _ (cover0_B_4 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- Middle block: the running maximum, updated from what the block before left. -/
theorem sout0_B_0_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i)
    (x0 : Vec F S2048x256 .bf16) (x1 : Vec F S512x256 .bf16) (x2 : Vec F S1x512 .f32) (x3 : Vec F S2048x1 .i32) (xs0 : Vec F S2048x1 .f32) (xs1 : Vec F S2048x1 .f32) (xs2 : Vec F S2048x1 .f32) :
    sout0_B_0 c i arg2 harg2 arg3 harg3 arg4 harg4 arg5 harg5 arg6 harg6 arg7 harg7 arg8 harg8 arg9 harg9 arg10 harg10 hc0 hc1 x0 x1 x2 x3 xs0 xs1 xs2 = k0_pay4 (k0_pay9 x0 x1 x2) (k0_pay12 i) (k0_pay13 (F := F)) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- Middle block: the running sum, updated from what the block before left. -/
theorem sout0_B_1_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i)
    (x0 : Vec F S2048x256 .bf16) (x1 : Vec F S512x256 .bf16) (x2 : Vec F S1x512 .f32) (x3 : Vec F S2048x1 .i32) (xs0 : Vec F S2048x1 .f32) (xs1 : Vec F S2048x1 .f32) (xs2 : Vec F S2048x1 .f32) :
    sout0_B_1 c i arg2 harg2 arg3 harg3 arg4 harg4 arg5 harg5 arg6 harg6 arg7 harg7 arg8 harg8 arg9 harg9 arg10 harg10 hc0 hc1 x0 x1 x2 x3 xs0 xs1 xs2 = k0_pay3 (k0_pay9 x0 x1 x2) (k0_pay12 i) (k0_pay13 (F := F)) xs0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- Middle block: the collected label logit, updated from what the block before left. -/
theorem sout0_B_2_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i)
    (x0 : Vec F S2048x256 .bf16) (x1 : Vec F S512x256 .bf16) (x2 : Vec F S1x512 .f32) (x3 : Vec F S2048x1 .i32) (xs0 : Vec F S2048x1 .f32) (xs1 : Vec F S2048x1 .f32) (xs2 : Vec F S2048x1 .f32) :
    sout0_B_2 c i arg2 harg2 arg3 harg3 arg4 harg4 arg5 harg5 arg6 harg6 arg7 harg7 arg8 harg8 arg9 harg9 arg10 harg10 hc0 hc1 x0 x1 x2 x3 xs0 xs1 xs2 = k0_pay11 i x0 x1 x2 x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- Last block: the logits buffer holds the block of logits. -/
theorem out0_C_4_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i)
    (x0 : Vec F S2048x256 .bf16) (x1 : Vec F S512x256 .bf16) (x2 : Vec F S1x512 .f32) (x3 : Vec F S2048x1 .i32) (xs0 : Vec F S2048x1 .f32) (xs1 : Vec F S2048x1 .f32) (xs2 : Vec F S2048x1 .f32) :
    out0_C_4 c i arg2 harg2 arg3 harg3 arg4 harg4 arg5 harg5 arg6 harg6 arg7 harg7 arg8 harg8 arg9 harg9 arg10 harg10 hc0 hc1 x0 x1 x2 x3 xs0 xs1 xs2 = k0_pay9 x0 x1 x2 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- Last block: the running maximum, updated from what the block before left. -/
theorem sout0_C_0_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i)
    (x0 : Vec F S2048x256 .bf16) (x1 : Vec F S512x256 .bf16) (x2 : Vec F S1x512 .f32) (x3 : Vec F S2048x1 .i32) (xs0 : Vec F S2048x1 .f32) (xs1 : Vec F S2048x1 .f32) (xs2 : Vec F S2048x1 .f32) :
    sout0_C_0 c i arg2 harg2 arg3 harg3 arg4 harg4 arg5 harg5 arg6 harg6 arg7 harg7 arg8 harg8 arg9 harg9 arg10 harg10 hc0 hc1 x0 x1 x2 x3 xs0 xs1 xs2 = k0_pay4 (k0_pay9 x0 x1 x2) (k0_pay12 i) (k0_pay13 (F := F)) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- Last block: the running sum, updated from what the block before left. -/
theorem sout0_C_1_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i)
    (x0 : Vec F S2048x256 .bf16) (x1 : Vec F S512x256 .bf16) (x2 : Vec F S1x512 .f32) (x3 : Vec F S2048x1 .i32) (xs0 : Vec F S2048x1 .f32) (xs1 : Vec F S2048x1 .f32) (xs2 : Vec F S2048x1 .f32) :
    sout0_C_1 c i arg2 harg2 arg3 harg3 arg4 harg4 arg5 harg5 arg6 harg6 arg7 harg7 arg8 harg8 arg9 harg9 arg10 harg10 hc0 hc1 x0 x1 x2 x3 xs0 xs1 xs2 = k0_pay3 (k0_pay9 x0 x1 x2) (k0_pay12 i) (k0_pay13 (F := F)) xs0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- Last block: the collected label logit, updated from what the block before left. -/
theorem sout0_C_2_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i)
    (x0 : Vec F S2048x256 .bf16) (x1 : Vec F S512x256 .bf16) (x2 : Vec F S1x512 .f32) (x3 : Vec F S2048x1 .i32) (xs0 : Vec F S2048x1 .f32) (xs1 : Vec F S2048x1 .f32) (xs2 : Vec F S2048x1 .f32) :
    sout0_C_2 c i arg2 harg2 arg3 harg3 arg4 harg4 arg5 harg5 arg6 harg6 arg7 harg7 arg8 harg8 arg9 harg9 arg10 harg10 hc0 hc1 x0 x1 x2 x3 xs0 xs1 xs2 = k0_pay11 i x0 x1 x2 x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]
/-- Last block: the loss buffer holds the loss terms of the three updated quantities. -/
theorem out0_C_5_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i)
    (x0 : Vec F S2048x256 .bf16) (x1 : Vec F S512x256 .bf16) (x2 : Vec F S1x512 .f32) (x3 : Vec F S2048x1 .i32) (xs0 : Vec F S2048x1 .f32) (xs1 : Vec F S2048x1 .f32) (xs2 : Vec F S2048x1 .f32) :
    out0_C_5 c i arg2 harg2 arg3 harg3 arg4 harg4 arg5 harg5 arg6 harg6 arg7 harg7 arg8 harg8 arg9 harg9 arg10 harg10 hc0 hc1 x0 x1 x2 x3 xs0 xs1 xs2 = k0_pay5 (k0_pay3 (k0_pay9 x0 x1 x2) (k0_pay12 i) (k0_pay13 (F := F)) xs0 xs0 xs1) (k0_pay11 i x0 x1 x2 x3 xs2) (k0_pay4 (k0_pay9 x0 x1 x2) (k0_pay12 i) (k0_pay13 (F := F)) xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg8.read_unread, harg9.read_unread, harg10.read_unread, View.ld_unit_zero (S := S2048x256) hz, View.ld_unit_zero (S := S512x256) hz, View.ld_unit_zero (S := S1x512) hz, View.ld_unit_zero (S := S2048x1) hz, View.ld_unit_zero (S := S2048x512) hz, View.readCov_unit_zero (S := S2048x1) _ hz, shapeCast_self]

end Cert.KernelIdeal.Pieces

end
-- ==== Proof.OnlineSoftmax.lean ====
/-
  The online log-sum-exp of one row, as pure statements over the extended reals.

  A row of a matrix with 50257 real columns is scanned in 99 blocks of 512 lanes; lanes past column 50256 hold the
  bottom element. Scanning keeps a running maximum `m`, a running sum `l` of exponentials taken relative to `m`, and the
  entry `a` at one distinguished column `g`. After the last block `l * exp m` is the plain sum of exponentials of the
  row, whatever values `m` went through, so `m + log l` is the row's log-sum-exp; the two-pass form (subtract the row's
  maximum, exponentiate, sum, take the logarithm) has the same value. Both negative log-likelihoods at `g` are
  therefore `log (∑ exp x) - x g`.
-/
import Idealize.ShloMosaic.PureOps.Ideal
import Idealize.ShloMosaic.PureOps.Ideal.Laws
import Mathlib.Data.Finset.Fold
import Mathlib.Algebra.BigOperators.Fin
import Mathlib.Analysis.SpecialFunctions.Log.Basic

noncomputable section

namespace Cert.OnlineSoftmax

open Idealize.ShloMosaic

/-- The maximum of a block's 512 lanes, starting from the bottom element. -/
def blockMax (s : Fin 512 → EReal) : EReal := (Finset.univ : Finset (Fin 512)).fold max ⊥ s

/-- The running maximum after a block. -/
def nextM (m : EReal) (s : Fin 512 → EReal) : EReal := max m (blockMax s)

/-- The running sum after a block: the old sum rescaled to the new maximum, plus the block's exponentials. -/
def nextL (m l : EReal) (s : Fin 512 → EReal) : EReal :=
  Ideal.exp (m - nextM m s) * l + ∑ j : Fin 512, Ideal.exp (s j - nextM m s)

/-- Lane `j` of block `k` of the row `x`: the column `512 k + j` when it is one of the 50257, the bottom element past them. -/
def lane (x : Fin 50257 → ℝ) (k : ℕ) (j : Fin 512) : EReal :=
  if h : k * 512 + j.val < 50257 then ((x ⟨k * 512 + j.val, h⟩ : ℝ) : EReal) else ⊥

/-- Lane `j` of block `k` as the distinguished column sees it: the entry when the lane is column `g`, zero otherwise. -/
def pick (x : Fin 50257 → ℝ) (g : Fin 50257) (k : ℕ) (j : Fin 512) : EReal :=
  if k * 512 + j.val = g.val then ((x g : ℝ) : EReal) else 0

/-- The running maximum before block `k` (the bottom element before the first). -/
def runM (x : Fin 50257 → ℝ) : ℕ → EReal
  | 0 => ⊥
  | k + 1 => nextM (runM x k) (lane x k)

/-- The running sum before block `k` (zero before the first). -/
def runL (x : Fin 50257 → ℝ) : ℕ → EReal
  | 0 => 0
  | k + 1 => nextL (runM x k) (runL x k) (lane x k)

/-- The distinguished entry collected before block `k`. -/
def runA (x : Fin 50257 → ℝ) (g : Fin 50257) : ℕ → EReal
  | 0 => 0
  | k + 1 => runA x g k + ∑ j : Fin 512, pick x g k j

/-- The coercion of the reals into the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of an entry below the top element, taken relative to a real a, is the entry's own exponential
    times exp (-a); for the bottom element both sides are zero. -/
private theorem exp_sub_coe {y : EReal} (hy : y ≠ ⊤) (a : ℝ) :
    Ideal.exp (y - (a : EReal)) = (((Ideal.exp y).toReal * Real.exp (-a) : ℝ) : EReal) := by
  induction y with
  | bot => rw [EReal.bot_sub, Ideal.exp_bot, EReal.toReal_zero, zero_mul, EReal.coe_zero]
  | coe r =>
    rw [← EReal.coe_sub, Ideal.exp_coe, Ideal.exp_coe, EReal.toReal_coe, sub_eq_add_neg, Real.exp_add]
  | top => exact absurd rfl hy

private theorem le_blockMax (s : Fin 512 → EReal) (j : Fin 512) : s j ≤ blockMax s := by
  rw [blockMax, Finset.le_fold_max]
  exact Or.inr ⟨j, Finset.mem_univ j, le_rfl⟩

private theorem blockMax_ne_top {s : Fin 512 → EReal} (hs : ∀ j, s j ≠ ⊤) : blockMax s ≠ ⊤ := by
  refine ne_of_lt ?_
  rw [blockMax, Finset.fold_max_lt]
  exact ⟨bot_lt_top, fun j _ => lt_top_iff_ne_top.2 (hs j)⟩

private theorem nextM_ne_top {m : EReal} {s : Fin 512 → EReal} (hm : m ≠ ⊤) (hs : ∀ j, s j ≠ ⊤) :
    nextM m s ≠ ⊤ :=
  ne_of_lt (max_lt (lt_top_iff_ne_top.2 hm) (lt_top_iff_ne_top.2 (blockMax_ne_top hs)))

private theorem nextM_ne_bot (m : EReal) {s : Fin 512 → EReal} {j : Fin 512} (hj : s j ≠ ⊥) : nextM m s ≠ ⊥ :=
  ne_of_gt (lt_of_lt_of_le (bot_lt_iff_ne_bot.2 hj) (le_trans (le_blockMax s j) (le_max_right _ _)))

/-- One block of the scan in real terms. With the new maximum a real a', the new sum is a real L', and
    L' * exp a' is the old L * exp m plus the exponentials of the block's lanes: the factors exp (-a') that the
    rescaling and the new terms carry cancel against exp a'. -/
private theorem step {m : EReal} (L : ℝ) {s : Fin 512 → EReal} (hm : m ≠ ⊤) (hs : ∀ j, s j ≠ ⊤)
    {a' : ℝ} (ha' : nextM m s = (a' : EReal)) :
    ∃ L' : ℝ, nextL m (L : EReal) s = (L' : EReal) ∧
      L' * Real.exp a' = L * (Ideal.exp m).toReal + ∑ j, (Ideal.exp (s j)).toReal := by
  refine ⟨(Ideal.exp m).toReal * Real.exp (-a') * L + ∑ j, (Ideal.exp (s j)).toReal * Real.exp (-a'), ?_, ?_⟩
  · rw [nextL, ha', exp_sub_coe hm, EReal.coe_add, EReal.coe_mul _ L, coe_sum]
    congr 1
    refine Finset.sum_congr rfl fun j _ => ?_
    rw [exp_sub_coe (hs j)]
  · have h : Real.exp (-a') * Real.exp a' = 1 := by rw [← Real.exp_add, neg_add_cancel, Real.exp_zero]
    have h1 : (Ideal.exp m).toReal * Real.exp (-a') * L * Real.exp a'
        = L * (Ideal.exp m).toReal * (Real.exp (-a') * Real.exp a') := by ring
    have h2 : ∀ j : Fin 512, (Ideal.exp (s j)).toReal * Real.exp (-a') * Real.exp a' = (Ideal.exp (s j)).toReal :=
      fun j => by rw [mul_assoc, h, mul_one]
    rw [add_mul, Finset.sum_mul, h1, h, mul_one]
    congr 1
    exact Finset.sum_congr rfl fun j _ => h2 j

/-- The exponential at position i of the row laid out along the naturals: zero past the last column. -/
private def expAt (x : Fin 50257 → ℝ) (i : ℕ) : ℝ := if h : i < 50257 then Real.exp (x ⟨i, h⟩) else 0

private theorem lane_ne_top (x : Fin 50257 → ℝ) (k : ℕ) (j : Fin 512) : lane x k j ≠ ⊤ := by
  unfold lane
  split_ifs
  · exact EReal.coe_ne_top _
  · exact bot_ne_top

private theorem exp_lane (x : Fin 50257 → ℝ) (k : ℕ) (j : Fin 512) :
    (Ideal.exp (lane x k j)).toReal = expAt x (k * 512 + j.val) := by
  unfold lane expAt
  split_ifs
  · rw [Ideal.exp_coe, EReal.toReal_coe]
  · rw [Ideal.exp_bot, EReal.toReal_zero]

/-- A sum over the first k + 1 blocks of 512 positions is the sum over the first k blocks plus the block k. -/
private theorem sum_block {M : Type*} [AddCommMonoid M] (F : ℕ → M) (k : ℕ) :
    ∑ i ∈ Finset.range ((k + 1) * 512), F i
      = ∑ i ∈ Finset.range (k * 512), F i + ∑ j : Fin 512, F (k * 512 + j.val) := by
  rw [Nat.succ_mul, Finset.sum_range_add, Finset.sum_range (fun j => F (k * 512 + j))]

/-- The invariant of the scan: before block k the running maximum is below the top element (and a real once a
    block has been read), the running sum is a real L, and L * exp m is the sum of the exponentials of the
    columns already read. -/
private theorem run_inv (x : Fin 50257 → ℝ) : ∀ k : ℕ, k ≤ 99 →
    runM x k ≠ ⊤ ∧ (0 < k → runM x k ≠ ⊥) ∧
      ∃ L : ℝ, runL x k = (L : EReal) ∧
        L * (Ideal.exp (runM x k)).toReal = ∑ i ∈ Finset.range (k * 512), expAt x i := by
  intro k
  induction k with
  | zero =>
    intro _
    refine ⟨bot_ne_top, fun h => absurd h (lt_irrefl 0), 0, rfl, ?_⟩
    rw [zero_mul, Nat.zero_mul, Finset.range_zero, Finset.sum_empty]
  | succ k ih =>
    intro hk
    obtain ⟨hT, _, L, hL, hS⟩ := ih (Nat.le_of_succ_le hk)
    have h0 : k * 512 + (⟨0, by norm_num⟩ : Fin 512).val < 50257 := by
      show k * 512 + 0 < 50257
      omega
    have hlane : lane x k ⟨0, by norm_num⟩ ≠ ⊥ := by
      unfold lane
      rw [dif_pos h0]
      exact EReal.coe_ne_bot _
    have hT' : runM x (k + 1) ≠ ⊤ := nextM_ne_top hT (lane_ne_top x k)
    have hB' : runM x (k + 1) ≠ ⊥ := nextM_ne_bot _ hlane
    have ha' : runM x (k + 1) = ((runM x (k + 1)).toReal : EReal) := (EReal.coe_toReal hT' hB').symm
    obtain ⟨L', hL', hS'⟩ := step L hT (lane_ne_top x k) (show nextM (runM x k) (lane x k) = _ from ha')
    refine ⟨hT', fun _ => hB', L', ?_, ?_⟩
    · show nextL (runM x k) (runL x k) (lane x k) = _
      rw [hL, hL']
    · rw [ha', Ideal.exp_coe, EReal.toReal_coe, hS', hS, sum_block]
      congr 1
      exact Finset.sum_congr rfl fun j _ => exp_lane x k j

/-- Positions past the last column contribute nothing, and the positions before it are the columns. -/
private theorem sum_expAt (x : Fin 50257 → ℝ) :
    ∑ i ∈ Finset.range (99 * 512), expAt x i = ∑ v, Real.exp (x v) := by
  have h : 99 * 512 = 50257 + 431 := by norm_num
  have hz : ∑ i ∈ Finset.range 431, expAt x (50257 + i) = 0 :=
    Finset.sum_eq_zero fun i _ => dif_neg (by omega)
  rw [h, Finset.sum_range_add, hz, add_zero, Finset.sum_range]
  refine Finset.sum_congr rfl fun v _ => ?_
  rw [expAt, dif_pos v.isLt]

private theorem sum_exp_pos (x : Fin 50257 → ℝ) : 0 < ∑ v, Real.exp (x v) :=
  Finset.sum_pos (fun v _ => Real.exp_pos _) Finset.univ_nonempty

/-- After all 99 blocks the running maximum is a real `a`, the running sum a positive real `L`, and `L * exp a` is
    the sum of the row's exponentials. -/
theorem run_final (x : Fin 50257 → ℝ) :
    ∃ a L : ℝ, runM x 99 = (a : EReal) ∧ runL x 99 = (L : EReal) ∧ 0 < L ∧ L * Real.exp a = ∑ v, Real.exp (x v) := by
  obtain ⟨hT, hB, L, hL, hS⟩ := run_inv x 99 le_rfl
  have ha : runM x 99 = ((runM x 99).toReal : EReal) := (EReal.coe_toReal hT (hB (by norm_num))).symm
  rw [ha, Ideal.exp_coe, EReal.toReal_coe, sum_expAt] at hS
  refine ⟨(runM x 99).toReal, L, ha, hL, ?_, hS⟩
  have hp : 0 < L * Real.exp (runM x 99).toReal := hS ▸ sum_exp_pos x
  exact (mul_pos_iff_of_pos_right (Real.exp_pos _)).1 hp

/-- The distinguished column's contribution at position i of the row laid out along the naturals. -/
private def pickAt (x : Fin 50257 → ℝ) (g : Fin 50257) (i : ℕ) : EReal := if i = g.val then ((x g : ℝ) : EReal) else 0

private theorem runA_inv (x : Fin 50257 → ℝ) (g : Fin 50257) :
    ∀ k : ℕ, runA x g k = ∑ i ∈ Finset.range (k * 512), pickAt x g i := by
  intro k
  induction k with
  | zero =>
    rw [Nat.zero_mul, Finset.range_zero, Finset.sum_empty]
    rfl
  | succ k ih =>
    show runA x g k + ∑ j : Fin 512, pick x g k j = _
    rw [ih, sum_block]
    rfl

/-- After all 99 blocks the collected entry is the one at the distinguished column. -/
theorem runA_final (x : Fin 50257 → ℝ) (g : Fin 50257) : runA x g 99 = ((x g : ℝ) : EReal) := by
  rw [runA_inv]
  show ∑ i ∈ Finset.range (99 * 512), (if i = g.val then ((x g : ℝ) : EReal) else 0) = _
  rw [Finset.sum_ite_eq', if_pos (Finset.mem_range.2 (by have := g.isLt; omega))]

/-- The running sum after the last block is positive. -/
theorem runL_pos (x : Fin 50257 → ℝ) : (0 : EReal) < runL x 99 := by
  obtain ⟨a, L, _, hL, hpos, _⟩ := run_final x
  rw [hL]; exact_mod_cast hpos

/-- The row's maximum taken from the bottom element. -/
def rowMax (x : Fin 50257 → ℝ) : EReal := (Finset.univ : Finset (Fin 50257)).fold max ⊥ (fun v => ((x v : ℝ) : EReal))

/-- The row's maximum is a real: it is below the top element because every entry is, and above the bottom element
    because the first entry is. -/
private theorem rowMax_real (x : Fin 50257 → ℝ) : ∃ A : ℝ, rowMax x = (A : EReal) := by
  have hT : rowMax x ≠ ⊤ := by
    refine ne_of_lt ?_
    rw [rowMax, Finset.fold_max_lt]
    exact ⟨bot_lt_top, fun v _ => EReal.coe_lt_top _⟩
  have hB : rowMax x ≠ ⊥ := by
    refine ne_of_gt (lt_of_lt_of_le (EReal.bot_lt_coe (x ⟨0, by norm_num⟩)) ?_)
    rw [rowMax, Finset.le_fold_max]
    exact Or.inr ⟨_, Finset.mem_univ _, le_rfl⟩
  exact ⟨(rowMax x).toReal, (EReal.coe_toReal hT hB).symm⟩

/-- The two negative log-likelihoods as extended reals, once every term is a real: they agree as soon as the two
    forms of the log-sum-exp do. -/
private theorem nll_real {xg a l A s : ℝ} (h : a + l = A + s) :
    (0 : EReal) - ((xg : EReal) - ((a : EReal) + (l : EReal)))
      = -(((xg : EReal) - (A : EReal)) - (s : EReal)) := by
  norm_cast
  linarith

/-- The negative log-likelihood from the scan equals the two-pass one: both are `log (∑ exp x) - x g`. -/
theorem nll_eq (x : Fin 50257 → ℝ) (g : Fin 50257) :
    (0 : EReal) - (runA x g 99 - (runM x 99 + Ideal.log (runL x 99)))
      = -((((x g : ℝ) : EReal) - max ⊥ (rowMax x))
          - Ideal.log (0 + ∑ v : Fin 50257, Ideal.exp (((x v : ℝ) : EReal) - max ⊥ (rowMax x)))) := by
  obtain ⟨a, L, hM, hL, hpos, hsum⟩ := run_final x
  obtain ⟨A, hA⟩ := rowMax_real x
  have hmax : max ⊥ (rowMax x) = (A : EReal) := by rw [hA]; exact max_eq_right bot_le
  have hexp : ∀ v : Fin 50257,
      Ideal.exp (((x v : ℝ) : EReal) - (A : EReal)) = ((Real.exp (x v - A) : ℝ) : EReal) := fun v => by
    rw [← EReal.coe_sub, Ideal.exp_coe]
  have hS' : (∑ v, Real.exp (x v - A)) * Real.exp A = ∑ v, Real.exp (x v) := by
    rw [Finset.sum_mul]
    refine Finset.sum_congr rfl fun v _ => ?_
    rw [← Real.exp_add, sub_add_cancel]
  have hS'pos : 0 < ∑ v, Real.exp (x v - A) :=
    Finset.sum_pos (fun v _ => Real.exp_pos _) Finset.univ_nonempty
  have key : a + Real.log L = A + Real.log (∑ v, Real.exp (x v - A)) := by
    have h1 : Real.log (L * Real.exp a) = Real.log L + a := by
      rw [Real.log_mul hpos.ne' (Real.exp_pos a).ne', Real.log_exp]
    have h2 : Real.log ((∑ v, Real.exp (x v - A)) * Real.exp A) = Real.log (∑ v, Real.exp (x v - A)) + A := by
      rw [Real.log_mul hS'pos.ne' (Real.exp_pos A).ne', Real.log_exp]
    rw [hsum] at h1
    rw [hS'] at h2
    linarith
  rw [runA_final, hM, hL, hmax]
  simp only [hexp]
  rw [← coe_sum, zero_add, Ideal.log_coe, Ideal.log_coe, if_neg (not_le.2 hpos), if_neg (not_le.2 hS'pos)]
  exact nll_real key

end Cert.OnlineSoftmax

end
-- ==== Proof.KPay.lean ====
/-
  The kernel body's arithmetic at one row, read over the extended reals.

  At grid point `(i, k)` the body multiplies a 2048 × 256 block of hidden vectors with a 512 × 256 block of weight rows,
  adds a 1 × 512 bias block, and from the resulting 2048 × 512 block of logits updates three per-row quantities: the
  running maximum, the running sum of exponentials relative to it, and the logit collected at the row's label. Lanes
  whose column `512 k + j` lies past column 50256 count as the bottom element. Each update, read at row `r`, is one
  step of the block-by-block scan of `OnlineSoftmax`.
-/
import proofs.«406568_j15204184227955_3_alg».proof.Proof.Gen.KernelIdeal.Skeleton
import proofs.«406568_j15204184227955_3_alg».proof.Proof.OnlineSoftmax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

variable (i : grid0.Coords)
variable (x0 : Vec Ideal S2048x256 .bf16) (x1 : Vec Ideal S512x256 .bf16) (x2 : Vec Ideal S1x512 .f32) (x3 : Vec Ideal S2048x1 .i32)

/-! ## The block product at an index

The product contracts axis 1 of both operands: the operand indices at output index `(r, j)` and contraction position
`h` are `(r, h)` and `(j, h)`. The four coordinates are read one by one. -/

theorem lhs_axis0 (y : S2048x512.Idx) (q : dot_S2048x256_S512x256_S2048x512_1_1_0_0_n_n.contr.Idx) :
    (dot_S2048x256_S512x256_S2048x512_1_1_0_0_n_n.lhsIdx y q 0).val = (y 0).val := by
  unfold DotDims.lhsIdx
  rw [dif_neg (show ¬(0 : Fin S2048x256.rank) ∈ dot_S2048x256_S512x256_S2048x512_1_1_0_0_n_n.lhsBatch by decide), dif_pos (show (0 : Fin S2048x256.rank) ∈ dot_S2048x256_S512x256_S2048x512_1_1_0_0_n_n.lhsNonContracting by decide)]
  rfl

theorem lhs_axis1 (y : S2048x512.Idx) (q : dot_S2048x256_S512x256_S2048x512_1_1_0_0_n_n.contr.Idx) :
    (dot_S2048x256_S512x256_S2048x512_1_1_0_0_n_n.lhsIdx y q 1).val = (q ⟨0, by decide⟩).val :=
  dot_S2048x256_S512x256_S2048x512_1_1_0_0_n_n.lhsIdx_val_of_single rfl y q

theorem rhs_axis0 (y : S2048x512.Idx) (q : dot_S2048x256_S512x256_S2048x512_1_1_0_0_n_n.contr.Idx) :
    (dot_S2048x256_S512x256_S2048x512_1_1_0_0_n_n.rhsIdx y q 0).val = (y 1).val := by
  unfold DotDims.rhsIdx
  rw [dif_neg (show ¬(0 : Fin S512x256.rank) ∈ dot_S2048x256_S512x256_S2048x512_1_1_0_0_n_n.rhsBatch by decide), dif_pos (show (0 : Fin S512x256.rank) ∈ dot_S2048x256_S512x256_S2048x512_1_1_0_0_n_n.rhsNonContracting by decide)]
  rfl

theorem rhs_axis1 (y : S2048x512.Idx) (q : dot_S2048x256_S512x256_S2048x512_1_1_0_0_n_n.contr.Idx) :
    (dot_S2048x256_S512x256_S2048x512_1_1_0_0_n_n.rhsIdx y q 1).val = (q ⟨0, by decide⟩).val :=
  dot_S2048x256_S512x256_S2048x512_1_1_0_0_n_n.rhsIdx_val_of_single rfl y q

/-- The product into the zero block, at `(r, j)`: the hidden row `r` against the weight row `j`. -/
theorem matmul_zero_apply (a : FVec Ideal S2048x256 .bf16) (b : FVec Ideal S512x256 .bf16) (r : Fin 2048) (j : Fin 512) :
    matmul dot_S2048x256_S512x256_S2048x512_1_1_0_0_n_n none a b (constant (F := Ideal) S2048x512 .f32 0x00000000#32) (ix2 r j)
      = ∑ h : Fin 256, a (ix2 r h) * b (ix2 j h) := by
  simp only [matmul]
  rw [Ideal.matmul_constant_zero_apply, ← Equiv.sum_comp (contrEquiv1 dot_S2048x256_S512x256_S2048x512_1_1_0_0_n_n 256 rfl rfl).symm]
  refine Finset.sum_congr rfl fun k _ => ?_
  have hk := contrEquiv1_symm_val dot_S2048x256_S512x256_S2048x512_1_1_0_0_n_n 256 rfl rfl k
  have el : dot_S2048x256_S512x256_S2048x512_1_1_0_0_n_n.lhsIdx (ix2 r j) ((contrEquiv1 dot_S2048x256_S512x256_S2048x512_1_1_0_0_n_n 256 rfl rfl).symm k) = ix2 r k := funext fun c => Fin.ext (by
    match c with
    | ⟨0, _⟩ => exact lhs_axis0 _ _
    | ⟨1, _⟩ => exact (lhs_axis1 _ _).trans hk)
  have er : dot_S2048x256_S512x256_S2048x512_1_1_0_0_n_n.rhsIdx (ix2 r j) ((contrEquiv1 dot_S2048x256_S512x256_S2048x512_1_1_0_0_n_n 256 rfl rfl).symm k) = ix2 j k := funext fun c => Fin.ext (by
    match c with
    | ⟨0, _⟩ => exact rhs_axis0 _ _
    | ⟨1, _⟩ => exact (rhs_axis1 _ _).trans hk)
  rw [el, er]

/-! ## Words and pointwise operations at an index -/

/-- A select on a decided proposition is the `if` on it. -/
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- An exponential at an index is the exponential of the element … -/
theorem exp_apply {s : Shape} {φ : FTy} (a : FVec Ideal s φ) (y : s.Idx) : exp a y = Ideal.exp (a y) := rfl
/-- … and a logarithm the logarithm of the element. -/
theorem log_apply {s : Shape} {φ : FTy} (a : FVec Ideal s φ) (y : s.Idx) : log a y = Ideal.log (a y) := rfl
/-- An integer sum at an index adds the words … -/
theorem addi_apply {s : Shape} {w : ℕ} (a b : IVec s w) (y : s.Idx) : addi a b y = a y + b y := rfl
/-- … and an integer comparison compares them. -/
theorem cmpi_apply {s : Shape} {w : ℕ} (p : CmpIPredicate) (a b : IVec s w) (y : s.Idx) :
    cmpi p a b y = IntOp.cmpi p (a y) (b y) := rfl

/-- The word `0xFF800000` denotes the bottom element. -/
theorem ofBits_neg_inf_f32 : Ideal.ofBits .f32 0xFF800000#32 = ⊥ := by simp [Ideal.ofBits, Ideal.ieee]

/-! ## The keepdims column forms -/

/-- An `[a]` array cast to `[a, 1]` reads, at `(p, u)`, the operand at `p`, whatever the unit coordinate `u`. -/
theorem shapeCast_a_a1_apply {a : ℕ} {α : Type} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `p`. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's maximum and sum -/

/-- The index over row `r` with lane `k` put back on the reduced axis is `(r, k)`. -/
theorem lift_row (h : S2048x512.Reduces [1] S2048) (r : Fin 2048) (k : Fin 512) : h.lift (ix1 r) k = ix2 r k := by
  funext c
  apply Fin.ext
  match c with
  | ⟨0, _⟩ => rfl
  | ⟨1, _⟩ => rfl

/-- The maximum over the lanes, taken from the bottom element, at row `r`. -/
theorem rowMax_apply (src : FVec Ideal S2048x512 .f32) (h : S2048x512.Reduces [1] S2048) (hφ : FKind.Formats .f32)
    (hacc : (0xFF800000#32 : BitVec 32) = 0xFF800000#32) (r : Fin 2048) :
    multiReduction (F := Ideal) .maximumf [1] S2048 src 0xFF800000#32 h hφ hacc (ix1 r)
      = Cert.OnlineSoftmax.blockMax fun j => src (ix2 r j) := by
  refine (Ideal.multiReduction_maximumf_single src _ h hφ hacc (ix1 r)).trans ?_
  have hf : (src ∘ h.lift (ix1 r)) = fun j : Fin 512 => src (ix2 r j) := funext fun k => congrArg src (lift_row h r k)
  rw [hf]
  show (Finset.univ : Finset (Fin 512)).fold max (Ideal.ofBits .f32 0xFF800000#32) _ = _
  rw [ofBits_neg_inf_f32]
  rfl

/-- The sum over the lanes at row `r`. -/
theorem rowSum_apply (src : FVec Ideal S2048x512 .f32) (h : S2048x512.Reduces [1] S2048) (hφ : FKind.Formats .f32)
    (hacc : (0x00000000#32 : BitVec 32) = 0x00000000#32) (r : Fin 2048) :
    multiReduction (F := Ideal) .add [1] S2048 src 0x00000000#32 h hφ hacc (ix1 r) = ∑ j : Fin 512, src (ix2 r j) := by
  refine (Ideal.multiReduction_add_single src _ h hφ hacc (ix1 r)).trans ?_
  exact Finset.sum_congr rfl fun k _ => congrArg src (lift_row h r k)

/-! ## The column numbers -/

/-- A column number below 51200 is the value of its 32-bit word. -/
theorem toNat_col (n : ℕ) (hn : n < 51200) : (BitVec.ofNat 32 n).toNat = n := by
  rw [BitVec.toNat_ofNat]; exact Nat.mod_eq_of_lt (by omega)

/-- Its signed comparison with 50257 is the comparison of naturals. -/
theorem slt_col (n : ℕ) (hn : n < 51200) : (BitVec.ofNat 32 n).slt 50257#32 = decide (n < 50257) := by
  have h2 : (BitVec.ofNat 32 n).toInt = (n : Int) := by
    rw [BitVec.toInt_eq_toNat_cond, toNat_col n hn, if_pos (by omega)]
  have h3 : (50257#32 : BitVec 32).toInt = 50257 := by decide
  rw [BitVec.slt, h2, h3]
  congr 1
  exact propext (by omega)

/-- Its equality with a word is the equality with the word's value. -/
theorem beq_col (n : ℕ) (hn : n < 51200) (x : BitVec 32) : (BitVec.ofNat 32 n == x) = decide (n = x.toNat) := by
  rw [Bool.eq_iff_iff]
  simp only [beq_iff_eq, decide_eq_true_eq]
  constructor
  · intro h; rw [← h, toNat_col n hn]
  · intro h; exact BitVec.eq_of_toNat_eq (by rw [toNat_col n hn, h])

/-- The grid's second coordinate is one of the 99 blocks, so a lane's column number is below 51200. -/
theorem col_lt (j : Fin 512) : (i 1).val * 512 + j.val < 51200 := by
  have h99 : (i 1).val < 99 := (i 1).isLt
  have := j.isLt
  omega

/-- The column number of lane `j` of the block, as the body computes it. -/
theorem pay10_apply (r : Fin 2048) (j : Fin 512) :
    k0_pay10 i (ix2 r j) = BitVec.ofNat 32 ((i 1).val * 512 + j.val) := by
  unfold k0_pay10
  dsimp only
  rw [addi_apply, broadcast_apply, iota_single_apply, BitVec.ofNat_add, BitVec.ofNat_mul]
  rfl

/-- The lane's column is one of the 50257. -/
theorem pay12_apply (r : Fin 2048) (j : Fin 512) :
    k0_pay12 i (ix2 r j) = BitVec.ofBool (decide ((i 1).val * 512 + j.val < 50257)) := by
  unfold k0_pay12
  rw [cmpi_apply, broadcast_apply, pay10_apply]
  show BitVec.ofBool ((BitVec.ofNat 32 ((i 1).val * 512 + j.val)).slt 50257#32) = _
  rw [slt_col _ (col_lt i j)]

/-- Past the 50257 columns a lane holds the bottom element. -/
theorem pay13_apply (y : S2048x512.Idx) : k0_pay13 (F := Ideal) y = ⊥ := by
  unfold k0_pay13
  rfl

/-- Row `r` of the block of logits with the lanes past the last column at the bottom element. -/
def lanes (r : Fin 2048) : Fin 512 → EReal :=
  fun j => k0_pay1 (F := Ideal) (k0_pay9 x0 x1 x2) (k0_pay12 i) (k0_pay13 (F := Ideal)) (ix2 r j)

/-- A logit of the block: the hidden row against the weight row, plus the bias. -/
theorem pay9_apply (r : Fin 2048) (j : Fin 512) :
    k0_pay9 (F := Ideal) x0 x1 x2 (ix2 r j) = (∑ h : Fin 256, x0 (ix2 r h) * x1 (ix2 j h)) + x2 (ix2 (0 : Fin 1) j) := by
  unfold k0_pay9
  rw [addf_apply, shapeCast_self, shapeCast_self, shapeCast_self, matmul_zero_apply, broadcastTo_1b_ab_apply]

/-- A lane is the logit when its column `512 k + j` is one of the 50257, the bottom element past them. -/
theorem lanes_apply (r : Fin 2048) (j : Fin 512) :
    lanes i x0 x1 x2 r j = if (i 1).val * 512 + j.val < 50257 then k0_pay9 (F := Ideal) x0 x1 x2 (ix2 r j) else ⊥ := by
  unfold lanes k0_pay1
  rw [select_apply, pay12_apply, pay13_apply, select_ofBool]

/-- The new running maximum at row `r`, over any block of lanes. -/
theorem pay2_apply (v11 : FVec Ideal S2048x512 .f32) (v31 : IVec S2048x512 1) (v32 : FVec Ideal S2048x512 .f32)
    (m : Vec Ideal S2048x1 .f32) (r : Fin 2048) :
    k0_pay2 (F := Ideal) v11 v31 v32 m (ix2 r (0 : Fin 1))
      = Cert.OnlineSoftmax.nextM (m (ix2 r (0 : Fin 1))) fun j => k0_pay1 (F := Ideal) v11 v31 v32 (ix2 r j) := by
  unfold k0_pay2
  refine (maximumf_apply _ _ _).trans ?_
  show max _ _ = max _ (Cert.OnlineSoftmax.blockMax _)
  refine congrArg (max (m (ix2 r (0 : Fin 1)))) ?_
  refine (shapeCast_a_a1_apply _ _ r 0).trans ?_
  exact rowMax_apply _ _ _ _ r

/-- The new running sum at row `r`, over any block of lanes. -/
theorem pay3_gen (v11 : FVec Ideal S2048x512 .f32) (v31 : IVec S2048x512 1) (v32 : FVec Ideal S2048x512 .f32)
    (m l : Vec Ideal S2048x1 .f32) (r : Fin 2048) :
    k0_pay3 (F := Ideal) v11 v31 v32 m m l (ix2 r (0 : Fin 1))
      = Cert.OnlineSoftmax.nextL (m (ix2 r (0 : Fin 1))) (l (ix2 r (0 : Fin 1)))
          fun j => k0_pay1 (F := Ideal) v11 v31 v32 (ix2 r j) := by
  unfold k0_pay3
  rw [shapeCast_self]
  refine (addf_apply _ _ _).trans ?_
  unfold Cert.OnlineSoftmax.nextL
  refine congrArg₂ (· + ·) ?_ ?_
  · rw [mulf_apply, exp_apply, subf_apply, pay2_apply]
  · refine (shapeCast_a_a1_apply _ _ r 0).trans ?_
    refine (rowSum_apply _ _ _ _ r).trans ?_
    refine Finset.sum_congr rfl fun j _ => ?_
    rw [exp_apply, subf_apply, broadcastTo_a1_ab_apply, pay2_apply]

/-- The new running maximum at row `r`. -/
theorem pay4_apply (m : Vec Ideal S2048x1 .f32) (r : Fin 2048) :
    k0_pay4 (F := Ideal) (k0_pay9 x0 x1 x2) (k0_pay12 i) (k0_pay13 (F := Ideal)) m (ix2 r (0 : Fin 1))
      = Cert.OnlineSoftmax.nextM (m (ix2 r (0 : Fin 1))) (lanes i x0 x1 x2 r) := by
  unfold k0_pay4
  rw [shapeCast_self]
  exact pay2_apply _ _ _ m r

/-- The new running sum at row `r`. -/
theorem pay3_apply (m l : Vec Ideal S2048x1 .f32) (r : Fin 2048) :
    k0_pay3 (F := Ideal) (k0_pay9 x0 x1 x2) (k0_pay12 i) (k0_pay13 (F := Ideal)) m m l (ix2 r (0 : Fin 1))
      = Cert.OnlineSoftmax.nextL (m (ix2 r (0 : Fin 1))) (l (ix2 r (0 : Fin 1))) (lanes i x0 x1 x2 r) := by
  exact pay3_gen _ _ _ m l r

/-- The collected label logit at row `r`: the lane whose column is the row's label adds its logit, every other lane zero. -/
theorem pay11_apply (a : Vec Ideal S2048x1 .f32) (r : Fin 2048) (hx3 : (x3 (ix2 r (0 : Fin 1))).toNat < 50257) :
    k0_pay11 (F := Ideal) i x0 x1 x2 x3 a (ix2 r (0 : Fin 1))
      = a (ix2 r (0 : Fin 1)) + ∑ j : Fin 512,
          (if (i 1).val * 512 + j.val = (x3 (ix2 r (0 : Fin 1))).toNat then k0_pay9 (F := Ideal) x0 x1 x2 (ix2 r j) else 0) := by
  unfold k0_pay11
  rw [shapeCast_self]
  refine (addf_apply _ _ _).trans ?_
  refine congrArg (a (ix2 r (0 : Fin 1)) + ·) ?_
  refine (shapeCast_a_a1_apply _ _ r 0).trans ?_
  refine (rowSum_apply _ _ _ _ r).trans ?_
  refine Finset.sum_congr rfl fun j _ => ?_
  rw [select_apply, cmpi_apply, pay10_apply, broadcastTo_a1_ab_apply, shapeCast_self, broadcast_apply]
  show Scalar.select (BitVec.ofBool (BitVec.ofNat 32 ((i 1).val * 512 + j.val) == x3 (ix2 r (0 : Fin 1)))) _
      (Ideal.ofBits .f32 0x00000000#32) = _
  rw [beq_col _ (col_lt i j), select_ofBool, Ideal.ofBits_zero_f32]

/-- The loss term the last block writes at row `r`, from the running sum `l`, the collected logit `a` and the running maximum `m`. -/
theorem pay5_apply (l a m : Vec Ideal S2048x1 .f32) (r : Fin 2048) :
    k0_pay5 (F := Ideal) l a m (ix2 r (0 : Fin 1))
      = if 0 < l (ix2 r (0 : Fin 1)) then 0 - (a (ix2 r (0 : Fin 1)) - (m (ix2 r (0 : Fin 1)) + Ideal.log (l (ix2 r (0 : Fin 1))))) else 0 := by
  unfold k0_pay5
  rw [select_apply, cmpf_apply, subf_apply, subf_apply, addf_apply, log_apply, broadcast_apply]
  show Scalar.select (BitVec.ofBool (decide (Ideal.ofBits .f32 0x00000000#32 < l (ix2 r (0 : Fin 1)))))
      (Ideal.ofBits .f32 0x00000000#32 - _) (Ideal.ofBits .f32 0x00000000#32) = _
  rw [select_ofBool, Ideal.ofBits_zero_f32]

/-- The first block starts the running maximum at the bottom element, -/
theorem pay6_apply (r : Fin 2048) : k0_pay6 (F := Ideal) (ix2 r (0 : Fin 1)) = ⊥ := by
  unfold k0_pay6
  rw [shapeCast_self]
  rfl

/-- the running sum at zero, -/
theorem pay7_apply (r : Fin 2048) : k0_pay7 (F := Ideal) (ix2 r (0 : Fin 1)) = 0 := by
  unfold k0_pay7
  rw [shapeCast_self]
  exact Ideal.ofBits_zero_f32

/-- and the collected logit at zero. -/
theorem pay8_apply (r : Fin 2048) : k0_pay8 (F := Ideal) (ix2 r (0 : Fin 1)) = 0 := by
  unfold k0_pay8
  rw [shapeCast_self]
  exact Ideal.ofBits_zero_f32

end Cert.KernelIdeal.Pay

end
-- ==== Proof.KHost.lean ====
/-
  The arrays the kernel's region finds, as functions of the program's arguments.

  Before the region the host gathers, for each of the 4096 flat tokens, column `idx` of the table `W1` (after wrapping a
  negative index and masking an index out of range, neither of which changes anything for an index already in range),
  transposes, adds `b1`, clips below at zero and narrows the format: the hidden vectors. It narrows `W2` and pads it with
  431 zero rows, pads `b2` with 431 zeros, and lays the labels out as a column. Read at an index these four arrays are
  the hidden vector of `Spec`, `W2` or zero, `b2` or zero, and the label.
-/
import proofs.«406568_j15204184227955_3_alg».proof.Proof.Gen.KernelIdeal.Frame.Runs
import proofs.«406568_j15204184227955_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

namespace Cert.KernelIdeal.HostVal

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-- The program's six arguments on core `c`. -/
abbrev A0 : S4x1024.Idx → BitVec 32 := m ((c : Thread nD τ).loc main_arg0)
abbrev A1 : S4x1024.Idx → BitVec 32 := m ((c : Thread nD τ).loc main_arg1)
abbrev A2 : S256x50257.Idx → EReal := m ((c : Thread nD τ).loc main_arg2)
abbrev A3 : S256.Idx → EReal := m ((c : Thread nD τ).loc main_arg3)
abbrev A4 : S50257x256.Idx → EReal := m ((c : Thread nD τ).loc main_arg4)
abbrev A5 : S50257.Idx → EReal := m ((c : Thread nD τ).loc main_arg5)

/-! ## The four arrays as terms over the arguments -/

/-- The labels' array is the second argument reshaped to a column. -/
theorem v0_eq : (V m c main_v0 : S4096x1.Idx → BitVec 32) = shapeCast S4096x1 (A1 m c) shapeCasts_S4x1024_S4096x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results; rfl

/-- The padded bias is `b2` as one row, padded on the right with the converted integer zero. -/
theorem v12_eq : (V m c main_v12 : S1x50688.Idx → EReal) =
    pad S1x50688 ![0, 0] ![0, 431] ![0, 0] (shapeCast S1x50257 (A5 m c) shapeCasts_S50257_S1x50257)
      (sitofp (F := Ideal) .f32 (constantI S_ 32 0#32)) pads_S1x50257_S1x50688_000_04310 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results; rfl

/-- The padded weights are `W2` narrowed, padded below with the converted integer zero. -/
theorem v10_eq : (V m c main_v10 : S50688x256.Idx → EReal) =
    pad S50688x256 ![0, 0] ![431, 0] ![0, 0] (truncf (F := Ideal) .bf16 (A4 m c) bitsLt_bf16_f32)
      (sitofp (F := Ideal) .bf16 (constantI S_ 32 0#32)) pads_S50257x256_S50688x256_04310_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results; rfl

/-! ## The hidden vectors' array, and its entries -/

/-- The token indices as one flat array. -/
def I1 : S4096.Idx → BitVec 32 := shapeCast S4096 (A0 m c) shapeCasts_S4x1024_S4096

/-- The flat indices wrapped: a negative one has 50257 added. -/
def I4 : S4096.Idx → BitVec 32 :=
  select (cmpi .slt (I1 m c) (broadcastInDim S4096 ![] bcast_S_S4096 (constantI S_ 32 0#32)))
    (addi (I1 m c) (broadcastInDim S4096 ![] bcast_S_S4096 (constantI S_ 32 50257#32))) (I1 m c)

/-- The wrapped indices as a column. -/
def I5 : S4096x1.Idx → BitVec 32 := broadcastInDim S4096x1 ![0] bcast_S4096_S4096x1_0 (I4 m c)

/-- The in-range mask: `0 ≤ idx ≤ 50256`, per token. -/
def M12 : S4096.Idx → BitVec 1 :=
  Host.reduce IntOp.andi
    (andi (cmpi .sge (I5 m c) (broadcastInDim S4096x1 ![] bcast_S_S4096x1 (constantI S_ 32 0#32)))
      (cmpi .sle (I5 m c) (broadcastInDim S4096x1 ![0, 1] bcast_S1x1_S4096x1_0_1
        (broadcastInDim S1x1 ![1] bcast_S1_S1x1_1 (constantI S1 32 50256#32)))))
    (constantI S_ 1 1#1) reducesTo_S4096x1_S4096_d1 h_S_

/-- The gathered columns, masked: column `idx` of `W1` per token where the index is in range, the fill value elsewhere. -/
def G2 : S256x4096.Idx → EReal :=
  select (broadcastInDim S256x4096 ![1] bcast_S4096_S256x4096_1 (M12 m c))
    (Host.gather gather_S256x50257_S4096x1_S256x4096_0_1_n_n_1_1_2561 (A2 m c) (I5 m c))
    (broadcastInDim S256x4096 ![] bcast_S_S256x4096 (constant (F := Ideal) S_ .f32 0x7FC00000#32))

/-- The hidden vectors' array: the masked columns transposed, plus the bias, clipped below at zero, narrowed. -/
theorem v8_eq : (V m c main_v8 : S4096x256.Idx → EReal) =
    truncf (F := Ideal) .bf16
      (maximumf (F := Ideal)
        (addf (F := Ideal) (transpose S4096x256 [1, 0] (G2 m c) transposes_S256x4096_S4096x256_1_0)
          (broadcastInDim S4096x256 ![0, 1] bcast_S1x256_S4096x256_0_1 (broadcastInDim S1x256 ![1] bcast_S256_S1x256_1 (A3 m c))))
        (broadcastInDim S4096x256 ![] bcast_S_S4096x256 (constant (F := Ideal) S_ .f32 0x00000000#32)))
      bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp; rfl

/-- A word below 50257 read signed is itself. -/
theorem toInt_of_small {x : BitVec 32} (hx : x.toNat < 50257) : x.toInt = (x.toNat : Int) :=
  BitVec.toInt_eq_toNat_of_lt (by omega)

/-- A flat token's index is its `(batch, position)` entry of the argument. -/
theorem I1_apply (t : Fin 4096) : I1 m c (ix1 t) = A0 m c (ix2 (Cert.Spec.tokB t) (Cert.Spec.tokS t)) := by
  unfold I1
  refine shapeCast_apply _ _ _ _ ?_
  rw [Shape.rowMajor_val_two, Shape.rowMajor_val_one]
  show (t.val / 1024) * 1024 + t.val % 1024 = t.val
  omega

/-- Wrapping leaves an index that is in range as it is. -/
theorem I4_apply (hidx : ∀ i, (A0 m c i).toNat < 50257) (t : Fin 4096) :
    I4 m c (ix1 t) = A0 m c (ix2 (Cert.Spec.tokB t) (Cert.Spec.tokS t)) := by
  unfold I4
  rw [select_apply]
  have h0 : cmpi .slt (I1 m c) (broadcastInDim S4096 ![] bcast_S_S4096 (constantI S_ 32 0#32)) (ix1 t) = 0#1 := by
    refine eq_zero_of_ne_one fun h1 => ?_
    have h2 : (I1 m c (ix1 t)).toInt < (0#32 : BitVec 32).toInt := IntOp.cmpi_slt.1 h1
    rw [I1_apply, toInt_of_small (hidx _)] at h2
    have h3 : (0#32 : BitVec 32).toInt = 0 := by decide
    omega
  rw [h0, select_zero, I1_apply]

/-- The index column at a token. -/
theorem I5_apply (hidx : ∀ i, (A0 m c i).toNat < 50257) (t : Fin 4096) (z : Fin 1) :
    I5 m c (ix2 t z) = A0 m c (ix2 (Cert.Spec.tokB t) (Cert.Spec.tokS t)) := by
  unfold I5
  refine (broadcastInDim_apply _ _ _ (ix2 t z) (ix1 t) (fun a => ?_)).trans (I4_apply m c hidx t)
  match a with
  | ⟨0, _⟩ => rfl

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a (List.mem_cons.2 (Or.inl rfl)), e]
    exact foldl_andi_one f l fun n hn => h n (List.mem_cons.2 (Or.inr hn))

/-- Every token's index is in range, so the mask is 1 throughout. -/
theorem M12_apply (hidx : ∀ i, (A0 m c i).toNat < 50257) (t : Fin 4096) : M12 m c (ix1 t) = 1#1 := by
  unfold M12
  rw [Host.reduce_eq_foldl]
  show List.foldl _ 1#1 _ = 1#1
  refine foldl_andi_one _ _ fun i _ => ?_
  obtain ⟨a, b, rfl⟩ : ∃ a b, i = ix2 a b := ⟨i 0, i 1, eq_ix2 i⟩
  show IntOp.andi (IntOp.cmpi .sge (I5 m c (ix2 a b)) 0#32) (IntOp.cmpi .sle (I5 m c (ix2 a b)) 50256#32) = 1#1
  rw [I5_apply m c hidx]
  have hx := hidx (ix2 (Cert.Spec.tokB a) (Cert.Spec.tokS a))
  have e0 : (0#32 : BitVec 32).toInt = 0 := by decide
  have e1 : (50256#32 : BitVec 32).toInt = 50256 := by decide
  refine IntOp.andi_eq_one.2 ⟨IntOp.cmpi_sge.2 ?_, IntOp.cmpi_sle.2 ?_⟩
  · rw [toInt_of_small hx, e0]; omega
  · rw [toInt_of_small hx, e1]; omega

/-- The gather read at `(h, t)`: row `h` of the table at column `k`, the start index `idx[t, 0]` read signed and clamped
    into `[0, 50256]`. -/
theorem gather_apply {α : Type} (x : S256x50257.Idx → α) (idx : S4096x1.Idx → BitVec 32) (h : Fin 256) (t : Fin 4096)
    (k : Fin 50257) (hk : k.val = min (idx (ix2 t (0 : Fin 1))).toInt.toNat 50256) :
    Host.gather gather_S256x50257_S4096x1_S256x4096_0_1_n_n_1_1_2561 x idx (ix2 h t) = x (ix2 h k) := by
  unfold Host.gather
  refine congrArg x (funext fun a => Fin.ext ?_)
  have hsi : gather_S256x50257_S4096x1_S256x4096_0_1_n_n_1_1_2561.siIdx (ix2 h t) ⟨0, by decide⟩ = ix2 t (0 : Fin 1) := by
    funext b; refine Fin.ext ?_
    match b with
    | ⟨0, _⟩ => rfl
    | ⟨1, _⟩ => rfl
  match a with
  | ⟨0, _⟩ =>
    show gather_S256x50257_S4096x1_S256x4096_0_1_n_n_1_1_2561.start (ix2 h t) idx 0
      + gather_S256x50257_S4096x1_S256x4096_0_1_n_n_1_1_2561.batchCoord (ix2 h t) 0
      + gather_S256x50257_S4096x1_S256x4096_0_1_n_n_1_1_2561.offCoord (ix2 h t) 0 = h.val
    rw [GatherDims.batchCoord_eq_zero _ _ _ List.not_mem_nil]
    unfold GatherDims.start GatherDims.offCoord
    rw [dif_neg (by decide), dif_pos (by decide)]
    show 0 + 0 + h.val = h.val
    omega
  | ⟨1, _⟩ =>
    show gather_S256x50257_S4096x1_S256x4096_0_1_n_n_1_1_2561.start (ix2 h t) idx 1
      + gather_S256x50257_S4096x1_S256x4096_0_1_n_n_1_1_2561.batchCoord (ix2 h t) 1
      + gather_S256x50257_S4096x1_S256x4096_0_1_n_n_1_1_2561.offCoord (ix2 h t) 1 = k.val
    rw [GatherDims.batchCoord_eq_zero _ _ _ List.not_mem_nil]
    unfold GatherDims.start GatherDims.offCoord
    rw [dif_pos (by decide), dif_neg (by decide)]
    show min (idx (gather_S256x50257_S4096x1_S256x4096_0_1_n_n_1_1_2561.siIdx (ix2 h t) ⟨0, _⟩)).toInt.toNat 50256 + 0 + 0 = _
    rw [hsi, hk]
    omega

/-- The masked columns at `(h, t)`: row `h` of `W1` at the column token `t` selects. -/
theorem G2_apply (hidx : ∀ i, (A0 m c i).toNat < 50257) (t : Fin 4096) (h : Fin 256) :
    G2 m c (ix2 h t) = A2 m c (ix2 h (Cert.Spec.col (A0 m c) (Cert.Spec.tokB t) (Cert.Spec.tokS t))) := by
  unfold G2
  have hm : broadcastInDim S256x4096 ![1] bcast_S4096_S256x4096_1 (M12 m c) (ix2 h t) = 1#1 :=
    (broadcastInDim_apply _ _ _ (ix2 h t) (ix1 t) (fun a => match a with | ⟨0, _⟩ => rfl)).trans (M12_apply m c hidx t)
  rw [select_apply, hm, select_one]
  refine gather_apply _ _ h t _ ?_
  have hx := hidx (ix2 (Cert.Spec.tokB t) (Cert.Spec.tokS t))
  rw [I5_apply m c hidx, toInt_of_small hx, Int.toNat_natCast]
  show (A0 m c (ix2 (Cert.Spec.tokB t) (Cert.Spec.tokS t))).toNat % 50257 = _
  omega

/-- The hidden vectors: row `t` is the hidden vector of flat token `t`. -/
theorem hid_eq (hidx : ∀ i, (A0 m c i).toNat < 50257) (t : Fin 4096) (h : Fin 256) :
    (V m c main_v8 : S4096x256.Idx → EReal) (ix2 t h)
      = Cert.Spec.hidden (A0 m c) (A2 m c) (A3 m c) (Cert.Spec.tokB t) (Cert.Spec.tokS t) h := by
  rw [v8_eq, truncf_apply, maximumf_apply, addf_apply]
  have e1 : transpose S4096x256 [1, 0] (G2 m c) transposes_S256x4096_S4096x256_1_0 (ix2 t h) = G2 m c (ix2 h t) :=
    transpose_apply _ _ _ (ix2 t h) (ix2 h t) (fun b => match b with | ⟨0, _⟩ => rfl | ⟨1, _⟩ => rfl)
  have e2 : broadcastInDim S4096x256 ![0, 1] bcast_S1x256_S4096x256_0_1
      (broadcastInDim S1x256 ![1] bcast_S256_S1x256_1 (A3 m c)) (ix2 t h) = A3 m c (ix1 h) :=
    (broadcastInDim_apply _ _ _ (ix2 t h) (ix2 (0 : Fin 1) h) (fun a => match a with | ⟨0, _⟩ => rfl | ⟨1, _⟩ => rfl)).trans
      (broadcastInDim_apply _ _ _ (ix2 (0 : Fin 1) h) (ix1 h) (fun a => match a with | ⟨0, _⟩ => rfl))
  have e3 : broadcastInDim S4096x256 ![] bcast_S_S4096x256 (constant (F := Ideal) S_ .f32 0x00000000#32) (ix2 t h)
      = (0 : EReal) := Ideal.ofBits_zero_f32
  rw [e1, e2, e3, G2_apply m c hidx]
  rfl

/-- The padded weight rows: `W2`'s row below 50257, zero from there on. -/
theorem w2_eq (v : Fin 50688) (h : Fin 256) :
    (V m c main_v10 : S50688x256.Idx → EReal) (ix2 v h)
      = if hv : v.val < 50257 then A4 m c (ix2 ⟨v.val, hv⟩ h) else 0 := by
  rw [v10_eq]
  by_cases hv : v.val < 50257
  · rw [dif_pos hv]
    refine (pad_apply_of_inside _ _ _ _ _ _ _ (ix2 v h) (ix2 (⟨v.val, hv⟩ : Fin 50257) h) ?_).trans ?_
    · intro a
      match a with
      | ⟨0, _⟩ => show v.val = 0 + v.val * (0 + 1); omega
      | ⟨1, _⟩ => show h.val = 0 + h.val * (0 + 1); omega
    · rfl
  · rw [dif_neg hv]
    refine (pad_apply_of_not_inside _ _ _ _ _ _ _ (ix2 v h) (0 : Fin 2) ?_).trans ?_
    · intro hin
      have h3 : (v.val - 0) / (0 + 1) < 50257 := hin.2.2
      rw [Nat.sub_zero, Nat.div_one] at h3
      exact hv h3
    · exact sitofp_zero (φ := .bf16)

/-- The padded bias: `b2` below 50257, zero from there on. -/
theorem b2_eq (v : Fin 50688) :
    (V m c main_v12 : S1x50688.Idx → EReal) (ix2 (0 : Fin 1) v)
      = if hv : v.val < 50257 then A5 m c (ix1 ⟨v.val, hv⟩) else 0 := by
  rw [v12_eq]
  by_cases hv : v.val < 50257
  · rw [dif_pos hv]
    refine (pad_apply_of_inside _ _ _ _ _ _ _ (ix2 (0 : Fin 1) v) (ix2 (0 : Fin 1) (⟨v.val, hv⟩ : Fin 50257)) ?_).trans ?_
    · intro a
      match a with
      | ⟨0, _⟩ => rfl
      | ⟨1, _⟩ => show v.val = 0 + v.val * (0 + 1); omega
    · refine shapeCast_apply _ _ _ (ix1 (⟨v.val, hv⟩ : Fin 50257)) ?_
      rw [Shape.rowMajor_val_one, Shape.rowMajor_val_two]
      show v.val = 0 * 50257 + v.val
      omega
  · rw [dif_neg hv]
    refine (pad_apply_of_not_inside _ _ _ _ _ _ _ (ix2 (0 : Fin 1) v) (1 : Fin 2) ?_).trans ?_
    · intro hin
      have h3 : (v.val - 0) / (0 + 1) < 50257 := hin.2.2
      rw [Nat.sub_zero, Nat.div_one] at h3
      exact hv h3
    · exact sitofp_zero (φ := .f32)

/-- The labels as a column: row `t` is the label of flat token `t`. -/
theorem tgt_eq (t : Fin 4096) :
    (V m c main_v0 : S4096x1.Idx → BitVec 32) (ix2 t (0 : Fin 1)) = A1 m c (ix2 (Cert.Spec.tokB t) (Cert.Spec.tokS t)) := by
  rw [v0_eq]
  refine shapeCast_apply _ _ _ _ ?_
  rw [Shape.rowMajor_val_two, Shape.rowMajor_val_two]
  show (t.val / 1024) * 1024 + t.val % 1024 = t.val * 1 + 0
  omega

end Cert.KernelIdeal.HostVal

end
-- ==== Proof.KInv.lean ====
/-
  The scratch contents after every grid point, row by row.

  Row `r` of row block `t / 99` is flat token `2048 (t / 99) + r`. Its 512 lanes at point `t` are columns
  `512 (t % 99) + j` of the token's row of logits where those are below 50257, which by the precondition are reals, and
  the bottom element past them; the lane equal to the token's label carries the label's logit. So after point `t` the
  three scratch rows hold the block-by-block scan of the token's row after `t % 99 + 1` blocks.
-/
import proofs.«406568_j15204184227955_3_alg».proof.Proof.KBlocks
import proofs.«406568_j15204184227955_3_alg».proof.Proof.KPieces
import proofs.«406568_j15204184227955_3_alg».proof.Proof.KPay
import proofs.«406568_j15204184227955_3_alg».proof.Proof.KHost
import proofs.«406568_j15204184227955_3_alg».proof.Proof.Spec
import proofs.«406568_j15204184227955_3_alg».proof.Proof.OnlineSoftmax

noncomputable section

namespace Cert.KernelIdeal.Inv

open Cert.KernelIdeal Cert.KernelIdeal.Gen Cert.KernelIdeal.Blocks Cert.KernelIdeal.HostVal
open Idealize.ShloMosaic Idealize.ShloMosaic.TcCoe Idealize.SL.Sem Idealize.ShloMosaic.ValueIdx
open Cert.OnlineSoftmax (runM runL runA lane pick nextM nextL)

variable (m : (ℓ : Loc nD τ sig) → Buf (Elt Ideal) ℓ) (c : Dev nD)

/-- The flat token of row `r` at point `t`. -/
def tokOf (t : Fin cfg0.N) (r : Fin 2048) : Fin 4096 :=
  ⟨t.val / 99 * 2048 + r.val, by have := t.isLt; have hN : cfg0.N = 198 := N_0; have := r.isLt; omega⟩

/-- The row of reals behind that token's logits, -/
def rowX (t : Fin cfg0.N) (r : Fin 2048) : Fin 50257 → ℝ :=
  Cert.Spec.xrow (A0 m c) (A2 m c) (A3 m c) (A4 m c) (A5 m c) (Cert.Spec.tokB (tokOf t r)) (Cert.Spec.tokS (tokOf t r))

/-- and its label. -/
def rowG (t : Fin cfg0.N) (r : Fin 2048) : Fin 50257 :=
  Cert.Spec.lab (A1 m c) (Cert.Spec.tokB (tokOf t r)) (Cert.Spec.tokS (tokOf t r))

section
variable (hW1 : ∀ i, Cert.Spec.IsReal (A2 m c i)) (hb1 : ∀ i, Cert.Spec.IsReal (A3 m c i))
variable (hW2 : ∀ i, Cert.Spec.IsReal (A4 m c i)) (hb2 : ∀ i, Cert.Spec.IsReal (A5 m c i))
variable (hidx : ∀ i, (A0 m c i).toNat < 50257) (htgt : ∀ i, (A1 m c i).toNat < 50257)
include hW1 hb1 hW2 hb2 hidx

/-- The hidden-vector block's row `r` is the hidden vector of the row's token. -/
theorem xb_hid (t : Fin cfg0.N) (r : Fin 2048) (h : Fin 256) :
    xb m c t (ix2 r h) = Cert.Spec.hidden (A0 m c) (A2 m c) (A3 m c) (Cert.Spec.tokB (tokOf t r)) (Cert.Spec.tokS (tokOf t r)) h :=
  (xb_apply m c t r h (tokOf t r) rfl).trans (hid_eq m c hidx (tokOf t r) h)

omit hW1 hb1 hW2 hb2 hidx in
/-- The weight block's row `j` is row `512 (t % 99) + j` of `W2` when that is one of the 50257. -/
theorem wb_w2 (t : Fin cfg0.N) (j : Fin 512) (h : Fin 256) (hv : t.val % 99 * 512 + j.val < 50257) :
    wb m c t (ix2 j h) = A4 m c (ix2 (⟨t.val % 99 * 512 + j.val, hv⟩ : Fin 50257) h) :=
  (wb_apply m c t j h ⟨t.val % 99 * 512 + j.val, by omega⟩ rfl).trans ((w2_eq m c ⟨t.val % 99 * 512 + j.val, by omega⟩ h).trans (dif_pos hv))

omit hW1 hb1 hW2 hb2 hidx in
/-- The bias block's column `j` is entry `512 (t % 99) + j` of `b2` when that is one of the 50257. -/
theorem bb_b2 (t : Fin cfg0.N) (j : Fin 512) (hv : t.val % 99 * 512 + j.val < 50257) :
    bb m c t (ix2 (0 : Fin 1) j) = A5 m c (ix1 (⟨t.val % 99 * 512 + j.val, hv⟩ : Fin 50257)) :=
  (bb_apply m c t j ⟨t.val % 99 * 512 + j.val, by omega⟩ rfl).trans ((b2_eq m c ⟨t.val % 99 * 512 + j.val, by omega⟩).trans (dif_pos hv))

/-- A lane whose column is one of the 50257 holds the token's logit at that column, -/
theorem pay9_logit (t : Fin cfg0.N) (r : Fin 2048) (j : Fin 512) (hv : t.val % 99 * 512 + j.val < 50257) :
    k0_pay9 (F := Ideal) (xb m c t) (wb m c t) (bb m c t) (ix2 r j)
      = Cert.Spec.logit (A0 m c) (A2 m c) (A3 m c) (A4 m c) (A5 m c) (Cert.Spec.tokB (tokOf t r)) (Cert.Spec.tokS (tokOf t r))
          ⟨t.val % 99 * 512 + j.val, hv⟩ :=
  (Pay.pay9_apply (xb m c t) (wb m c t) (bb m c t) r j).trans
    (congrArg₂ (fun (a b : EReal) => a + b)
      (Finset.sum_congr rfl fun h _ =>
        congrArg₂ (fun (a b : EReal) => a * b) (xb_hid m c hW1 hb1 hW2 hb2 hidx t r h) (wb_w2 m c t j h hv))
      (bb_b2 m c t j hv))

/-- which is a real. -/
theorem logit_at (t : Fin cfg0.N) (r : Fin 2048) (j : Fin 512) (hv : t.val % 99 * 512 + j.val < 50257) :
    k0_pay9 (F := Ideal) (xb m c t) (wb m c t) (bb m c t) (ix2 r j)
      = ((rowX m c t r ⟨t.val % 99 * 512 + j.val, hv⟩ : ℝ) : EReal) :=
  (pay9_logit m c hW1 hb1 hW2 hb2 hidx t r j hv).trans
    (Cert.Spec.logit_eq_coe (A0 m c) (A2 m c) (A3 m c) (A4 m c) (A5 m c) hW1 hb1 hW2 hb2 _ _ _)

/-- The block's lanes of row `r` are the scan's lanes of the token's row at block `t % 99`. -/
theorem lanes_eq (t : Fin cfg0.N) (r : Fin 2048) :
    Pay.lanes (grid0.coords t) (xb m c t) (wb m c t) (bb m c t) r = lane (rowX m c t r) (t.val % 99) := by
  funext j
  rw [Pay.lanes_apply, (coords_val t).2]
  unfold Cert.OnlineSoftmax.lane
  by_cases hv : t.val % 99 * 512 + j.val < 50257
  · rw [if_pos hv, dif_pos hv, logit_at m c hW1 hb1 hW2 hb2 hidx t r j hv]
  · rw [if_neg hv, dif_neg hv]

end

end Cert.KernelIdeal.Inv

end
-- ==== Proof.KScan.lean ====
/-
  The scan over the grid: what the three scratch rows hold after every point.

  At the first block of a row block the body resets the running maximum to the bottom element and the running sum and
  the collected logit to zero before updating them; at every other block it updates what the block before left. Read at
  row `r` each update is one step of the block-by-block scan of the row's token, so after point `t` the scratch rows hold
  the scan after `t % 99 + 1` blocks.
-/
import proofs.«406568_j15204184227955_3_alg».proof.Proof.KInv

noncomputable section

namespace Cert.KernelIdeal.Inv

open Cert.KernelIdeal Cert.KernelIdeal.Gen Cert.KernelIdeal.Blocks Cert.KernelIdeal.HostVal
open Idealize.ShloMosaic Idealize.ShloMosaic.TcCoe Idealize.SL.Sem Idealize.ShloMosaic.ValueIdx
open Cert.OnlineSoftmax (runM runL runA lane pick nextM nextL)

variable (m : (ℓ : Loc nD τ sig) → Buf (Elt Ideal) ℓ) (c : Dev nD)

/-- The scan's pick at the label's lane, -/
theorem pick_pos (x : Fin 50257 → ℝ) (g : Fin 50257) (k : ℕ) (j : Fin 512) (h : k * 512 + j.val = g.val) :
    pick x g k j = ((x g : ℝ) : EReal) := if_pos h
/-- and at every other lane. -/
theorem pick_neg (x : Fin 50257 → ℝ) (g : Fin 50257) (k : ℕ) (j : Fin 512) (h : ¬k * 512 + j.val = g.val) :
    pick x g k j = 0 := if_neg h

/-- What the tuple of staging contents after a point holds before it: the tuple of the point before. -/
abbrev prev (t : Fin cfg0.N) := outsAt0 m c (t.val - 1) (Nat.lt_of_le_of_lt (Nat.sub_le _ _) t.isLt)

/-- A piece lemma at the memrefs of point `t`. -/
local macro "atPoint% " f:term:max cc:term:max t:term:max : term =>
  `($f $cc (grid0.coords $t) (ms0_0 $t) (hs0_0 $t) (ms0_1 $t) (hs0_1 $t) (ms0_2 $t) (hs0_2 $t) (ms0_3 $t) (hs0_3 $t) (ms0_4 $t) (hs0_4 $t) (ms0_5 $t) (hs0_5 $t) scM0_0 (Memref.isWhole_whole _) scM0_1 (Memref.isWhole_whole _) scM0_2 (Memref.isWhole_whole _))

/-! ## The tuple's components, case by case -/

theorem scrA_M (t : Fin cfg0.N) (h0 : t.val % 99 = 0) (h1 : ¬t.val % 99 = 98) :
    (outsAt0 m c t.val t.isLt).2.2.1
      = k0_pay4 (k0_pay9 (xb m c t) (wb m c t) (bb m c t)) (k0_pay12 (grid0.coords t)) (k0_pay13 (F := Ideal)) (k0_pay6 (F := Ideal)) := by
  rw [outsAt0_A m c t h0 h1]
  dsimp only
  exact (atPoint% Pieces.sout0_A_0_eq c t) ((hcond0_0 t).mpr h0) (fun h => h1 ((hcond0_1 t).mp h)) (iblk m c 0 t) (iblk m c 1 t) (iblk m c 2 t) (iblk m c 3 t)

theorem scrA_L (t : Fin cfg0.N) (h0 : t.val % 99 = 0) (h1 : ¬t.val % 99 = 98) :
    (outsAt0 m c t.val t.isLt).2.2.2.1
      = k0_pay3 (k0_pay9 (xb m c t) (wb m c t) (bb m c t)) (k0_pay12 (grid0.coords t)) (k0_pay13 (F := Ideal)) (k0_pay6 (F := Ideal)) (k0_pay6 (F := Ideal)) (k0_pay7 (F := Ideal)) := by
  rw [outsAt0_A m c t h0 h1]
  dsimp only
  exact (atPoint% Pieces.sout0_A_1_eq c t) ((hcond0_0 t).mpr h0) (fun h => h1 ((hcond0_1 t).mp h)) (iblk m c 0 t) (iblk m c 1 t) (iblk m c 2 t) (iblk m c 3 t)

theorem scrA_A (t : Fin cfg0.N) (h0 : t.val % 99 = 0) (h1 : ¬t.val % 99 = 98) :
    (outsAt0 m c t.val t.isLt).2.2.2.2
      = k0_pay11 (grid0.coords t) (xb m c t) (wb m c t) (bb m c t) (tb m c t) (k0_pay8 (F := Ideal)) := by
  rw [outsAt0_A m c t h0 h1]
  dsimp only
  exact (atPoint% Pieces.sout0_A_2_eq c t) ((hcond0_0 t).mpr h0) (fun h => h1 ((hcond0_1 t).mp h)) (iblk m c 0 t) (iblk m c 1 t) (iblk m c 2 t) (iblk m c 3 t)

theorem outA_4 (t : Fin cfg0.N) (h0 : t.val % 99 = 0) (h1 : ¬t.val % 99 = 98) :
    (outsAt0 m c t.val t.isLt).1
      = (k0_pay9 (xb m c t) (wb m c t) (bb m c t)) := by
  rw [outsAt0_A m c t h0 h1]
  dsimp only
  exact (atPoint% Pieces.out0_A_4_eq c t) ((hcond0_0 t).mpr h0) (fun h => h1 ((hcond0_1 t).mp h)) (iblk m c 0 t) (iblk m c 1 t) (iblk m c 2 t) (iblk m c 3 t)

theorem scrB_M (t : Fin cfg0.N) (h0 : ¬t.val % 99 = 0) (h1 : ¬t.val % 99 = 98) :
    (outsAt0 m c t.val t.isLt).2.2.1
      = k0_pay4 (k0_pay9 (xb m c t) (wb m c t) (bb m c t)) (k0_pay12 (grid0.coords t)) (k0_pay13 (F := Ideal)) (prev m c t).2.2.1 := by
  rw [outsAt0_B m c t h0 h1]
  dsimp only
  exact (atPoint% Pieces.sout0_B_0_eq c t) (fun h => h0 ((hcond0_0 t).mp h)) (fun h => h1 ((hcond0_1 t).mp h)) (iblk m c 0 t) (iblk m c 1 t) (iblk m c 2 t) (iblk m c 3 t) (prev m c t).2.2.1 (prev m c t).2.2.2.1 (prev m c t).2.2.2.2

theorem scrB_L (t : Fin cfg0.N) (h0 : ¬t.val % 99 = 0) (h1 : ¬t.val % 99 = 98) :
    (outsAt0 m c t.val t.isLt).2.2.2.1
      = k0_pay3 (k0_pay9 (xb m c t) (wb m c t) (bb m c t)) (k0_pay12 (grid0.coords t)) (k0_pay13 (F := Ideal)) (prev m c t).2.2.1 (prev m c t).2.2.1 (prev m c t).2.2.2.1 := by
  rw [outsAt0_B m c t h0 h1]
  dsimp only
  exact (atPoint% Pieces.sout0_B_1_eq c t) (fun h => h0 ((hcond0_0 t).mp h)) (fun h => h1 ((hcond0_1 t).mp h)) (iblk m c 0 t) (iblk m c 1 t) (iblk m c 2 t) (iblk m c 3 t) (prev m c t).2.2.1 (prev m c t).2.2.2.1 (prev m c t).2.2.2.2

theorem scrB_A (t : Fin cfg0.N) (h0 : ¬t.val % 99 = 0) (h1 : ¬t.val % 99 = 98) :
    (outsAt0 m c t.val t.isLt).2.2.2.2
      = k0_pay11 (grid0.coords t) (xb m c t) (wb m c t) (bb m c t) (tb m c t) (prev m c t).2.2.2.2 := by
  rw [outsAt0_B m c t h0 h1]
  dsimp only
  exact (atPoint% Pieces.sout0_B_2_eq c t) (fun h => h0 ((hcond0_0 t).mp h)) (fun h => h1 ((hcond0_1 t).mp h)) (iblk m c 0 t) (iblk m c 1 t) (iblk m c 2 t) (iblk m c 3 t) (prev m c t).2.2.1 (prev m c t).2.2.2.1 (prev m c t).2.2.2.2

theorem outB_4 (t : Fin cfg0.N) (h0 : ¬t.val % 99 = 0) (h1 : ¬t.val % 99 = 98) :
    (outsAt0 m c t.val t.isLt).1
      = (k0_pay9 (xb m c t) (wb m c t) (bb m c t)) := by
  rw [outsAt0_B m c t h0 h1]
  dsimp only
  exact (atPoint% Pieces.out0_B_4_eq c t) (fun h => h0 ((hcond0_0 t).mp h)) (fun h => h1 ((hcond0_1 t).mp h)) (iblk m c 0 t) (iblk m c 1 t) (iblk m c 2 t) (iblk m c 3 t) (prev m c t).2.2.1 (prev m c t).2.2.2.1 (prev m c t).2.2.2.2

theorem scrC_M (t : Fin cfg0.N) (h0 : ¬t.val % 99 = 0) (h1 : t.val % 99 = 98) :
    (outsAt0 m c t.val t.isLt).2.2.1
      = k0_pay4 (k0_pay9 (xb m c t) (wb m c t) (bb m c t)) (k0_pay12 (grid0.coords t)) (k0_pay13 (F := Ideal)) (prev m c t).2.2.1 := by
  rw [outsAt0_C m c t h0 h1]
  dsimp only
  exact (atPoint% Pieces.sout0_C_0_eq c t) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2

theorem scrC_L (t : Fin cfg0.N) (h0 : ¬t.val % 99 = 0) (h1 : t.val % 99 = 98) :
    (outsAt0 m c t.val t.isLt).2.2.2.1
      = k0_pay3 (k0_pay9 (xb m c t) (wb m c t) (bb m c t)) (k0_pay12 (grid0.coords t)) (k0_pay13 (F := Ideal)) (prev m c t).2.2.1 (prev m c t).2.2.1 (prev m c t).2.2.2.1 := by
  rw [outsAt0_C m c t h0 h1]
  dsimp only
  exact (atPoint% Pieces.sout0_C_1_eq c t) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2

theorem scrC_A (t : Fin cfg0.N) (h0 : ¬t.val % 99 = 0) (h1 : t.val % 99 = 98) :
    (outsAt0 m c t.val t.isLt).2.2.2.2
      = k0_pay11 (grid0.coords t) (xb m c t) (wb m c t) (bb m c t) (tb m c t) (prev m c t).2.2.2.2 := by
  rw [outsAt0_C m c t h0 h1]
  dsimp only
  exact (atPoint% Pieces.sout0_C_2_eq c t) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2

theorem outC_4 (t : Fin cfg0.N) (h0 : ¬t.val % 99 = 0) (h1 : t.val % 99 = 98) :
    (outsAt0 m c t.val t.isLt).1
      = (k0_pay9 (xb m c t) (wb m c t) (bb m c t)) := by
  rw [outsAt0_C m c t h0 h1]
  dsimp only
  exact (atPoint% Pieces.out0_C_4_eq c t) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2

theorem outC_5 (t : Fin cfg0.N) (h0 : ¬t.val % 99 = 0) (h1 : t.val % 99 = 98) :
    (outsAt0 m c t.val t.isLt).2.1
      = k0_pay5 (k0_pay3 (k0_pay9 (xb m c t) (wb m c t) (bb m c t)) (k0_pay12 (grid0.coords t)) (k0_pay13 (F := Ideal)) (prev m c t).2.2.1 (prev m c t).2.2.1 (prev m c t).2.2.2.1) (k0_pay11 (grid0.coords t) (xb m c t) (wb m c t) (bb m c t) (tb m c t) (prev m c t).2.2.2.2) (k0_pay4 (k0_pay9 (xb m c t) (wb m c t) (bb m c t)) (k0_pay12 (grid0.coords t)) (k0_pay13 (F := Ideal)) (prev m c t).2.2.1) := by
  rw [outsAt0_C m c t h0 h1]
  dsimp only
  exact (atPoint% Pieces.out0_C_5_eq c t) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2

/-! ## One row, one point -/

section
variable (hW1 : ∀ i, Cert.Spec.IsReal (A2 m c i)) (hb1 : ∀ i, Cert.Spec.IsReal (A3 m c i))
variable (hW2 : ∀ i, Cert.Spec.IsReal (A4 m c i)) (hb2 : ∀ i, Cert.Spec.IsReal (A5 m c i))
variable (hidx : ∀ i, (A0 m c i).toNat < 50257) (htgt : ∀ i, (A1 m c i).toNat < 50257)

omit hW1 hb1 hW2 hb2 hidx in
include htgt in
/-- The label word the block holds for row `r` is the row's label column. -/
theorem tb_lab (t : Fin cfg0.N) (r : Fin 2048) : (tb m c t (ix2 r (0 : Fin 1))).toNat = (rowG m c t r).val :=
  (congrArg BitVec.toNat ((tb_apply m c t r (tokOf t r) rfl).trans (tgt_eq m c (tokOf t r)))).trans
    (Nat.mod_eq_of_lt (htgt _)).symm

include hW1 hb1 hW2 hb2 hidx htgt in
/-- A lane's contribution to the collected label logit is the scan's pick. -/
theorem pick_lane (t : Fin cfg0.N) (r : Fin 2048) (j : Fin 512) (k : ℕ) (hk : k = t.val % 99) :
    (if k * 512 + j.val = (tb m c t (ix2 r (0 : Fin 1))).toNat then k0_pay9 (F := Ideal) (xb m c t) (wb m c t) (bb m c t) (ix2 r j) else 0)
      = pick (rowX m c t r) (rowG m c t r) (t.val % 99) j := by
  subst hk
  have hl := tb_lab m c htgt t r
  by_cases hc : t.val % 99 * 512 + j.val = (rowG m c t r).val
  · have hv : t.val % 99 * 512 + j.val < 50257 := hc ▸ (rowG m c t r).isLt
    exact (if_pos (hc.trans hl.symm)).trans ((logit_at m c hW1 hb1 hW2 hb2 hidx t r j hv).trans
      ((congrArg (fun v => ((rowX m c t r v : ℝ) : EReal)) (Fin.ext hc)).trans (pick_pos _ _ _ _ hc).symm))
  · exact (if_neg (fun h => hc (h.trans hl))).trans (pick_neg _ _ _ _ hc).symm

include hW1 hb1 hW2 hb2 hidx htgt in
/-- One point's update of the three scratch rows at row `r` is one step of the scan of the row's token: from the
    scan before block `k = t % 99` to the scan before block `k + 1`. -/
theorem scan_step (t : Fin cfg0.N) (r : Fin 2048) (mo lo ao : Vec Ideal S2048x1 .f32) (k : ℕ) (hk : t.val % 99 = k)
    (hM : mo (ix2 r (0 : Fin 1)) = runM (rowX m c t r) k) (hL : lo (ix2 r (0 : Fin 1)) = runL (rowX m c t r) k)
    (hA : ao (ix2 r (0 : Fin 1)) = runA (rowX m c t r) (rowG m c t r) k) :
    k0_pay4 (k0_pay9 (xb m c t) (wb m c t) (bb m c t)) (k0_pay12 (grid0.coords t)) (k0_pay13 (F := Ideal)) mo (ix2 r (0 : Fin 1))
        = runM (rowX m c t r) (k + 1)
      ∧ k0_pay3 (k0_pay9 (xb m c t) (wb m c t) (bb m c t)) (k0_pay12 (grid0.coords t)) (k0_pay13 (F := Ideal)) mo mo lo (ix2 r (0 : Fin 1))
        = runL (rowX m c t r) (k + 1)
      ∧ k0_pay11 (grid0.coords t) (xb m c t) (wb m c t) (bb m c t) (tb m c t) ao (ix2 r (0 : Fin 1))
        = runA (rowX m c t r) (rowG m c t r) (k + 1) := by
  subst hk
  have hlan := lanes_eq m c hW1 hb1 hW2 hb2 hidx t r
  refine ⟨?_, ?_, ?_⟩
  · refine (Pay.pay4_apply (grid0.coords t) (xb m c t) (wb m c t) (bb m c t) mo r).trans ?_
    rw [hlan, hM]; rfl
  · refine (Pay.pay3_apply (grid0.coords t) (xb m c t) (wb m c t) (bb m c t) mo lo r).trans ?_
    rw [hlan, hM, hL]; rfl
  · refine (Pay.pay11_apply (grid0.coords t) (xb m c t) (wb m c t) (bb m c t) (tb m c t) ao r
      (by rw [tb_lab m c htgt t r]; exact (rowG m c t r).isLt)).trans ?_
    rw [hA]
    exact congrArg (fun s => runA (rowX m c t r) (rowG m c t r) (t.val % 99) + s)
      (Finset.sum_congr rfl fun j _ => pick_lane m c hW1 hb1 hW2 hb2 hidx htgt t r j _ (coords_val t).2)

omit hW1 hb1 hW2 hb2 hidx htgt in
/-- Two points of one row block scan the same token's row, with the same label. -/
theorem rowX_congr (t t' : Fin cfg0.N) (r : Fin 2048) (h : t.val / 99 = t'.val / 99) : rowX m c t r = rowX m c t' r := by
  unfold rowX tokOf; simp only [h]
omit hW1 hb1 hW2 hb2 hidx htgt in
theorem rowG_congr (t t' : Fin cfg0.N) (r : Fin 2048) (h : t.val / 99 = t'.val / 99) : rowG m c t r = rowG m c t' r := by
  unfold rowG tokOf; simp only [h]

/-! ## Every point -/

include hW1 hb1 hW2 hb2 hidx htgt in
/-- After point `n` the three scratch rows hold, at row `r`, the scan of the row's token after `n % 99 + 1` blocks. -/
theorem scan : ∀ (n : ℕ) (hn : n < cfg0.N) (r : Fin 2048),
    (outsAt0 m c n hn).2.2.1 (ix2 r (0 : Fin 1)) = runM (rowX m c ⟨n, hn⟩ r) (n % 99 + 1)
      ∧ (outsAt0 m c n hn).2.2.2.1 (ix2 r (0 : Fin 1)) = runL (rowX m c ⟨n, hn⟩ r) (n % 99 + 1)
      ∧ (outsAt0 m c n hn).2.2.2.2 (ix2 r (0 : Fin 1)) = runA (rowX m c ⟨n, hn⟩ r) (rowG m c ⟨n, hn⟩ r) (n % 99 + 1) := by
  intro n
  induction n with
  | zero =>
    intro hn r
    have h0 : (⟨0, hn⟩ : Fin cfg0.N).val % 99 = 0 := rfl
    have h1 : ¬(⟨0, hn⟩ : Fin cfg0.N).val % 99 = 98 := by show ¬(0 : ℕ) % 99 = 98; decide
    have st := scan_step m c hW1 hb1 hW2 hb2 hidx htgt ⟨0, hn⟩ r (k0_pay6 (F := Ideal)) (k0_pay7 (F := Ideal)) (k0_pay8 (F := Ideal)) 0 h0
      (Pay.pay6_apply r) (Pay.pay7_apply r) (Pay.pay8_apply r)
    exact ⟨(congrFun (scrA_M m c ⟨0, hn⟩ h0 h1) _).trans st.1, (congrFun (scrA_L m c ⟨0, hn⟩ h0 h1) _).trans st.2.1,
      (congrFun (scrA_A m c ⟨0, hn⟩ h0 h1) _).trans st.2.2⟩
  | succ n ih =>
    intro hn r
    have hN : cfg0.N = 198 := N_0
    by_cases h0 : (n + 1) % 99 = 0
    · have h1 : ¬(n + 1) % 99 = 98 := by omega
      have st := scan_step m c hW1 hb1 hW2 hb2 hidx htgt ⟨n + 1, hn⟩ r (k0_pay6 (F := Ideal)) (k0_pay7 (F := Ideal)) (k0_pay8 (F := Ideal)) 0 h0
        (Pay.pay6_apply r) (Pay.pay7_apply r) (Pay.pay8_apply r)
      rw [h0]
      exact ⟨(congrFun (scrA_M m c ⟨n + 1, hn⟩ h0 h1) _).trans st.1, (congrFun (scrA_L m c ⟨n + 1, hn⟩ h0 h1) _).trans st.2.1,
        (congrFun (scrA_A m c ⟨n + 1, hn⟩ h0 h1) _).trans st.2.2⟩
    · have hn' : n < cfg0.N := Nat.lt_of_succ_lt hn
      have hk : (n + 1) % 99 = n % 99 + 1 := by omega
      have hq : (⟨n + 1, hn⟩ : Fin cfg0.N).val / 99 = (⟨n, hn'⟩ : Fin cfg0.N).val / 99 := by show (n + 1) / 99 = n / 99; omega
      have hx := rowX_congr m c ⟨n + 1, hn⟩ ⟨n, hn'⟩ r hq
      have hg := rowG_congr m c ⟨n + 1, hn⟩ ⟨n, hn'⟩ r hq
      obtain ⟨iM, iL, iA⟩ := ih hn' r
      have st := scan_step m c hW1 hb1 hW2 hb2 hidx htgt ⟨n + 1, hn⟩ r (prev m c ⟨n + 1, hn⟩).2.2.1 (prev m c ⟨n + 1, hn⟩).2.2.2.1
        (prev m c ⟨n + 1, hn⟩).2.2.2.2 (n % 99 + 1) hk (by rw [hx]; exact iM) (by rw [hx]; exact iL) (by rw [hx, hg]; exact iA)
      rw [hk]
      by_cases h1 : (n + 1) % 99 = 98
      · exact ⟨(congrFun (scrC_M m c ⟨n + 1, hn⟩ h0 h1) _).trans st.1, (congrFun (scrC_L m c ⟨n + 1, hn⟩ h0 h1) _).trans st.2.1,
          (congrFun (scrC_A m c ⟨n + 1, hn⟩ h0 h1) _).trans st.2.2⟩
      · exact ⟨(congrFun (scrB_M m c ⟨n + 1, hn⟩ h0 h1) _).trans st.1, (congrFun (scrB_L m c ⟨n + 1, hn⟩ h0 h1) _).trans st.2.1,
          (congrFun (scrB_A m c ⟨n + 1, hn⟩ h0 h1) _).trans st.2.2⟩

end

end Cert.KernelIdeal.Inv

end
-- ==== Proof.KArr.lean ====
/-
  The logits array after the region.

  Every grid point writes back its block of logits, cut at the array's last column in the last vocabulary block. The
  block at point `t` holds, at `(r, j)`, the logit of flat token `2048 (t / 99) + r` at column `512 (t % 99) + j`, which is
  the array's entry there; and every entry of the 4096 × 50257 array lies in the block of point
  `99 (row / 2048) + column / 512`. So the array ends holding every token's logits.
-/
import proofs.«406568_j15204184227955_3_alg».proof.Proof.KScan

noncomputable section

namespace Cert.KernelIdeal.Arr

open Cert.KernelIdeal Cert.KernelIdeal.Gen Cert.KernelIdeal.Blocks Cert.KernelIdeal.HostVal Cert.KernelIdeal.Inv
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The logit of flat token `R` at column `C` (zero outside the array, where nothing reads it). -/
def lg (R C : ℕ) : EReal :=
  if h : R < 4096 ∧ C < 50257 then
    Cert.Spec.logit (A0 m c) (A2 m c) (A3 m c) (A4 m c) (A5 m c) (Cert.Spec.tokB ⟨R, h.1⟩) (Cert.Spec.tokS ⟨R, h.1⟩) ⟨C, h.2⟩
  else 0

/-- The logits array: entry `(R, C)` is token `R`'s logit at column `C`. -/
def G4 : Buf (Elt Ideal) ((c : Thread nD τ).loc main_v13_0) := fun i => lg m c (i 0).val (i 1).val

/-- What the logits window's block index, and the part of its block inside the array, are at a point. -/
theorem win4_facts : ∀ t : Fin cfg0.N, win0_4.index t 0 = t.val / 99 ∧ win0_4.index t 1 = t.val % 99
    ∧ win0_4.xsize (grid0.coords t) 0 = 2048 ∧ win0_4.xsize (grid0.coords t) 1 = min 512 (50257 - t.val % 99 * 512) :=
  (by decide +kernel : ∀ t : Fin grid0.N, win0_4.index t 0 = t.val / 99 ∧ win0_4.index t 1 = t.val % 99
    ∧ win0_4.xsize (grid0.coords t) 0 = 2048 ∧ win0_4.xsize (grid0.coords t) 1 = min 512 (50257 - t.val % 99 * 512))

/-- At every point the logits buffer holds the block of logits. -/
theorem out4 (t : Fin cfg0.N) : (outsAt0 m c t.val t.isLt).1 = k0_pay9 (xb m c t) (wb m c t) (bb m c t) := by
  by_cases h0 : t.val % 99 = 0
  · exact outA_4 m c t h0 (by omega)
  · by_cases h1 : t.val % 99 = 98
    · exact outC_4 m c t h0 h1
    · exact outB_4 m c t h0 h1

section
variable (hW1 : ∀ i, Cert.Spec.IsReal (A2 m c i)) (hb1 : ∀ i, Cert.Spec.IsReal (A3 m c i))
variable (hW2 : ∀ i, Cert.Spec.IsReal (A4 m c i)) (hb2 : ∀ i, Cert.Spec.IsReal (A5 m c i))
variable (hidx : ∀ i, (A0 m c i).toNat < 50257)
include hW1 hb1 hW2 hb2 hidx

/-- A lane inside the array holds the array's entry. -/
theorem pay9_lg (t : Fin cfg0.N) (r : Fin 2048) (j : Fin 512) (hv : t.val % 99 * 512 + j.val < 50257) :
    k0_pay9 (F := Ideal) (xb m c t) (wb m c t) (bb m c t) (ix2 r j) = lg m c (t.val / 99 * 2048 + r.val) (t.val % 99 * 512 + j.val) := by
  refine (pay9_logit m c hW1 hb1 hW2 hb2 hidx t r j hv).trans ?_
  unfold lg
  rw [dif_pos ⟨(tokOf t r).isLt, hv⟩]
  rfl

/-- What point `t` writes back is its block of the logits array. -/
theorem flushed4_eq (t : Fin cfg0.N) (hf : (cfg0.win 4).flush t = true) :
    (dats m 0 c).flushed 4 t = ((cfg0.win 4).blk t).view.read (Elt Ideal) (G4 m c) := by
  obtain ⟨hi0, hi1, hx0, hx1⟩ := win4_facts t
  funext y
  have hy0 : (y 0).val < 2048 := lt_of_lt_of_eq (y 0).isLt hx0
  have hy1 : (y 1).val < min 512 (50257 - t.val % 99 * 512) := lt_of_lt_of_eq (y 1).isLt hx1
  have hj : (y 1).val < 512 := lt_of_lt_of_le hy1 (Nat.min_le_left _ _)
  have hv : t.val % 99 * 512 + (y 1).val < 50257 := by have := lt_of_lt_of_le hy1 (Nat.min_le_right _ _); omega
  have e : (cfg0.win 4).xinj (grid0.coords t) y = ix2 (⟨(y 0).val, hy0⟩ : Fin 2048) (⟨(y 1).val, hj⟩ : Fin 512) := by
    funext a
    apply Fin.ext
    match a with
    | ⟨0, _⟩ => rfl
    | ⟨1, _⟩ => rfl
  show (dats m 0 c).after 4 t ((cfg0.win 4).xinj (grid0.coords t) y) = _
  refine (congrFun ((after0_4 m c t).trans (out4 m c t)) _).trans ?_
  refine (congrArg (k0_pay9 (F := Ideal) (xb m c t) (wb m c t) (bb m c t)) e).trans ?_
  refine (pay9_lg m c hW1 hb1 hW2 hb2 hidx t ⟨(y 0).val, hy0⟩ ⟨(y 1).val, hj⟩ hv).trans ?_
  have hN : cfg0.N = 198 := N_0
  have hA : t.val / 99 * 2048 + (y 0).val < 4096 := by have := t.isLt; omega
  have hI : ((cfg0.win 4).blk t).view.emb y
      = ix2 (⟨t.val / 99 * 2048 + (y 0).val, hA⟩ : Fin 4096) (⟨t.val % 99 * 512 + (y 1).val, hv⟩ : Fin 50257) := by
    funext a
    apply Fin.ext
    match a with
    | ⟨0, _⟩ => show win0_4.index t 0 * 2048 + 1 * (y 0).val = t.val / 99 * 2048 + (y 0).val; rw [hi0]; omega
    | ⟨1, _⟩ => show win0_4.index t 1 * 512 + 1 * (y 1).val = t.val % 99 * 512 + (y 1).val; rw [hi1]; omega
  rw [View.read_apply, hI]
  rfl

/-- Every entry of the logits array lies in the block some point writes back. -/
theorem cover4 (i : ((cfg0.win 4).arr.view.loc (c.tc : Thread nD τ)).2.ty.Idx) :
    ∃ t : Fin cfg0.N, (cfg0.win 4).flush t = true ∧ i ∈ ((cfg0.win 4).blk t).view.set := by
  have hN : cfg0.N = 198 := N_0
  have h0 : (i 0).val < 4096 := (i 0).isLt
  have h1 : (i 1).val < 50257 := (i 1).isLt
  let t : Fin cfg0.N := ⟨(i 0).val / 2048 * 99 + (i 1).val / 512, by omega⟩
  have ht : t.val = (i 0).val / 2048 * 99 + (i 1).val / 512 := rfl
  obtain ⟨hi0, hi1, hx0, hx1⟩ := win4_facts t
  refine ⟨t, flush0_4 t, ?_⟩
  show i ∈ ((View.whole main_v13_0).slice (win0_4.rect t)).set
  rw [View.set_slice_whole, Rect.mem_set_unit]
  intro a
  match a with
  | ⟨0, _⟩ =>
    show win0_4.index t 0 * 2048 ≤ (i 0).val ∧ (i 0).val < win0_4.index t 0 * 2048 + win0_4.xsize (grid0.coords t) 0
    rw [hi0, hx0, ht]; omega
  | ⟨1, _⟩ =>
    show win0_4.index t 1 * 512 ≤ (i 1).val ∧ (i 1).val < win0_4.index t 1 * 512 + win0_4.xsize (grid0.coords t) 1
    rw [hi1, hx1, ht]; omega

/-- So the logits array ends holding every token's logits. -/
theorem final4 : (dats m 0 c).arrAt 4 cfg0.N = G4 m c :=
  (dats m 0 c).arrAt_eq_of_cover 4 (G4 m c) (flushed4_eq m c hW1 hb1 hW2 hb2 hidx) (cover4 m c hW1 hb1 hW2 hb2 hidx)

end

/-! ## The loss-term array -/

/-- The loss term of flat token `R` (zero outside the array, where nothing reads it). -/
def nl (R : ℕ) : EReal :=
  if h : R < 4096 then
    Cert.Spec.nll (A0 m c) (A1 m c) (A2 m c) (A3 m c) (A4 m c) (A5 m c) (Cert.Spec.tokB ⟨R, h⟩) (Cert.Spec.tokS ⟨R, h⟩)
  else 0

/-- The loss-term array: entry `(R, 0)` is token `R`'s loss term. -/
def G5 : Buf (Elt Ideal) ((c : Thread nD τ).loc main_v13_1) := fun i => nl m c (i 0).val

/-- What the loss window's block index, and its block's extents, are at a point. -/
theorem win5_facts : ∀ t : Fin cfg0.N, win0_5.index t 0 = t.val / 99 ∧ win0_5.index t 1 = 0
    ∧ win0_5.xsize (grid0.coords t) 0 = 2048 ∧ win0_5.xsize (grid0.coords t) 1 = 1 :=
  (by decide +kernel : ∀ t : Fin grid0.N, win0_5.index t 0 = t.val / 99 ∧ win0_5.index t 1 = 0
    ∧ win0_5.xsize (grid0.coords t) 0 = 2048 ∧ win0_5.xsize (grid0.coords t) 1 = 1)

/-- From the scan's three final values the last block's loss term at a row is the two-pass one. -/
theorem fin_row (l a mx : Vec Ideal S2048x1 .f32) (r : Fin 2048) (x : Fin 50257 → ℝ) (g : Fin 50257)
    (hl : l (ix2 r (0 : Fin 1)) = Cert.OnlineSoftmax.runL x 99) (ha : a (ix2 r (0 : Fin 1)) = Cert.OnlineSoftmax.runA x g 99)
    (hm : mx (ix2 r (0 : Fin 1)) = Cert.OnlineSoftmax.runM x 99) :
    k0_pay5 (F := Ideal) l a mx (ix2 r (0 : Fin 1))
      = -((((x g : ℝ) : EReal) - max ⊥ (Cert.OnlineSoftmax.rowMax x))
          - Ideal.log (0 + ∑ v : Fin 50257, Ideal.exp (((x v : ℝ) : EReal) - max ⊥ (Cert.OnlineSoftmax.rowMax x)))) := by
  rw [Pay.pay5_apply, hl, ha, hm, if_pos (Cert.OnlineSoftmax.runL_pos x), Cert.OnlineSoftmax.nll_eq]

section
variable (hW1 : ∀ i, Cert.Spec.IsReal (A2 m c i)) (hb1 : ∀ i, Cert.Spec.IsReal (A3 m c i))
variable (hW2 : ∀ i, Cert.Spec.IsReal (A4 m c i)) (hb2 : ∀ i, Cert.Spec.IsReal (A5 m c i))
variable (hidx : ∀ i, (A0 m c i).toNat < 50257) (htgt : ∀ i, (A1 m c i).toNat < 50257)
include hW1 hb1 hW2 hb2 hidx htgt

/-- After the last block of a row block the loss buffer holds, at row `r`, the loss term of the row's token. -/
theorem out5 (t : Fin cfg0.N) (h1 : t.val % 99 = 98) (r : Fin 2048) :
    (outsAt0 m c t.val t.isLt).2.1 (ix2 r (0 : Fin 1)) = nl m c (t.val / 99 * 2048 + r.val) := by
  have h0 : ¬t.val % 99 = 0 := by omega
  have hk : t.val % 99 + 1 = 99 := by omega
  obtain ⟨sM, sL, sA⟩ := scan m c hW1 hb1 hW2 hb2 hidx htgt t.val t.isLt r
  rw [hk] at sM sL sA
  refine (congrFun (outC_5 m c t h0 h1) _).trans ?_
  refine (fin_row _ _ _ r (rowX m c t r) (rowG m c t r)
    ((congrFun (scrC_L m c t h0 h1) _).symm.trans sL) ((congrFun (scrC_A m c t h0 h1) _).symm.trans sA)
    ((congrFun (scrC_M m c t h0 h1) _).symm.trans sM)).trans ?_
  unfold nl
  rw [dif_pos (show t.val / 99 * 2048 + r.val < 4096 from (tokOf t r).isLt)]
  rfl

/-- What the last point of a row block writes back is its block of the loss-term array. -/
theorem flushed5_eq (t : Fin cfg0.N) (hf : (cfg0.win 5).flush t = true) :
    (dats m 0 c).flushed 5 t = ((cfg0.win 5).blk t).view.read (Elt Ideal) (G5 m c) := by
  have h1 : t.val % 99 = 98 := (flush0_5 t).mp hf
  obtain ⟨hi0, hi1, hx0, hx1⟩ := win5_facts t
  funext y
  have hy0 : (y 0).val < 2048 := lt_of_lt_of_eq (y 0).isLt hx0
  have hy1 : (y 1).val = 0 := by have := lt_of_lt_of_eq (y 1).isLt hx1; omega
  have e : (cfg0.win 5).xinj (grid0.coords t) y = ix2 (⟨(y 0).val, hy0⟩ : Fin 2048) (0 : Fin 1) := by
    funext a
    apply Fin.ext
    match a with
    | ⟨0, _⟩ => rfl
    | ⟨1, _⟩ => exact hy1
  show (dats m 0 c).after 5 t ((cfg0.win 5).xinj (grid0.coords t) y) = _
  refine (congrFun (after0_5 m c t) _).trans ?_
  refine (congrArg (outsAt0 m c t.val t.isLt).2.1 e).trans ?_
  refine (out5 m c hW1 hb1 hW2 hb2 hidx htgt t h1 ⟨(y 0).val, hy0⟩).trans ?_
  have hN : cfg0.N = 198 := N_0
  have hA : t.val / 99 * 2048 + (y 0).val < 4096 := by have := t.isLt; omega
  have hI : ((cfg0.win 5).blk t).view.emb y = ix2 (⟨t.val / 99 * 2048 + (y 0).val, hA⟩ : Fin 4096) (0 : Fin 1) := by
    funext a
    apply Fin.ext
    match a with
    | ⟨0, _⟩ => show win0_5.index t 0 * 2048 + 1 * (y 0).val = t.val / 99 * 2048 + (y 0).val; rw [hi0]; omega
    | ⟨1, _⟩ => show win0_5.index t 1 * 1 + 1 * (y 1).val = 0; rw [hi1, hy1]
  rw [View.read_apply, hI]
  rfl

/-- Every entry of the loss-term array lies in the block the last point of its row block writes back. -/
theorem cover5 (i : ((cfg0.win 5).arr.view.loc (c.tc : Thread nD τ)).2.ty.Idx) :
    ∃ t : Fin cfg0.N, (cfg0.win 5).flush t = true ∧ i ∈ ((cfg0.win 5).blk t).view.set := by
  have hN : cfg0.N = 198 := N_0
  have h0 : (i 0).val < 4096 := (i 0).isLt
  have h1 : (i 1).val < 1 := (i 1).isLt
  let t : Fin cfg0.N := ⟨(i 0).val / 2048 * 99 + 98, by omega⟩
  have ht : t.val = (i 0).val / 2048 * 99 + 98 := rfl
  obtain ⟨hi0, hi1, hx0, hx1⟩ := win5_facts t
  refine ⟨t, (flush0_5 t).mpr (by rw [ht]; omega), ?_⟩
  show i ∈ ((View.whole main_v13_1).slice (win0_5.rect t)).set
  rw [View.set_slice_whole, Rect.mem_set_unit]
  intro a
  match a with
  | ⟨0, _⟩ =>
    show win0_5.index t 0 * 2048 ≤ (i 0).val ∧ (i 0).val < win0_5.index t 0 * 2048 + win0_5.xsize (grid0.coords t) 0
    rw [hi0, hx0, ht]; omega
  | ⟨1, _⟩ =>
    show win0_5.index t 1 * 1 ≤ (i 1).val ∧ (i 1).val < win0_5.index t 1 * 1 + win0_5.xsize (grid0.coords t) 1
    rw [hi1, hx1]; omega

/-- So the loss-term array ends holding every token's loss term. -/
theorem final5 : (dats m 0 c).arrAt 5 cfg0.N = G5 m c :=
  (dats m 0 c).arrAt_eq_of_cover 5 (G5 m c) (flushed5_eq m c hW1 hb1 hW2 hb2 hidx htgt) (cover5 m c hW1 hb1 hW2 hb2 hidx htgt)

end

end Cert.KernelIdeal.Arr

end
-- ==== Proof.KRun.lean ====
/-
  The kernel program's run, with both results as the functions of `Spec`.

  After the region the host reshapes the 4096 × 50257 logits array to 4 × 1024 × 50257 and the 4096 × 1 loss terms to
  4 × 1024, sums the loss terms from zero and divides by 4096. Flat token `1024 b + s` is token `(b, s)`, so the first
  result is `Spec.logitsOut` and the second `Spec.lossOut` of the program's arguments.
-/
import proofs.«406568_j15204184227955_3_alg».proof.Proof.KArr
import Idealize.ShloMosaic.Lib.StableHlo.Run

noncomputable section

namespace Cert.KernelIdeal.Run

open Cert.KernelIdeal Cert.KernelIdeal.Gen Cert.KernelIdeal.Blocks Cert.KernelIdeal.HostVal Cert.KernelIdeal.Inv Cert.KernelIdeal.Arr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- What the region leaves in the logits array and in the loss-term array, as the host tail finds them. -/
theorem arr4 : Pipeline.withArrays (cfgs 0).spec c (V0 m c) (fun w => (dats m 0 c).arrAt w (cfgs 0).N) (Proc.devRef .tc main_v13_0)
    = (dats m 0 c).arrAt 4 cfg0.N :=
  Pipeline.withArrays_arr (cfgs 0).spec launch0.win.arr_inj c (V0 m c) (fun w => (dats m 0 c).arrAt w (cfgs 0).N) 4
theorem arr5 : Pipeline.withArrays (cfgs 0).spec c (V0 m c) (fun w => (dats m 0 c).arrAt w (cfgs 0).N) (Proc.devRef .tc main_v13_1)
    = (dats m 0 c).arrAt 5 cfg0.N :=
  Pipeline.withArrays_arr (cfgs 0).spec launch0.win.arr_inj c (V0 m c) (fun w => (dats m 0 c).arrAt w (cfgs 0).N) 5

/-- After the host tail the first result is the reshaped logits array, -/
theorem tail14 : Pipeline.afterTail₀ cfgs (dats m) 0 (V0 m) [hostOps1] c main_v14
    = shapeCast S4x1024x50257 ((dats m 0 c).arrAt 4 cfg0.N) shapeCasts_S4096x50257_S4x1024x50257 := by
  unfold Pipeline.afterTail₀
  show StableHlo.after hostOps1 _ (Proc.devRef .tc main_v14) = _
  after_results
  rw [arr4 m c]
  rfl

/-- and the second the sum of the reshaped loss terms from zero, over 4096. -/
theorem tail17 : Pipeline.afterTail₀ cfgs (dats m) 0 (V0 m) [hostOps1] c main_v17
    = Host.divf (Host.reduceAdd (shapeCast S4x1024 ((dats m 0 c).arrAt 5 cfg0.N) shapeCasts_S4096x1_S4x1024)
        (constant (F := Ideal) S_ .f32 0x00000000#32) reducesTo_S4x1024_S_d0_1 h_S_) (constant (F := Ideal) S_ .f32 0x45800000#32) := by
  unfold Pipeline.afterTail₀
  show StableHlo.after hostOps1 _ (Proc.devRef .tc main_v17) = _
  after_results
  rw [arr5 m c]
  rfl

section
variable (hW1 : ∀ i, Cert.Spec.IsReal (A2 m c i)) (hb1 : ∀ i, Cert.Spec.IsReal (A3 m c i))
variable (hW2 : ∀ i, Cert.Spec.IsReal (A4 m c i)) (hb2 : ∀ i, Cert.Spec.IsReal (A5 m c i))
variable (hidx : ∀ i, (A0 m c i).toNat < 50257) (htgt : ∀ i, (A1 m c i).toNat < 50257)

include hW1 hb1 hW2 hb2 hidx in
/-- The reshaped logits array is every token's logits: flat token `1024 b + s` is token `(b, s)`. -/
theorem res14 : shapeCast S4x1024x50257 ((dats m 0 c).arrAt 4 cfg0.N) shapeCasts_S4096x50257_S4x1024x50257
    = Cert.Spec.logitsOut (A0 m c) (A2 m c) (A3 m c) (A4 m c) (A5 m c) := by
  rw [final4 m c hW1 hb1 hW2 hb2 hidx]
  funext i
  obtain ⟨b, s, v, rfl⟩ : ∃ (b : Fin 4) (s : Fin 1024) (v : Fin 50257), i = ix3 b s v := ⟨i 0, i 1, i 2, eq_ix3 i⟩
  have hR : b.val * 1024 + s.val < 4096 := by have := b.isLt; have := s.isLt; omega
  refine (shapeCast_apply _ _ (ix3 b s v) (ix2 (⟨b.val * 1024 + s.val, hR⟩ : Fin 4096) v) (by
    rw [Shape.rowMajor_val_two, Shape.rowMajor_val_three]
    show (b.val * 1024 + s.val) * 50257 + v.val = (b.val * 1024 + s.val) * 50257 + v.val
    rfl)).trans ?_
  show lg m c (b.val * 1024 + s.val) v.val = Cert.Spec.logit _ _ _ _ _ b s v
  unfold lg
  rw [dif_pos ⟨hR, v.isLt⟩]
  have eb : Cert.Spec.tokB ⟨b.val * 1024 + s.val, hR⟩ = b :=
    Fin.ext (by show (b.val * 1024 + s.val) / 1024 = b.val; have := s.isLt; omega)
  have es : Cert.Spec.tokS ⟨b.val * 1024 + s.val, hR⟩ = s :=
    Fin.ext (by show (b.val * 1024 + s.val) % 1024 = s.val; have := s.isLt; omega)
  rw [eb, es]

include hW1 hb1 hW2 hb2 hidx htgt in
/-- The reshaped loss terms, summed from zero and divided by 4096, are the mean loss. -/
theorem res17 : Host.divf (Host.reduceAdd (shapeCast S4x1024 ((dats m 0 c).arrAt 5 cfg0.N) shapeCasts_S4096x1_S4x1024)
        (constant (F := Ideal) S_ .f32 0x00000000#32) reducesTo_S4x1024_S_d0_1 h_S_) (constant (F := Ideal) S_ .f32 0x45800000#32)
    = Cert.Spec.lossOut (A0 m c) (A1 m c) (A2 m c) (A3 m c) (A4 m c) (A5 m c) := by
  rw [final5 m c hW1 hb1 hW2 hb2 hidx htgt]
  funext i
  show FloatOps.hostDivf (Host.reduceAdd (shapeCast S4x1024 (G5 m c) shapeCasts_S4096x1_S4x1024)
      (constant (F := Ideal) S_ .f32 0x00000000#32) reducesTo_S4x1024_S_d0_1 h_S_ i) (Ideal.ofBits .f32 0x45800000#32) = _
  simp only [Host.reduceAdd, Ideal.hostReduceAdd_def, Ideal.hostDivf_def]
  rw [Ideal.hostReduceAdd_total reducesTo_S4x1024_S_d0_1 (fun b => b.elim0) _ _ i]
  unfold Cert.Spec.lossOut
  refine congrArg₂ Ideal.div (congrArg₂ (fun (a b : EReal) => a + b) rfl (Finset.sum_congr rfl fun j _ => ?_)) rfl
  obtain ⟨b, s, rfl⟩ : ∃ (b : Fin 4) (s : Fin 1024), j = ix2 b s := ⟨j 0, j 1, eq_ix2 j⟩
  have hR : b.val * 1024 + s.val < 4096 := by have := b.isLt; have := s.isLt; omega
  refine (shapeCast_apply _ _ (ix2 b s) (ix2 (⟨b.val * 1024 + s.val, hR⟩ : Fin 4096) (0 : Fin 1)) (by
    rw [Shape.rowMajor_val_two, Shape.rowMajor_val_two]
    show (b.val * 1024 + s.val) * 1 + 0 = b.val * 1024 + s.val
    omega)).trans ?_
  show nl m c (b.val * 1024 + s.val) = Cert.Spec.nll _ _ _ _ _ _ b s
  unfold nl
  rw [dif_pos hR]
  have eb : Cert.Spec.tokB ⟨b.val * 1024 + s.val, hR⟩ = b :=
    Fin.ext (by show (b.val * 1024 + s.val) / 1024 = b.val; have := s.isLt; omega)
  have es : Cert.Spec.tokS ⟨b.val * 1024 + s.val, hR⟩ = s :=
    Fin.ext (by show (b.val * 1024 + s.val) % 1024 = s.val; have := s.isLt; omega)
  rw [eb, es]

end

/-- THE RUN. When on every core the float arguments hold reals and the two index arguments hold column numbers, every
    weakly fair execution of the kernel program terminates with its first result at every token's logits, its second at
    the mean loss, and its arguments unchanged. -/
theorem run (ρ : Dev nD → PrngReg)
    (hdom : ∀ c, (∀ i, Cert.Spec.IsReal (A2 m c i)) ∧ (∀ i, Cert.Spec.IsReal (A3 m c i)) ∧ (∀ i, Cert.Spec.IsReal (A4 m c i))
      ∧ (∀ i, Cert.Spec.IsReal (A5 m c i)) ∧ (∀ i, (A0 m c i).toNat < 50257) ∧ (∀ i, (A1 m c i).toNat < 50257)) :
    θ_run defs (onTc (τ := τ) (main (F := Ideal))) ⟨m, fun _ => 0, ρ⟩ (fun r => ∀ c : Dev nD,
      r.2.mem ((c.tc : Thread nD τ).loc main_v14) = Cert.Spec.logitsOut (A0 m c) (A2 m c) (A3 m c) (A4 m c) (A5 m c)
      ∧ r.2.mem ((c.tc : Thread nD τ).loc main_v17) = Cert.Spec.lossOut (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨hW1, hb1, hW2, hb2, hidx, htgt⟩ := hdom c
    exact ⟨((h c).2 main_v14 (Pipeline.mem_restRefs_of main_v14 (by decide) (by decide))).trans
        ((tail14 m c).trans (res14 m c hW1 hb1 hW2 hb2 hidx)),
      ((h c).2 main_v17 (Pipeline.mem_restRefs_of main_v17 (by decide) (by decide))).trans
        ((tail17 m c).trans (res17 m c hW1 hb1 hW2 hb2 hidx htgt)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.lean ====
/-
  The certificate of an online-softmax cross-entropy kernel against its jnp reference, over the extended reals.

  Both programs take token indices `idx` and labels `targets` (4 × 1024 words), an embedding table `W1` (256 × 50257),
  a bias `b1`, an output matrix `W2` (50257 × 256) and a bias `b2`. A token's hidden vector is column `idx` of `W1` plus
  `b1`, clipped below at zero; its logits are the hidden vector against the rows of `W2`, plus `b2`; its loss term is the
  negative log-softmax of the logits at its label. The results are the logits of all 4096 tokens and the mean loss.

  The kernel scans each token's 50257 logits in 99 blocks of 512 lanes, keeping a running maximum `m`, the sum `l` of
  exponentials relative to `m`, and the label's logit; the lanes past column 50256, and the running maximum's starting
  value, are a large negative constant that the idealization reads as minus infinity, so those lanes add `exp(-∞) = 0`.
  After the last block `l · exp m` is the plain sum of the row's exponentials whatever values `m` took, hence
  `m + log l` is the row's log-sum-exp; the reference's two-pass form (subtract the row maximum, exponentiate, sum,
  take the logarithm) has the same value (`OnlineSoftmax`). Finiteness of the four float inputs makes every logit a real,
  which is what lets the exponentials be re-based; the index inputs in range make the two gathers of the two programs
  read the same entries (`Domain`, from the precondition).

  The kernel's run: the scratch contents after every grid point are the scan after that many blocks, by induction over
  the 198 points (`KScan`); the logits array is covered by the blocks written back, the last one cut at the array's end,
  and the loss terms are written at the last block of each row block (`KArr`); the host tail reshapes, sums and divides
  (`KRun`). The reference's run is read one operation at a time (`RefVal`). Both end at the functions of `Spec`.
-/
import proofs.«406568_j15204184227955_3_alg».proof.Defs
import proofs.«406568_j15204184227955_3_alg».proof.Proof.Gen.Kernel
import proofs.«406568_j15204184227955_3_alg».proof.Proof.Gen.Kernel.Skeleton
import proofs.«406568_j15204184227955_3_alg».proof.Proof.Gen.Kernel.Launch
import proofs.«406568_j15204184227955_3_alg».proof.Proof.Gen.Kernel.Points
import proofs.«406568_j15204184227955_3_alg».proof.Proof.Gen.Kernel.Frame
import proofs.«406568_j15204184227955_3_alg».proof.Proof.Gen.KernelIdeal
import proofs.«406568_j15204184227955_3_alg».proof.Proof.Gen.KernelIdeal.Skeleton
import proofs.«406568_j15204184227955_3_alg».proof.Proof.Gen.KernelIdeal.Launch
import proofs.«406568_j15204184227955_3_alg».proof.Proof.Gen.KernelIdeal.Points
import proofs.«406568_j15204184227955_3_alg».proof.Proof.Gen.KernelIdeal.Frame
import proofs.«406568_j15204184227955_3_alg».proof.Proof.Gen.ReferenceIdeal
import proofs.«406568_j15204184227955_3_alg».proof.Proof.Gen.Pre_finite_inputs
import proofs.«406568_j15204184227955_3_alg».proof.Proof.RefRun
import proofs.«406568_j15204184227955_3_alg».proof.Proof.RefRead
import proofs.«406568_j15204184227955_3_alg».proof.Proof.RefVal
import proofs.«406568_j15204184227955_3_alg».proof.Proof.Domain
import proofs.«406568_j15204184227955_3_alg».proof.Proof.KRun
import Idealize.ShloMosaic.Adequacy
import Idealize.ShloMosaic.Init

noncomputable section

namespace Cert.Proof

open Idealize.ShloMosaic Idealize.ShloMosaic.TcCoe Idealize.SL.Sem

/-- The reference runs and leaves its arguments unchanged: its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization named the kernel's large negative constant minus infinity at its two sites. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- From memories that agree on the arguments both programs end with every token's logits and the mean loss. -/
theorem algebraic : Cert.algebraic_KernelIdeal_ReferenceIdeal := by
  intro m ρ m' ρ' hpre hagree
  have hdom := fun c => Cert.Domain.of_pre _ _ _ _ _ _ (hpre c)
  refine ⟨fun c => Cert.Spec.logitsOut (Cert.KernelIdeal.HostVal.A0 m c) (Cert.KernelIdeal.HostVal.A2 m c) (Cert.KernelIdeal.HostVal.A3 m c)
      (Cert.KernelIdeal.HostVal.A4 m c) (Cert.KernelIdeal.HostVal.A5 m c),
    fun c => Cert.Spec.lossOut (Cert.KernelIdeal.HostVal.A0 m c) (Cert.KernelIdeal.HostVal.A1 m c) (Cert.KernelIdeal.HostVal.A2 m c)
      (Cert.KernelIdeal.HostVal.A3 m c) (Cert.KernelIdeal.HostVal.A4 m c) (Cert.KernelIdeal.HostVal.A5 m c),
    Cert.KernelIdeal.Run.run m ρ fun c => hdom c, ?_⟩
  refine (θ_run Cert.ReferenceIdeal.defs _ _).mono (fun _ h c => ?_) (Cert.ReferenceIdeal.ValueP.run (F := Ideal) m' ρ')
  obtain ⟨hW1, hb1, hW2, hb2, hidx, htgt⟩ := hdom c
  obtain ⟨e0, e1, e2, e3, e4, e5⟩ := hagree c
  refine ⟨(h c).1.trans ?_, (h c).2.1.trans ?_, (h c).2.2⟩
  · rw [Cert.ReferenceIdeal.ReadP.val_main_v15_eq, e0, e2, e3, e4, e5]
    exact Cert.ReferenceIdeal.RefVal.logits_eq _ _ _ _ _ hidx
  · rw [Cert.ReferenceIdeal.ReadP.val_main_v22_eq, e0, e1, e2, e3, e4, e5]
    exact Cert.ReferenceIdeal.RefVal.loss_eq _ _ _ _ _ _ hW1 hb1 hW2 hb2 hidx htgt

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, preserves, algebraic⟩

end Cert.Proof

end
